-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v132)) (v1 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_v150) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v163) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S2x128x64 : Shape := ⟨3, ![2, 128, 64]⟩
abbrev S2x64 : Shape := ⟨2, ![2, 64]⟩
abbrev S1x64 : Shape := ⟨2, ![1, 64]⟩
abbrev S800000 : Shape := ⟨1, ![800000]⟩
abbrev S4000000 : Shape := ⟨1, ![4000000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S2x64 .f32) (main_arg8 : FVec F S2x64 .f32) (main_arg9 : FVec F S1x64 .f32) (main_v33 : IVec S_ 1) : IVec S_ 1 :=
  let main_v34 : FVec F S2x64 .f32 := Host.absf main_arg7
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S1x64 .f32 := Host.absf main_arg9
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  main_v48

def fn_part1 {F : FTy → Type} [FloatOps F] (main_arg4 : FVec F S2x64 .f32) (main_arg5 : FVec F S2x64 .f32) (main_arg6 : FVec F S2x64 .f32) (main_arg7 : FVec F S2x64 .f32) (main_arg8 : FVec F S2x64 .f32) (main_arg9 : FVec F S1x64 .f32) (main_v13 : IVec S_ 1) (main_v16 : IVec S2x128x64 1) : IVec S_ 1 :=
  let main_c_5 : IVec S_ 1 := constantI S_ 1 1#1
  let main_v17 : IVec S_ 1 := (fun x v => Host.reduce IntOp.andi x v reducesTo_S2x128x64_S_d0_1_2 h_S_) main_v16 main_c_5
  let main_v18 : IVec S_ 1 := andi main_v13 main_v17
  let main_v19 : FVec F S2x64 .f32 := Host.absf main_arg4
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x128 .f32) (main_arg1 : FVec F S128x64 .f32) (main_arg2 : FVec F S64 .f32) (main_arg3 : FVec F S2x128x64 .f32) (main_arg4 : FVec F S2x64 .f32) (main_arg5 : FVec F S2x64 .f32) (main_arg6 : FVec F S2x64 .f32) (main_arg7 : FVec F S2x64 .f32) (main_arg8 : FVec F S2x64 .f32) (main_arg9 : FVec F S1x64 .f32) (main_arg10 : IVec S800000 32) (main_arg11 : IVec S800000 32) (main_arg12 : IVec S4000000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x128x64 .f32 := Host.absf main_arg3
  let main_cst_4 : FVec F S_ .f32 := constant S_ .f32 0x7F800000#32
  let main_v15 : FVec F S2x128x64 .f32 := broadcastInDim S2x128x64 ![] bcast_S_S2x128x64 main_cst_4
  let main_v16 : IVec S2x128x64 1 := cmpf .olt main_v14 main_v15
  fn_part1 (F := F) main_arg4 main_arg5 main_arg6 main_arg7 main_arg8 main_arg9 main_v13 main_v16
-- ==== Kernel.lean ====
abbrev S50000x128 : Shape := ⟨2, ![50000, 128]⟩
abbrev S128x64 : Shape := ⟨2, ![128, 64]⟩
abbrev S64 : Shape := ⟨1, ![64]⟩
abbrev S2x128x64 : Shape := ⟨3, ![2, 128, 64]⟩
abbrev S2x64 : Shape := ⟨2, ![2, 64]⟩
abbrev S1x64 : Shape := ⟨2, ![1, 64]⟩
abbrev S800000 : Shape := ⟨1, ![800000]⟩
abbrev S4000000 : Shape := ⟨1, ![4000000]⟩
abbrev S50000x64 : Shape := ⟨2, ![50000, 64]⟩
abbrev S5000x128 : Shape := ⟨2, ![5000, 128]⟩
abbrev S5000x64 : Shape := ⟨2, ![5000, 64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64x64 : Shape := ⟨3, ![1, 64, 64]⟩
abbrev S64x64 : Shape := ⟨2, ![64, 64]⟩
abbrev S64x128 : Shape := ⟨2, ![64, 128]⟩
abbrev S800000x64 : Shape := ⟨2, ![800000, 64]⟩
abbrev S25000x128 : Shape := ⟨2, ![25000, 128]⟩
abbrev S128 : Shape := ⟨1, ![128]⟩
abbrev S1x128 : Shape := ⟨2, ![1, 128]⟩
abbrev S800000x5 : Shape := ⟨2, ![800000, 5]⟩
abbrev S4000000x1 : Shape := ⟨2, ![4000000, 1]⟩
abbrev S4000000x64 : Shape := ⟨2, ![4000000, 64]⟩

abbrev nBuf : Space → Nat
  | .hbm => 182
  | .vmem => 36
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S2x128x64, .f32⟩
  | 4 => ⟨S2x64, .f32⟩
  | 5 => ⟨S2x64, .f32⟩
  | 6 => ⟨S2x64, .f32⟩
  | 7 => ⟨S2x64, .f32⟩
  | 8 => ⟨S2x64, .f32⟩
  | 9 => ⟨S1x64, .f32⟩
  | 10 => ⟨S800000, .i32⟩
  | 11 => ⟨S800000, .i32⟩
  | 12 => ⟨S4000000, .i32⟩
  | 13 => ⟨S1x64, .f32⟩
  | 14 => ⟨S50000x64, .f32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S50000x1, .f32⟩
  | 22 => ⟨S1x64x64, .f32⟩
  | 23 => ⟨S64x64, .f32⟩
  | 24 => ⟨S1x64x64, .f32⟩
  | 25 => ⟨S64x64, .f32⟩
  | 26 => ⟨S64x128, .f32⟩
  | 27 => ⟨S50000x128, .f32⟩
  | 28 => ⟨S50000x64, .f32⟩
  | 29 => ⟨S50000x64, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x64, .f32⟩
  | 39 => ⟨S_, .f32⟩
  | 40 => ⟨S50000x64, .f32⟩
  | 41 => ⟨S800000x1, .i32⟩
  | 42 => ⟨S50000x64, .f32⟩
  | 43 => ⟨S1x64, .f32⟩
  | 44 => ⟨S64, .f32⟩
  | 45 => ⟨S1x64, .f32⟩
  | 46 => ⟨S50000x64, .f32⟩
  | 47 => ⟨S50000x64, .f32⟩
  | 48 => ⟨S50000x64, .f32⟩
  | 49 => ⟨S50000x64, .f32⟩
  | 50 => ⟨S50000x64, .f32⟩
  | 51 => ⟨S1x64, .f32⟩
  | 52 => ⟨S64, .f32⟩
  | 53 => ⟨S1x64, .f32⟩
  | 54 => ⟨S64, .f32⟩
  | 55 => ⟨S1x64, .f32⟩
  | 56 => ⟨S64, .f32⟩
  | 57 => ⟨S1x64, .f32⟩
  | 58 => ⟨S64, .f32⟩
  | 59 => ⟨S25000x128, .f32⟩
  | 60 => ⟨S25000x128, .f32⟩
  | 61 => ⟨S1x64, .f32⟩
  | 62 => ⟨S2x64, .f32⟩
  | 63 => ⟨S128, .f32⟩
  | 64 => ⟨S1x128, .f32⟩
  | 65 => ⟨S1x64, .f32⟩
  | 66 => ⟨S2x64, .f32⟩
  | 67 => ⟨S128, .f32⟩
  | 68 => ⟨S1x128, .f32⟩
  | 69 => ⟨S1x64, .f32⟩
  | 70 => ⟨S2x64, .f32⟩
  | 71 => ⟨S128, .f32⟩
  | 72 => ⟨S1x128, .f32⟩
  | 73 => ⟨S1x64, .f32⟩
  | 74 => ⟨S2x64, .f32⟩
  | 75 => ⟨S128, .f32⟩
  | 76 => ⟨S1x128, .f32⟩
  | 77 => ⟨S25000x128, .f32⟩
  | 78 => ⟨S50000x64, .f32⟩
  | 79 => ⟨S1x64x64, .f32⟩
  | 80 => ⟨S64x64, .f32⟩
  | 81 => ⟨S1x64x64, .f32⟩
  | 82 => ⟨S64x64, .f32⟩
  | 83 => ⟨S64x128, .f32⟩
  | 84 => ⟨S50000x128, .f32⟩
  | 85 => ⟨S50000x64, .f32⟩
  | 86 => ⟨S50000x64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S_, .f32⟩
  | 97 => ⟨S50000x64, .f32⟩
  | 98 => ⟨S800000x1, .i32⟩
  | 99 => ⟨S50000x64, .f32⟩
  | 100 => ⟨S1x64, .f32⟩
  | 101 => ⟨S64, .f32⟩
  | 102 => ⟨S1x64, .f32⟩
  | 103 => ⟨S50000x64, .f32⟩
  | 104 => ⟨S50000x64, .f32⟩
  | 105 => ⟨S50000x64, .f32⟩
  | 106 => ⟨S50000x64, .f32⟩
  | 107 => ⟨S50000x64, .f32⟩
  | 108 => ⟨S1x64, .f32⟩
  | 109 => ⟨S64, .f32⟩
  | 110 => ⟨S1x64, .f32⟩
  | 111 => ⟨S64, .f32⟩
  | 112 => ⟨S1x64, .f32⟩
  | 113 => ⟨S64, .f32⟩
  | 114 => ⟨S1x64, .f32⟩
  | 115 => ⟨S64, .f32⟩
  | 116 => ⟨S25000x128, .f32⟩
  | 117 => ⟨S25000x128, .f32⟩
  | 118 => ⟨S1x64, .f32⟩
  | 119 => ⟨S2x64, .f32⟩
  | 120 => ⟨S128, .f32⟩
  | 121 => ⟨S1x128, .f32⟩
  | 122 => ⟨S1x64, .f32⟩
  | 123 => ⟨S2x64, .f32⟩
  | 124 => ⟨S128, .f32⟩
  | 125 => ⟨S1x128, .f32⟩
  | 126 => ⟨S1x64, .f32⟩
  | 127 => ⟨S2x64, .f32⟩
  | _ => ⟨S50000x128, .f32⟩

abbrev hbmTy0_1 (i : Nat) : BufTy := match i % 128 with
  | 0 => ⟨S128, .f32⟩
  | 1 => ⟨S1x128, .f32⟩
  | 2 => ⟨S1x64, .f32⟩
  | 3 => ⟨S2x64, .f32⟩
  | 4 => ⟨S128, .f32⟩
  | 5 => ⟨S1x128, .f32⟩
  | 6 => ⟨S25000x128, .f32⟩
  | 7 => ⟨S50000x64, .f32⟩
  | 8 => ⟨S50000x64, .f32⟩
  | 9 => ⟨S50000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x64, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S800000x64, .f32⟩
  | 29 => ⟨S_, .f32⟩
  | 30 => ⟨S800000, .f32⟩
  | 31 => ⟨S800000x5, .i32⟩
  | 32 => ⟨S4000000, .i32⟩
  | 33 => ⟨S_, .i32⟩
  | 34 => ⟨S4000000, .i32⟩
  | 35 => ⟨S4000000, .i1⟩
  | 36 => ⟨S_, .i32⟩
  | 37 => ⟨S4000000, .i32⟩
  | 38 => ⟨S4000000, .i32⟩
  | 39 => ⟨S4000000, .i32⟩
  | 40 => ⟨S4000000x1, .i32⟩
  | 41 => ⟨S4000000x64, .f32⟩
  | 42 => ⟨S_, .i32⟩
  | 43 => ⟨S4000000, .i32⟩
  | 44 => ⟨S4000000, .i1⟩
  | 45 => ⟨S_, .i32⟩
  | 46 => ⟨S4000000, .i32⟩
  | 47 => ⟨S4000000, .i32⟩
  | 48 => ⟨S4000000, .i32⟩
  | 49 => ⟨S4000000x1, .i32⟩
  | 50 => ⟨S4000000x64, .f32⟩
  | 51 => ⟨S4000000x64, .f32⟩
  | 52 => ⟨S_, .f32⟩
  | 53 => ⟨S4000000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x64, .f32⟩
  | .local _ .vmem, ⟨22, _⟩ => ⟨S5000x64, .f32⟩
  | .local _ .vmem, ⟨23, _⟩ => ⟨S64x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c_3 : Ref sig .tc := ⟨.hbm, 87, rfl⟩
abbrev main_v69 : Ref sig .tc := ⟨.hbm, 88, rfl⟩
abbrev main_v70 : Ref sig .tc := ⟨.hbm, 89, rfl⟩
abbrev main_c_4 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_5 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_c_6 : Ref sig .tc := ⟨.hbm, 138, rfl⟩
abbrev main_v117 : Ref sig .tc := ⟨.hbm, 139, rfl⟩
abbrev main_v118 : Ref sig .tc := ⟨.hbm, 140, rfl⟩
abbrev main_c_7 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_c_8 : Ref sig .tc := ⟨.hbm, 147, rfl⟩
abbrev main_v124 : Ref sig .tc := ⟨.hbm, 148, rfl⟩
abbrev main_v125 : Ref sig .tc := ⟨.hbm, 149, rfl⟩
abbrev main_c_9 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_10 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_c_11 : Ref sig .tc := ⟨.hbm, 161, rfl⟩
abbrev main_v135 : Ref sig .tc := ⟨.hbm, 162, rfl⟩
abbrev main_v136 : Ref sig .tc := ⟨.hbm, 163, rfl⟩
abbrev main_c_12 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_c_13 : Ref sig .tc := ⟨.hbm, 170, rfl⟩
abbrev main_v142 : Ref sig .tc := ⟨.hbm, 171, rfl⟩
abbrev main_v143 : Ref sig .tc := ⟨.hbm, 172, rfl⟩
abbrev main_c_14 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_cst_15 : Ref sig .tc := ⟨.hbm, 180, rfl⟩
abbrev main_v150 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S2x128x64_S1x64x64_0_0_0 : S2x128x64.Slices ![0, 0, 0] S1x64x64
  shapeCasts_S1x64x64_S64x64 : S1x64x64.ShapeCasts S64x64
  slices_S2x128x64_S1x64x64_0_64_0 : S2x128x64.Slices ![0, 64, 0] S1x64x64
  concatenates_S64x64_S64x64_S64x128_d1 : Shape.Concatenates [S64x64, S64x64] S64x128 1
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S50000x1_S50000x64_0_1 : S50000x1.BroadcastsInDim S50000x64 (![0, 1] : Fin 2 → Fin S50000x64.rank)
  shapeCasts_S50000x64_S25000x128 : S50000x64.ShapeCasts S25000x128
  bcast_S1x64_S2x64_0_1 : S1x64.BroadcastsInDim S2x64 (![0, 1] : Fin 2 → Fin S2x64.rank)
  shapeCasts_S2x64_S128 : S2x64.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S25000x128_S50000x64 : S25000x128.ShapeCasts S50000x64
  slices_S2x128x64_S1x64x64_1_0_0 : S2x128x64.Slices ![1, 0, 0] S1x64x64
  slices_S2x128x64_S1x64x64_1_64_0 : S2x128x64.Slices ![1, 64, 0] S1x64x64
  slices_S2x64_S1x64_1_0 : S2x64.Slices ![1, 0] S1x64
  reducesTo_S800000x64_S800000_d1 : S800000x64.ReducesTo [1] S800000
  h_S_ : 0 < S_.numel
  bcast_S800000_S800000x5_0 : S800000.BroadcastsInDim S800000x5 (![0] : Fin 1 → Fin S800000x5.rank)
  shapeCasts_S800000x5_S4000000 : S800000x5.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  reducesTo_S4000000x64_S4000000_d1 : S4000000x64.ReducesTo [1] S4000000
  dot_S5000x128_S128x64_S5000x64_1_0_0_1_n_n_wf : DotDims.WF S5000x128 S128x64 S5000x64 [1] [0] [0] [1] [] []
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S4000000x1_S4000000x64_1_0_n_n_0_1_164_wf : GatherDims.WF S50000x64 S4000000x1 S4000000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S25000x128.size a
  hwx2_0 : ∀ i : grid2.Coords, EltTy.bits .f32 = 32 ∨ (Rect.block (s := S25000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S25000x128.size a
  hwx2_1 : ∀ i : grid2.Coords, EltTy.bits .f32 = 32 ∨ (Rect.block (s := S25000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S25000x128.size a
  hwx2_6 : ∀ i : grid2.Coords, EltTy.bits .f32 = 32 ∨ (Rect.block (s := S25000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x128.size a ≤ S64x128.size a
  hwx3_1 : ∀ i : grid3.Coords, EltTy.bits .f32 = 32 ∨ (Rect.block (s := S64x128) S64x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S25000x128.size a
  hwx4_0 : ∀ i : grid4.Coords, EltTy.bits .f32 = 32 ∨ (Rect.block (s := S25000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S25000x128.size a
  hwx4_1 : ∀ i : grid4.Coords, EltTy.bits .f32 = 32 ∨ (Rect.block (s := S25000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S25000x128.size a
  hwx4_6 : ∀ i : grid4.Coords, EltTy.bits .f32 = 32 ∨ (Rect.block (s := S25000x128) S5000x128.size (cc4_transform_6 i) (hinb4_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S4000000x1_S4000000x64_1_0_n_n_0_1_164 : GatherDims S50000x64 S4000000x1 S4000000x64 where
  offsetDims := [1]
  collapsedSliceDims := [0]
  operandBatchingDims := []
  startIndicesBatchingDims := []
  startIndexMap := [0]
  indexVectorDim := 1
  sliceSizes := ![1, 64]
  wf := gather_S50000x64_S4000000x1_S4000000x64_1_0_n_n_0_1_164_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v65) S64x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v96) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v100) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v113) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S2x128x64 : Shape := ⟨3, ![2, 128, 64]⟩
abbrev S2x64 : Shape := ⟨2, ![2, 64]⟩
abbrev S1x64 : Shape := ⟨2, ![1, 64]⟩
abbrev S800000 : Shape := ⟨1, ![800000]⟩
abbrev S4000000 : Shape := ⟨1, ![4000000]⟩
abbrev S50000x64 : Shape := ⟨2, ![50000, 64]⟩
abbrev S1x64x64 : Shape := ⟨3, ![1, 64, 64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S800000x5 : Shape := ⟨2, ![800000, 5]⟩
abbrev S4000000x1 : Shape := ⟨2, ![4000000, 1]⟩
abbrev S4000000x64 : Shape := ⟨2, ![4000000, 64]⟩

abbrev nBuf : Space → Nat
  | .hbm => 233
  | .vmem => 0
  | .smem => 0
  | _ => 0

abbrev hbmTy0_0 (i : Nat) : BufTy := match i % 128 with
  | 0 => ⟨S50000x128, .f32⟩
  | 1 => ⟨S128x64, .f32⟩
  | 2 => ⟨S64, .f32⟩
  | 3 => ⟨S2x128x64, .f32⟩
  | 4 => ⟨S2x64, .f32⟩
  | 5 => ⟨S2x64, .f32⟩
  | 6 => ⟨S2x64, .f32⟩
  | 7 => ⟨S2x64, .f32⟩
  | 8 => ⟨S2x64, .f32⟩
  | 9 => ⟨S1x64, .f32⟩
  | 10 => ⟨S800000, .i32⟩
  | 11 => ⟨S800000, .i32⟩
  | 12 => ⟨S4000000, .i32⟩
  | 13 => ⟨S50000x64, .f32⟩
  | 14 => ⟨S1x64, .f32⟩
  | 15 => ⟨S50000x64, .f32⟩
  | 16 => ⟨S50000x64, .f32⟩
  | 17 => ⟨S1x64x64, .f32⟩
  | 18 => ⟨S64x64, .f32⟩
  | 19 => ⟨S1x64x64, .f32⟩
  | 20 => ⟨S64x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x64, .f32⟩
  | 30 => ⟨S800000x64, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x64, .f32⟩
  | 40 => ⟨S800000x64, .f32⟩
  | 41 => ⟨S800000x64, .f32⟩
  | 42 => ⟨S1x64, .f32⟩
  | 43 => ⟨S64, .f32⟩
  | 44 => ⟨S1x64, .f32⟩
  | 45 => ⟨S800000x64, .f32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S50000x64, .f32⟩
  | 64 => ⟨S50000x64, .i1⟩
  | 65 => ⟨S50000x64, .f32⟩
  | 66 => ⟨S50000x64, .f32⟩
  | 67 => ⟨S50000x64, .f32⟩
  | 68 => ⟨S50000x64, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S1x64, .f32⟩
  | 75 => ⟨S64, .f32⟩
  | 76 => ⟨S1x64, .f32⟩
  | 77 => ⟨S64, .f32⟩
  | 78 => ⟨S1x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S1x64, .f32⟩
  | 85 => ⟨S64, .f32⟩
  | 86 => ⟨S_, .f32⟩
  | 87 => ⟨S64, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S1x64, .f32⟩
  | 94 => ⟨S64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S1x64x64, .f32⟩
  | 102 => ⟨S64x64, .f32⟩
  | 103 => ⟨S1x64x64, .f32⟩
  | 104 => ⟨S64x64, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x64, .f32⟩
  | 114 => ⟨S800000x64, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x64, .f32⟩
  | 124 => ⟨S800000x64, .f32⟩
  | 125 => ⟨S800000x64, .f32⟩
  | 126 => ⟨S1x64, .f32⟩
  | 127 => ⟨S64, .f32⟩
  | _ => ⟨S50000x128, .f32⟩

abbrev hbmTy0_1 (i : Nat) : BufTy := match i % 128 with
  | 0 => ⟨S1x64, .f32⟩
  | 1 => ⟨S800000x64, .f32⟩
  | 2 => ⟨S800000x64, .f32⟩
  | 3 => ⟨S_, .f32⟩
  | 4 => ⟨S50000x64, .f32⟩
  | 5 => ⟨S800000x1, .i32⟩
  | 6 => ⟨S50000x64, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S50000x64, .f32⟩
  | 20 => ⟨S50000x64, .i1⟩
  | 21 => ⟨S50000x64, .f32⟩
  | 22 => ⟨S50000x64, .f32⟩
  | 23 => ⟨S50000x64, .f32⟩
  | 24 => ⟨S50000x64, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S50000x64, .f32⟩
  | 36 => ⟨S50000x64, .f32⟩
  | 37 => ⟨S1x64, .f32⟩
  | 38 => ⟨S50000x64, .f32⟩
  | 39 => ⟨S50000x64, .f32⟩
  | 40 => ⟨S1x64, .f32⟩
  | 41 => ⟨S64, .f32⟩
  | 42 => ⟨S_, .f32⟩
  | 43 => ⟨S64, .f32⟩
  | 44 => ⟨S64, .f32⟩
  | 45 => ⟨S64, .f32⟩
  | 46 => ⟨S1x64, .f32⟩
  | 47 => ⟨S50000x64, .f32⟩
  | 48 => ⟨S50000x64, .f32⟩
  | 49 => ⟨S1x64, .f32⟩
  | 50 => ⟨S64, .f32⟩
  | 51 => ⟨S1x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S_, .i32⟩
  | 67 => ⟨S800000, .i32⟩
  | 68 => ⟨S800000, .i1⟩
  | 69 => ⟨S_, .i32⟩
  | 70 => ⟨S800000, .i32⟩
  | 71 => ⟨S800000, .i32⟩
  | 72 => ⟨S800000, .i32⟩
  | 73 => ⟨S800000x1, .i32⟩
  | 74 => ⟨S800000x64, .f32⟩
  | 75 => ⟨S800000x64, .f32⟩
  | 76 => ⟨S800000x64, .f32⟩
  | 77 => ⟨S800000x64, .f32⟩
  | 78 => ⟨S_, .f32⟩
  | 79 => ⟨S800000, .f32⟩
  | 80 => ⟨S800000x5, .i32⟩
  | 81 => ⟨S4000000, .i32⟩
  | 82 => ⟨S_, .i32⟩
  | 83 => ⟨S4000000, .i32⟩
  | 84 => ⟨S4000000, .i1⟩
  | 85 => ⟨S_, .i32⟩
  | 86 => ⟨S4000000, .i32⟩
  | 87 => ⟨S4000000, .i32⟩
  | 88 => ⟨S4000000, .i32⟩
  | 89 => ⟨S4000000x1, .i32⟩
  | 90 => ⟨S4000000x64, .f32⟩
  | 91 => ⟨S_, .i32⟩
  | 92 => ⟨S4000000, .i32⟩
  | 93 => ⟨S4000000, .i1⟩
  | 94 => ⟨S_, .i32⟩
  | 95 => ⟨S4000000, .i32⟩
  | 96 => ⟨S4000000, .i32⟩
  | 97 => ⟨S4000000, .i32⟩
  | 98 => ⟨S4000000x1, .i32⟩
  | 99 => ⟨S4000000x64, .f32⟩
  | 100 => ⟨S4000000x64, .f32⟩
  | 101 => ⟨S4000000x64, .f32⟩
  | 102 => ⟨S4000000x64, .f32⟩
  | 103 => ⟨S_, .f32⟩
  | 104 => ⟨S4000000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_3 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_5 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_cst : Ref sig .tc := ⟨.hbm, 98, rfl⟩
abbrev main_call1_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_c_6 : Ref sig .tc := ⟨.hbm, 105, rfl⟩
abbrev main_v69 : Ref sig .tc := ⟨.hbm, 106, rfl⟩
abbrev main_v70 : Ref sig .tc := ⟨.hbm, 107, rfl⟩
abbrev main_c_7 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_8 : Ref sig .tc := ⟨.hbm, 115, rfl⟩
abbrev main_v77 : Ref sig .tc := ⟨.hbm, 116, rfl⟩
abbrev main_v78 : Ref sig .tc := ⟨.hbm, 117, rfl⟩
abbrev main_c_9 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_10 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_11 : Ref sig .tc := ⟨.hbm, 137, rfl⟩
abbrev main_v96 : Ref sig .tc := ⟨.hbm, 138, rfl⟩
abbrev main_v97 : Ref sig .tc := ⟨.hbm, 139, rfl⟩
abbrev main_cst_12 : Ref sig .tc := ⟨.hbm, 140, rfl⟩
abbrev main_v98 : Ref sig .tc := ⟨.hbm, 141, rfl⟩
abbrev main_v99 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_v8 : Ref sig .tc := ⟨.hbm, 152, rfl⟩
abbrev main_call2_v9 : Ref sig .tc := ⟨.hbm, 153, rfl⟩
abbrev main_call2_v10 : Ref sig .tc := ⟨.hbm, 154, rfl⟩
abbrev main_call2_v11 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_cst_13 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_call3_cst : Ref sig .tc := ⟨.hbm, 182, rfl⟩
abbrev main_call3_v0 : Ref sig .tc := ⟨.hbm, 183, rfl⟩
abbrev main_v125 : Ref sig .tc := ⟨.hbm, 184, rfl⟩
abbrev main_c_14 : Ref sig .tc := ⟨.hbm, 185, rfl⟩
abbrev main_v126 : Ref sig .tc := ⟨.hbm, 186, rfl⟩
abbrev main_v127 : Ref sig .tc := ⟨.hbm, 187, rfl⟩
abbrev main_c_15 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_16 : Ref sig .tc := ⟨.hbm, 194, rfl⟩
abbrev main_v133 : Ref sig .tc := ⟨.hbm, 195, rfl⟩
abbrev main_v134 : Ref sig .tc := ⟨.hbm, 196, rfl⟩
abbrev main_c_17 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_18 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_c_19 : Ref sig .tc := ⟨.hbm, 210, rfl⟩
abbrev main_v146 : Ref sig .tc := ⟨.hbm, 211, rfl⟩
abbrev main_v147 : Ref sig .tc := ⟨.hbm, 212, rfl⟩
abbrev main_c_20 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_21 : Ref sig .tc := ⟨.hbm, 219, rfl⟩
abbrev main_v153 : Ref sig .tc := ⟨.hbm, 220, rfl⟩
abbrev main_v154 : Ref sig .tc := ⟨.hbm, 221, rfl⟩
abbrev main_c_22 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_cst_23 : Ref sig .tc := ⟨.hbm, 231, rfl⟩
abbrev main_v163 : Ref sig .tc := ⟨.hbm, 232, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x128x64_S1x64x64_0_0_0 : S2x128x64.Slices ![0, 0, 0] S1x64x64
  shapeCasts_S1x64x64_S64x64 : S1x64x64.ShapeCasts S64x64
  slices_S2x128x64_S1x64x64_0_64_0 : S2x128x64.Slices ![0, 64, 0] S1x64x64
  bcast_S_S800000 : S_.BroadcastsInDim S800000 (![] : Fin 0 → Fin S800000.rank)
  bcast_S800000_S800000x1_0 : S800000.BroadcastsInDim S800000x1 (![0] : Fin 1 → Fin S800000x1.rank)
  slices_S2x64_S1x64_0_0 : S2x64.Slices ![0, 0] S1x64
  shapeCasts_S1x64_S64 : S1x64.ShapeCasts S64
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  bcast_S_S64 : S_.BroadcastsInDim S64 (![] : Fin 0 → Fin S64.rank)
  slices_S2x128x64_S1x64x64_1_0_0 : S2x128x64.Slices ![1, 0, 0] S1x64x64
  slices_S2x128x64_S1x64x64_1_64_0 : S2x128x64.Slices ![1, 64, 0] S1x64x64
  slices_S2x64_S1x64_1_0 : S2x64.Slices ![1, 0] S1x64
  reducesTo_S800000x64_S800000_d1 : S800000x64.ReducesTo [1] S800000
  h_S_ : 0 < S_.numel
  bcast_S800000_S800000x5_0 : S800000.BroadcastsInDim S800000x5 (![0] : Fin 1 → Fin S800000x5.rank)
  shapeCasts_S800000x5_S4000000 : S800000x5.ShapeCasts S4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S1x64_S4000000x64_0_1 : S1x64.BroadcastsInDim S4000000x64 (![0, 1] : Fin 2 → Fin S4000000x64.rank)
  reducesTo_S4000000x64_S4000000_d1 : S4000000x64.ReducesTo [1] S4000000
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  gather_S50000x64_S4000000x1_S4000000x64_1_0_n_n_0_1_164_wf : GatherDims.WF S50000x64 S4000000x1 S4000000x64 [1] [0] [] [0] [] 1 ![1, 64]

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S4000000x1_S4000000x64_1_0_n_n_0_1_164 : GatherDims S50000x64 S4000000x1 S4000000x64 where
  offsetDims := [1]
  collapsedSliceDims := [0]
  operandBatchingDims := []
  startIndicesBatchingDims := []
  startIndexMap := [0]
  indexVectorDim := 1
  sliceSizes := ![1, 64]
  wf := gather_S50000x64_S4000000x1_S4000000x64_1_0_n_n_0_1_164_wf

class Facts : Prop extends Facts₀ where

variable [Facts]
-- ==== Proof.KKeep.lean ====
/-
  WHAT EACH SEGMENT OF THE KERNEL PROGRAM LEAVES ALONE. The program's memory is followed from launch through eleven
  boundaries: a stretch of host operations writes only its own result buffers, and a pallas_call writes only its output
  array. So an argument array, and an intermediate array computed earlier and read again later (the in-degree column, a
  layer's input table), holds at every later boundary what it held when it was last written.
-/
import proofs.«407718_j73289321939189_3_alg».proof.Proof.KRun
import Idealize.ShloMosaic.Lib.StableHlo.Run
import Idealize.ShloMosaic.PureOps.Ideal

set_option maxRecDepth 16384

noncomputable section

namespace Cert.KernelIdeal.Gen

open Idealize.ShloMosaic Idealize.ShloMosaic.TcCoe Idealize.ShloMosaic.Tactic Idealize.ShloMosaic.StableHlo
open Idealize.SL.Sem

variable (m : (ℓ : Loc nD τ sig) → Buf (Elt Ideal) ℓ) (ρ : Dev nD → PrngReg)

set_option maxHeartbeats 4000000 in
theorem keep0 (c : Dev nD) : ∀ b ∈ ([main_arg0, main_arg1, main_arg3, main_arg4, main_arg5, main_arg6, main_arg7, main_arg8, main_arg9, main_arg10, main_arg11, main_arg12] : List (Ref sig .tc)),
    W1 m ρ c (Proc.devRef .tc b) = W0 m ρ c (Proc.devRef .tc b) := by
  intro b hb
  simp only [List.mem_cons, List.not_mem_nil, or_false] at hb
  rcases hb with rfl | rfl | rfl | rfl | rfl | rfl | rfl | rfl | rfl | rfl | rfl | rfl <;>
    (show StableHlo.after hostOps0 (W0 m ρ c) _ = _; after_results)

theorem keep1 (c : Dev nD) : ∀ b ∈ ([main_arg3, main_arg4, main_arg5, main_arg6, main_arg7, main_arg8, main_arg9, main_arg10, main_arg11, main_arg12] : List (Ref sig .tc)),
    W2 m ρ c (Proc.devRef .tc b) = W1 m ρ c (Proc.devRef .tc b) := by
  intro b hb
  simp only [List.mem_cons, List.not_mem_nil, or_false] at hb
  rcases hb with rfl | rfl | rfl | rfl | rfl | rfl | rfl | rfl | rfl | rfl <;> exact W2_of_ne m ρ c _ (by decide)

set_option maxHeartbeats 4000000 in
theorem keep2 (c : Dev nD) : ∀ b ∈ ([main_v1, main_arg3, main_arg4, main_arg5, main_arg6, main_arg7, main_arg8, main_arg9, main_arg10, main_arg11, main_arg12] : List (Ref sig .tc)),
    W3 m ρ c (Proc.devRef .tc b) = W2 m ρ c (Proc.devRef .tc b) := by
  intro b hb
  simp only [List.mem_cons, List.not_mem_nil, or_false] at hb
  rcases hb with rfl | rfl | rfl | rfl | rfl | rfl | rfl | rfl | rfl | rfl | rfl <;>
    (show StableHlo.after hostOps1 (W2 m ρ c) _ = _; after_results)

theorem keep3 (c : Dev nD) : ∀ b ∈ ([main_v6, main_arg3, main_arg4, main_arg5, main_arg6, main_arg7, main_arg8, main_arg9, main_arg10, main_arg11, main_arg12] : List (Ref sig .tc)),
    W4 m ρ c (Proc.devRef .tc b) = W3 m ρ c (Proc.devRef .tc b) := by
  intro b hb
  simp only [List.mem_cons, List.not_mem_nil, or_false] at hb
  rcases hb with rfl | rfl | rfl | rfl | rfl | rfl | rfl | rfl | rfl | rfl | rfl <;> exact W4_of_ne m ρ c _ (by decide)

set_option maxHeartbeats 4000000 in
theorem keep4 (c : Dev nD) : ∀ b ∈ ([main_v6, main_arg3, main_arg4, main_arg5, main_arg6, main_arg7, main_arg8, main_arg9, main_arg10, main_arg11, main_arg12] : List (Ref sig .tc)),
    W5 m ρ c (Proc.devRef .tc b) = W4 m ρ c (Proc.devRef .tc b) := by
  intro b hb
  simp only [List.mem_cons, List.not_mem_nil, or_false] at hb
  rcases hb with rfl | rfl | rfl | rfl | rfl | rfl | rfl | rfl | rfl | rfl | rfl <;>
    (show StableHlo.after hostOps2 (W4 m ρ c) _ = _; after_results_simp)

theorem keep5 (c : Dev nD) : ∀ b ∈ ([main_v6, main_arg3, main_arg4, main_arg5, main_arg6, main_arg7, main_arg8, main_arg9, main_arg10, main_arg11, main_arg12] : List (Ref sig .tc)),
    W6 m ρ c (Proc.devRef .tc b) = W5 m ρ c (Proc.devRef .tc b) := by
  intro b hb
  simp only [List.mem_cons, List.not_mem_nil, or_false] at hb
  rcases hb with rfl | rfl | rfl | rfl | rfl | rfl | rfl | rfl | rfl | rfl | rfl <;> exact W6_of_ne m ρ c _ (by decide)

set_option maxHeartbeats 4000000 in
theorem keep6 (c : Dev nD) : ∀ b ∈ ([main_v6, main_arg4, main_arg5, main_arg6, main_arg7, main_arg8, main_arg9, main_arg10, main_arg11, main_arg12] : List (Ref sig .tc)),
    W7 m ρ c (Proc.devRef .tc b) = W6 m ρ c (Proc.devRef .tc b) := by
  intro b hb
  simp only [List.mem_cons, List.not_mem_nil, or_false] at hb
  rcases hb with rfl | rfl | rfl | rfl | rfl | rfl | rfl | rfl | rfl | rfl <;>
    (show StableHlo.after hostOps3 (W6 m ρ c) _ = _; after_results)

theorem keep7 (c : Dev nD) : ∀ b ∈ ([main_v6, main_arg4, main_arg5, main_arg6, main_arg7, main_arg8, main_arg9, main_arg10, main_arg11, main_arg12] : List (Ref sig .tc)),
    W8 m ρ c (Proc.devRef .tc b) = W7 m ρ c (Proc.devRef .tc b) := by
  intro b hb
  simp only [List.mem_cons, List.not_mem_nil, or_false] at hb
  rcases hb with rfl | rfl | rfl | rfl | rfl | rfl | rfl | rfl | rfl | rfl <;> exact W8_of_ne m ρ c _ (by decide)

set_option maxHeartbeats 4000000 in
theorem keep8 (c : Dev nD) : ∀ b ∈ ([main_arg9, main_arg10, main_arg11, main_arg12] : List (Ref sig .tc)),
    W9 m ρ c (Proc.devRef .tc b) = W8 m ρ c (Proc.devRef .tc b) := by
  intro b hb
  simp only [List.mem_cons, List.not_mem_nil, or_false] at hb
  rcases hb with rfl | rfl | rfl | rfl <;>
    (show StableHlo.after hostOps4 (W8 m ρ c) _ = _; after_results_simp)

theorem keep9 (c : Dev nD) : ∀ b ∈ ([main_arg9, main_arg10, main_arg11, main_arg12] : List (Ref sig .tc)),
    W10 m ρ c (Proc.devRef .tc b) = W9 m ρ c (Proc.devRef .tc b) := by
  intro b hb
  simp only [List.mem_cons, List.not_mem_nil, or_false] at hb
  rcases hb with rfl | rfl | rfl | rfl <;> exact W10_of_ne m ρ c _ (by decide)

/-- A region leaves an INPUT array as it found it: region 1's node table … -/
theorem keep3_v1 (c : Dev nD) : W4 m ρ c (Proc.devRef .tc main_v1) = W3 m ρ c (Proc.devRef .tc main_v1) :=
  (W4_arr m ρ c 0).trans (((dat1 (V3 m ρ) c).arrAt_in 0 rfl _).trans (A_eq1 (V3 m ρ) c 0))

/-- … and region 3's. -/
theorem keep7_v60 (c : Dev nD) : W8 m ρ c (Proc.devRef .tc main_v60) = W7 m ρ c (Proc.devRef .tc main_v60) :=
  (W8_arr m ρ c 0).trans (((dat3 (V7 m ρ) c).arrAt_in 0 rfl _).trans (A_eq3 (V7 m ρ) c 0))

end Cert.KernelIdeal.Gen

end
-- ==== Proof.Spec.lean ====
/-
  THE FUNCTION BOTH PROGRAMS COMPUTE, over the extended reals, index by index.

  A two-layer graph convolution followed by link scoring. A node table `h : [50000, 64]` starts as the dense embedding
  `x · W + b`. A layer sends along every edge `e` the message `h[src e] · W_s + h[dst e] · W_d + b`, sums at every node `v`
  the messages of the edges that LAND on it, and then updates the table entry by entry:
  `relu (γ · (σ(agg) + softplus(h) − μ) · rsqrt(var + ε) + β)`. The score of a pair of nodes is `∑_c h[u,c] · h[v,c] · w_c`.

  Two index conventions are part of the function. A row LOOKUP `h[i]` wraps a negative index once (`i + 50000`) and then
  clamps it into the table (`rowOf`). The SUM over destinations does neither: edge `e` lands on node `v` exactly when its
  destination word, read as a signed integer, IS `v`; an edge whose destination is outside the table lands nowhere
  (`landing`). On an edge that lands, the two conventions name the same node.
-/
import Idealize.ShloMosaic.PureOps.Ideal
import Idealize.ShloMosaic.PureOps.Ideal.Laws
import Idealize.ShloMosaic.Lib.ValueIdx

noncomputable section

open scoped BigOperators

namespace Cert.Link

open Idealize.ShloMosaic Idealize.ShloMosaic.ValueIdx

/-- Float arrays of rank 1, 2, 3 and a 32-bit index array, as functions on their shapes' indices. -/
abbrev Arr1 (a : Nat) := (⟨1, ![a]⟩ : Shape).Idx → EReal
abbrev Arr2 (a b : Nat) := (⟨2, ![a, b]⟩ : Shape).Idx → EReal
abbrev Arr3 (a b c : Nat) := (⟨3, ![a, b, c]⟩ : Shape).Idx → EReal
abbrev Idx1 (a : Nat) := (⟨1, ![a]⟩ : Shape).Idx → BitVec 32

/-- A node table by coordinates: node, channel. -/
abbrev Tab := Fin 50000 → Fin 64 → EReal

/-- The dense embedding `x · W + b`. -/
def emb (x : Arr2 50000 128) (w : Arr2 128 64) (b : Arr1 64) : Tab :=
  fun n c => (∑ k : Fin 128, x (ix2 n k) * w (ix2 k c)) + b (ix1 c)

/-- A negative index word wraps once around the table. -/
def wrap (w : BitVec 32) : BitVec 32 := Scalar.select (IntOp.cmpi .slt w 0#32) (IntOp.addi w 50000#32) w

/-- The row a lookup reads: the wrapped word, read signed, clamped into `[0, 49999]`. -/
def rowOf (w : BitVec 32) : Fin 50000 := ⟨min (wrap w).toInt.toNat 49999, by omega⟩

/-- Layer `l`'s two 64 × 64 weight blocks: rows 0–63 act on the source node, rows 64–127 on the destination node. -/
def Ws (cw : Arr3 2 128 64) (l : Fin 2) (k c : Fin 64) : EReal := cw (ix3 l ⟨k.val, by omega⟩ c)
def Wd (cw : Arr3 2 128 64) (l : Fin 2) (k c : Fin 64) : EReal := cw (ix3 l ⟨64 + k.val, by omega⟩ c)

/-- The message of an edge with source word `s` and destination word `d`, at channel `c`. -/
def msg (h : Tab) (cw : Arr3 2 128 64) (cb : Arr2 2 64) (l : Fin 2) (s d : BitVec 32) (c : Fin 64) : EReal :=
  ((∑ k : Fin 64, h (rowOf s) k * Ws cw l k c) + (∑ k : Fin 64, h (rowOf d) k * Wd cw l k c)) + cb (ix2 l c)

/-- The edges that land on node `v`. -/
def landing (dst : Idx1 800000) (v : Fin 50000) : Finset (Fin 800000) :=
  Finset.univ.filter fun e => (dst (ix1 e)).toInt = (v.val : ℤ)

/-- The messages summed at their destinations. -/
def agg (h : Tab) (cw : Arr3 2 128 64) (cb : Arr2 2 64) (l : Fin 2) (src dst : Idx1 800000) : Tab :=
  fun v c => ∑ e ∈ landing dst v, msg h cw cb l (src (ix1 e)) (dst (ix1 e)) c

/-- The variance offset `ε`, the binary value of the f32 literal 1e-3 (the same word in both programs). -/
def eps : EReal := Ideal.ofBits .f32 0x3A83126F#32

/-- `softplus x = max x 0 + log(1 + e^{-|x|})`, with `|x| = max x (−x)`. -/
def softplus (x : EReal) : EReal := max x 0 + Ideal.log1p (Ideal.exp (-(max x (-x))))

/-- The node update of layer `l`. -/
def upd (a h : Tab) (g be mu va : Arr2 2 64) (l : Fin 2) : Tab := fun n c =>
  max ((g (ix2 l c) * ((Ideal.logistic (a n c) + softplus (h n c)) - mu (ix2 l c))) * Ideal.rsqrt (va (ix2 l c) + eps)
    + be (ix2 l c)) 0

/-- One layer. -/
def layer (h : Tab) (cw : Arr3 2 128 64) (cb g be mu va : Arr2 2 64) (l : Fin 2) (src dst : Idx1 800000) : Tab :=
  upd (agg h cw cb l src dst) h g be mu va l

/-- The score of the pair of nodes the words `s`, `d` look up. -/
def score (h : Tab) (wr : Arr2 1 64) (s d : BitVec 32) : EReal :=
  ∑ c : Fin 64, (h (rowOf s) c * h (rowOf d) c) * wr (ix2 0 c)

/-- The thirteen argument arrays. -/
structure Args where
  x : Arr2 50000 128
  ew : Arr2 128 64
  eb : Arr1 64
  cw : Arr3 2 128 64
  cb : Arr2 2 64
  g : Arr2 2 64
  be : Arr2 2 64
  mu : Arr2 2 64
  va : Arr2 2 64
  wr : Arr2 1 64
  src : Idx1 800000
  dst : Idx1 800000
  nd : Idx1 4000000

def H0 (A : Args) : Tab := emb A.x A.ew A.eb
def H1 (A : Args) : Tab := layer (H0 A) A.cw A.cb A.g A.be A.mu A.va 0 A.src A.dst
def H2 (A : Args) : Tab := layer (H1 A) A.cw A.cb A.g A.be A.mu A.va 1 A.src A.dst

/-- The positive scores: edge `e`'s own endpoints. -/
def posAt (A : Args) (e : Fin 800000) : EReal := score (H2 A) A.wr (A.src (ix1 e)) (A.dst (ix1 e))
/-- The edge whose source the `q`-th negative sample reuses: each source is repeated five times in a row. -/
def srcOf (q : Fin 4000000) : Fin 800000 := ⟨q.val / 5, by omega⟩
/-- The negative scores: entry `q` pairs the source of edge `q / 5` with the `q`-th sampled destination. -/
def negAt (A : Args) (q : Fin 4000000) : EReal :=
  score (H2 A) A.wr (A.src (ix1 (srcOf q))) (A.nd (ix1 q))

def pos (A : Args) : Arr1 800000 := fun i => posAt A (i 0)
def neg (A : Args) : Arr1 4000000 := fun i => negAt A (i 0)

/-! ## The same tables as arrays, in the two layouts the programs keep them in -/

/-- A table as the `[50000, 64]` array. -/
def T2 (t : Tab) : Arr2 50000 64 := fun i => t (i 0) (i 1)

/-- A table as the `[25000, 128]` array that merges each pair of consecutive rows: entry `(r, l)` is node
    `2 r + l / 64`, channel `l % 64`. -/
def P2 (t : Tab) : Arr2 25000 128 := fun i =>
  t ⟨2 * (i 0).val + (i 1).val / 64, by have := idx2_lt0 i; have := idx2_lt1 i; omega⟩
    ⟨(i 1).val % 64, Nat.mod_lt _ (by decide)⟩

/-- A per-channel parameter row of layer `l` repeated twice along the merged 128 lanes. -/
def tile2 (p : Arr2 2 64) (l : Fin 2) : Arr2 1 128 := fun i => p (ix2 l ⟨(i 1).val % 64, Nat.mod_lt _ (by decide)⟩)

/-- Layer `l`'s two weight blocks side by side: column `j < 64` of the first, column `j − 64` of the second. -/
def wcat (cw : Arr3 2 128 64) (l : Fin 2) : Arr2 64 128 := fun i =>
  if h : (i 1).val < 64 then Ws cw l (i 0) ⟨(i 1).val, h⟩
  else Wd cw l (i 0) ⟨(i 1).val - 64, by have := idx2_lt1 i; omega⟩

/-- The number of edges landing on each node, as the `[50000, 1]` array of extended reals. -/
def degArr (dst : Idx1 800000) : Arr2 50000 1 := fun i => ∑ _e ∈ landing dst (i 0), (1 : EReal)

/-! ## The three kernels' whole-array functions -/

/-- The embedding kernel: a matrix product plus a bias row. -/
def embArr (x : Arr2 50000 128) (w : Arr2 128 64) (b : Arr2 1 64) : Arr2 50000 64 := fun i =>
  (∑ k : Fin 128, x (ix2 (i 0) k) * w (ix2 k (i 1))) + b (ix2 0 (i 1))

/-- The node-side matrix product. -/
def mmArr (h : Arr2 50000 64) (w : Arr2 64 128) : Arr2 50000 128 := fun i =>
  ∑ k : Fin 64, h (ix2 (i 0) k) * w (ix2 k (i 1))

/-- The node update on the merged layout. -/
def updArr (a h : Arr2 25000 128) (g be mu va : Arr2 1 128) : Arr2 25000 128 := fun i =>
  max ((g (ix2 0 (i 1)) * ((Ideal.logistic (a i) + softplus (h i)) - mu (ix2 0 (i 1))))
    * Ideal.rsqrt (va (ix2 0 (i 1)) + eps) + be (ix2 0 (i 1))) 0

end Cert.Link

end
-- ==== Proof.RegEmb.lean ====
/-
  THE EMBEDDING KERNEL'S ARRAY. The pallas_call walks the 50000 rows in ten blocks of 5000; at each block the body
  multiplies the block of `x` by the whole `W` (the bf16 casts are the identity on extended reals, the matrix unit's
  product into a zero accumulator a plain sum over the 128 contracted columns) and adds the bias row. The ten output
  blocks tile the output array, so after the region the array is ONE function of the three input arrays as the region
  found them: entry `(n, c)` is `∑_k x[n,k] · W[k,c] + b[0,c]`.
-/
import proofs.«407718_j73289321939189_3_alg».proof.Proof.Gen.KernelIdeal.Frame
import proofs.«407718_j73289321939189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Link

-- the TensorCore's buffer contents when the region is entered
variable (V : (c : Dev nD) → (b : Ref sig .tc) → Buf (Elt Ideal) ((c : Thread nD τ).loc b))

namespace Emb

/-! ## The body's arithmetic at an entry -/

/-- The left operand's row is the output's row. -/
theorem lhs_emb_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column is the contracted coordinate. -/
theorem lhs_emb_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row is the contracted coordinate. -/
theorem rhs_emb_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column is the output's column. -/
theorem rhs_emb_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The matrix unit's product of a [5000,128] block by a [128,64] matrix into a zero accumulator, at entry `(p, q)`: the
    sum over the 128 contracted columns of row `p` of the one times column `q` of the other. -/
theorem matmul_emb_apply (a : FVec Ideal S5000x128 .bf16) (b : FVec Ideal S128x64 .bf16) (p : Fin 5000) (q : Fin 64) :
    matmul (F := Ideal) dot_S5000x128_S128x64_S5000x64_1_0_0_1_n_n none a b (constant (F := Ideal) S5000x64 .f32 0x00000000#32) (ix2 p q)
      = ∑ k : Fin 128, a (ix2 p k) * b (ix2 k q) := by
  show FloatOps.matmul dot_S5000x128_S128x64_S5000x64_1_0_0_1_n_n none a b (constant (F := Ideal) S5000x64 .f32 0x00000000#32) (ix2 p q) = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_emb_0 _ _
    | ⟨1, _⟩ => exact (lhs_emb_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_emb_0 _ _).trans hk
    | ⟨1, _⟩ => exact rhs_emb_1 _ _)
  rw [el, er]

/-- The bias row broadcast down the 5000 rows, at entry `(p, q)`: the row's entry `q`. -/
theorem bias_emb_apply (b : Vec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  refine broadcastTo_apply _ _ _ _ fun a => ?_
  match a with
  | ⟨0, _⟩ => rfl
  | ⟨1, _⟩ => rfl

/-- THE BODY'S PAYLOAD at entry `(p, q)` of the block: row `p` of the `x` block times column `q` of `W`, plus the bias. -/
theorem pay_emb_apply (x0 : Vec Ideal S5000x128 .f32) (x1 : Vec Ideal S128x64 .f32) (x2 : Vec Ideal S1x64 .f32) (p : Fin 5000) (q : Fin 64) :
    k0_pay1 (F := Ideal) x0 x1 x2 (ix2 p q) = (∑ k : Fin 128, x0 (ix2 p k) * x1 (ix2 k q)) + x2 (ix2 0 q) := by
  unfold k0_pay1
  rw [addf_apply, matmul_emb_apply, bias_emb_apply]
  simp only [truncf_apply]

/-! ## From the ten blocks to the array -/

theorem hz : (![0, 0] : Fin 2 → Nat) = fun _ => 0 := funext fun a => by fin_cases a <;> rfl

/-- The printed index maps, decided over the grid: the output's block and the `x` block are the point's row block
    `(t, 0)`; `W` and the bias row stay at block `(0, 0)`. -/
theorem idx_emb : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The payload at entry `(p, q)` of a block is the embedding at entry `(n, q')` of the arrays, once row `p` of the `x`
    block is row `n` of `x`, column `q` of the `W` block column `q'` of `W`, and likewise the bias. -/
theorem pay_emb_eq (x0 : Vec Ideal S5000x128 .f32) (x1 : Vec Ideal S128x64 .f32) (x2 : Vec Ideal S1x64 .f32)
    (x : Arr2 50000 128) (w : Arr2 128 64) (b : Arr2 1 64) (p : Fin 5000) (q : Fin 64) (n : Fin 50000) (q' : Fin 64)
    (h0 : ∀ k : Fin 128, x0 (ix2 p k) = x (ix2 n k)) (h1 : ∀ k : Fin 128, x1 (ix2 k q) = w (ix2 k q'))
    (h2 : x2 (ix2 0 q) = b (ix2 0 q')) :
    k0_pay1 (F := Ideal) x0 x1 x2 (ix2 p q) = embArr x w b (ix2 n q') := by
  rw [pay_emb_apply]
  show _ = (∑ k : Fin 128, x (ix2 n k) * w (ix2 k q')) + b (ix2 0 q')
  rw [h2]
  exact congrArg (· + b (ix2 0 q')) (Finset.sum_congr rfl fun k _ => by rw [h0 k, h1 k])

/-- Entry `(p, k)` of the `x` block at point `t` is entry `(5000 t + p, k)` of `x`. -/
theorem xblk_apply (c : Dev nD) (t : Fin cfg0.N) (p : Fin 5000) (k : Fin 128) (n : Fin 50000) (hn : n.val = t.val * 5000 + p.val) :
    (iblk0 V c 0 t : Vec Ideal S5000x128 .f32) (ix2 p k) = (V c main_arg0 : Arr2 50000 128) (ix2 n k) := by
  obtain ⟨-, -, e0, e1, -⟩ := idx_emb t
  unfold iblk0
  rw [View.read_apply]
  show V c main_arg0 _ = V c main_arg0 _
  congr 1
  funext a
  apply Fin.ext
  match a with
  | ⟨0, _⟩ => show win0_0.index t (0 : Fin 2) * 5000 + 1 * p.val = n.val; omega
  | ⟨1, _⟩ => show win0_0.index t (1 : Fin 2) * 128 + 1 * k.val = k.val; omega

/-- The `W` block at every point is `W`. -/
theorem wblk_apply (c : Dev nD) (t : Fin cfg0.N) (k : Fin 128) (q : Fin 64) :
    (iblk0 V c 1 t : Vec Ideal S128x64 .f32) (ix2 k q) = (V c main_arg1 : Arr2 128 64) (ix2 k q) := by
  obtain ⟨-, -, -, -, e0, e1, -⟩ := idx_emb t
  unfold iblk0
  rw [View.read_apply]
  show V c main_arg1 _ = V c main_arg1 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- The bias block at every point is the bias row. -/
theorem bblk_apply (c : Dev nD) (t : Fin cfg0.N) (q : Fin 64) :
    (iblk0 V c 2 t : Vec Ideal S1x64 .f32) (ix2 0 q) = (V c main_v0 : Arr2 1 64) (ix2 0 q) := by
  obtain ⟨-, -, -, -, -, -, e0, e1⟩ := idx_emb t
  unfold iblk0
  rw [View.read_apply]
  show V c main_v0 _ = V c main_v0 _
  congr 1
  funext a
  apply Fin.ext
  match a with
  | ⟨0, _⟩ => show win0_2.index t (0 : Fin 2) * 1 + 1 * 0 = 0; omega
  | ⟨1, _⟩ => show win0_2.index t (1 : Fin 2) * 64 + 1 * q.val = q.val; omega

/-- WHAT POINT `t` WRITES BACK is block `t` of the embedding of the three arrays as the region finds them. -/
theorem flushed_emb (c : Dev nD) (t : Fin cfg0.N) :
    (dat0 (F := Ideal) V c).flushed 3 t
      = ((cfg0.win 3).blk t).view.read (Elt Ideal) (embArr (V c main_arg0) (V c main_arg1) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x64) hz, View.ld_unit_zero (S := S1x64) hz]
  have ht : t.val < 10 := lt_of_lt_of_eq t.isLt N_0
  obtain ⟨e0, e1, -⟩ := idx_emb t
  funext j
  obtain ⟨p, q, rfl⟩ : ∃ (p : Fin 5000) (q : Fin 64), j = ix2 p q := ⟨j 0, j 1, eq_ix2 j⟩
  rw [View.read_apply]
  have hi : ((cfg0.win 3).blk t).view.emb (ix2 p q) = (ix2 (⟨t.val * 5000 + p.val, by omega⟩ : Fin 50000) q : S50000x64.Idx) := by
    funext a
    apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  rw [hi]
  exact pay_emb_eq _ _ _ _ _ _ p q _ q (fun k => xblk_apply V c t p k _ rfl) (fun k => wblk_apply V c t k q) (bblk_apply V c t q)

/-- An index of the array is in point `t`'s block iff each coordinate is in the block's range on its axis. -/
theorem mem_blk_emb (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v1).slice (win0_3.rect t)).set ↔ _
  rw [View.set_slice_whole, Rect.mem_set_unit]
  exact Iff.rfl

/-- The ten blocks tile the array: row `r` is in the block of point `r / 5000`. -/
theorem cover_emb (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by rw [show cfg0.N = 10 from N_0]; omega⟩, rfl⟩
  obtain ⟨e0, e1, -⟩ := idx_emb t
  refine ⟨t, flush0_3 t, ?_⟩
  rw [mem_blk_emb]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end Emb

/-- After region 0 its output array is the embedding of its three input arrays as the region found them. -/
theorem emb_final (c : Dev nD) :
    (dat0 (F := Ideal) V c).arrAt 3 cfg0.N = embArr (V c main_arg0) (V c main_arg1) (V c main_v0) :=
  (dat0 (F := Ideal) V c).arrAt_eq_of_cover 3 (embArr (V c main_arg0) (V c main_arg1) (V c main_v0))
    (fun t _ => Emb.flushed_emb V c t) Emb.cover_emb

end Cert.KernelIdeal.Reg

end
-- ==== Proof.RegMat1.lean ====
/-
  THE NODE-SIDE MATRIX PRODUCT's ARRAY (layer 0). Ten blocks of 5000 rows; at each block the body multiplies the block of
  the node table by the whole 64 × 128 weight matrix (bf16 casts the identity, the product into a zero accumulator a plain
  sum over the 64 contracted columns). The output blocks tile the output array: entry `(n, j)` is `∑_k h[n,k] · W[k,j]`.
-/
import proofs.«407718_j73289321939189_3_alg».proof.Proof.Gen.KernelIdeal.Frame
import proofs.«407718_j73289321939189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Link

-- the TensorCore's buffer contents when the region is entered
variable (V : (c : Dev nD) → (b : Ref sig .tc) → Buf (Elt Ideal) ((c : Thread nD τ).loc b))

/-! ## The product at an output index

The product contracts the left operand's axis 1 with the right operand's axis 0 and has no batch axis: at the output index
`(p, q)` and the contracted index `k` it reads the left operand at `(p, k)` and the right one at `(k, q)`. -/

/-- The left operand's row is the output's row. -/
theorem mat1_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- The left operand's column is the contracted index. -/
theorem mat1_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's row is the contracted index. -/
theorem mat1_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- The right operand's column is the output's column. -/
theorem mat1_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- THE BODY'S PAYLOAD AT AN INDEX: the casts are the identity over the extended reals and the accumulator is the zero
    splat, so entry `(p, q)` is the sum over the 64 contracted columns of the two blocks' products. -/
theorem mat1_pay_apply (x0 : Vec Ideal S5000x64 .f32) (x1 : Vec Ideal S64x128 .f32) (p : Fin 5000) (q : Fin 128) :
    (k1_pay1 (F := Ideal) x0 x1 : S5000x128.Idx → EReal) (ix2 p q)
      = ∑ k : Fin 64, (x0 (ix2 p k) : EReal) * (x1 (ix2 k q) : EReal) := by
  unfold k1_pay1
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact mat1_lhs_0 _ _
    | ⟨1, _⟩ => exact (mat1_lhs_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (mat1_rhs_0 _ _).trans hk
    | ⟨1, _⟩ => exact mat1_rhs_1 _ _)
  rw [el, er]
  simp only [truncf_apply, shapeCast_self]

/-! ## From the blocks to the array -/

/-- The zero offsets of a whole-buffer access, as the constant function. -/
theorem mat1_hz : (![0, 0] : Fin 2 → Nat) = fun _ => 0 := funext fun a => by fin_cases a <;> rfl

/-- The three windows' block indices at each of the ten grid points: the node table's block and the output's block are
    the point's own (row block `t`, column block 0); the weight matrix stays at block (0, 0). -/
theorem mat1_idx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The node table's block at point `t` is rows `5000 t … 5000 t + 4999` of the table. -/
theorem mat1_tab_apply (c : Dev nD) (t : Fin cfg1.N) (p : Fin 5000) (k : Fin 64) (r : Fin 50000)
    (hr : r.val = t.val * 5000 + p.val) :
    (iblk1 (F := Ideal) V c 0 t : Vec Ideal S5000x64 .f32) (ix2 p k) = (V c main_v1 : S50000x64.Idx → EReal) (ix2 r k) := by
  obtain ⟨e0, e1, -⟩ := mat1_idx t
  unfold iblk1
  rw [View.read_apply]
  show V c main_v1 _ = V c main_v1 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * k.val = k.val; rw [e1]; omega

/-- The weight matrix's block at every point is the whole matrix. -/
theorem mat1_wt_apply (c : Dev nD) (t : Fin cfg1.N) (k : Fin 64) (q : Fin 128) :
    (iblk1 (F := Ideal) V c 1 t : Vec Ideal S64x128 .f32) (ix2 k q) = (V c main_v11 : S64x128.Idx → EReal) (ix2 k q) := by
  obtain ⟨-, -, e0, e1, -⟩ := mat1_idx t
  unfold iblk1
  rw [View.read_apply]
  show V c main_v11 _ = V c main_v11 _
  congr 1
  funext a
  apply Fin.ext
  match a with
  | ⟨0, _⟩ => show win1_1.index t (0 : Fin 2) * 64 + 1 * k.val = k.val; rw [e0]; omega
  | ⟨1, _⟩ => show win1_1.index t (1 : Fin 2) * 128 + 1 * q.val = q.val; rw [e1]; omega

/-- WHAT POINT `t` WRITES BACK is block `t` of the product of the two arrays as the region finds them. -/
theorem mat1_flushed_eq (c : Dev nD) (t : Fin cfg1.N) :
    (dat1 (F := Ideal) V c).flushed 2 t
      = ((cfg1.win 2).blk t).view.read (Elt Ideal) (mmArr (V c main_v1) (V c main_v11)) := by
  show (cfg1.win 2).cut (grid1.coords t) ((dat1 V c).after 2 t) = _
  rw [after1_2]
  unfold out1_2
  rw [View.canon_unit_zero mat1_hz]
  simp only [View.ld_unit_zero (S := S5000x64) mat1_hz, View.ld_unit_zero (S := S64x128) mat1_hz]
  obtain ⟨-, -, -, -, e0, e1⟩ := mat1_idx t
  have hN : cfg1.N = 10 := N_1
  have ht : t.val < 10 := hN ▸ t.isLt
  show (k1_pay1 (iblk1 V c 0 t) (iblk1 V c 1 t) : S5000x128.Idx → EReal)
      = fun j : S5000x128.Idx => mmArr (V c main_v1) (V c main_v11) (((cfg1.win 2).blk t).view.emb j)
  funext j
  obtain ⟨p, q, rfl⟩ : ∃ (p : Fin 5000) (q : Fin 128), j = ix2 p q := ⟨j 0, j 1, eq_ix2 j⟩
  rw [mat1_pay_apply]
  unfold mmArr
  refine Finset.sum_congr rfl fun k _ => ?_
  have hr0 : ((((cfg1.win 2).blk t).view.emb (ix2 p q)) 0).val = t.val * 5000 + p.val := by
    show win1_2.index t (0 : Fin 2) * 5000 + 1 * p.val = _; rw [e0]; omega
  have hr1 : ((((cfg1.win 2).blk t).view.emb (ix2 p q)) 1).val = q.val := by
    show win1_2.index t (1 : Fin 2) * 128 + 1 * q.val = _; rw [e1]; omega
  rw [mat1_tab_apply V c t p k _ hr0, mat1_wt_apply V c t k q]
  congr 2
  exact Shape.idx_ext₂ rfl hr1.symm

/-- An index of the array is in point `t`'s block iff each coordinate is in the block's range on its axis. -/
theorem mat1_mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole (Pipeline.arrRef spec1 2)).slice (win1_2.rect t)).set ↔ _
  rw [View.set_slice_whole, Rect.mem_set_unit]
  exact Iff.rfl

/-- Row `r` of the output is in the block of point `r / 5000`. -/
theorem mat1_cover (i : S50000x128.Idx) :
    ∃ t : Fin cfg1.N, (cfg1.win 2).flush t = true ∧ i ∈ ((cfg1.win 2).blk t).view.set := by
  have hN : cfg1.N = 10 := N_1
  have hi0 : (i 0).val < 50000 := idx2_lt0 i
  have hi1 : (i 1).val < 128 := idx2_lt1 i
  refine ⟨⟨(i 0).val / 5000, by rw [hN]; omega⟩, flush1_2 _, ?_⟩
  rw [mat1_mem_blk]
  obtain ⟨-, -, -, -, e0, e1⟩ := mat1_idx ⟨(i 0).val / 5000, by rw [hN]; omega⟩
  intro a
  match a with
  | ⟨0, _⟩ =>
    show win1_2.index _ (0 : Fin 2) * 5000 ≤ (i 0).val ∧ (i 0).val < win1_2.index _ (0 : Fin 2) * 5000 + 5000
    rw [e0]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e1]; omega

/-- After region 1 its output array is the product of its two input arrays as the region found them. -/
theorem mat1_final (c : Dev nD) :
    (dat1 (F := Ideal) V c).arrAt 2 cfg1.N = mmArr (V c main_v1) (V c main_v11) :=
  (dat1 (F := Ideal) V c).arrAt_eq_of_cover 2 (mmArr (V c main_v1) (V c main_v11))
    (fun t _ => mat1_flushed_eq V c t) (mat1_cover)

end Cert.KernelIdeal.Reg

end
-- ==== Proof.RegMat3.lean ====
/-
  THE NODE-SIDE MATRIX PRODUCT's ARRAY (layer 1). Ten blocks of 5000 rows; at each block the body multiplies the block of
  the node table by the whole 64 × 128 weight matrix (bf16 casts the identity, the product into a zero accumulator a plain
  sum over the 64 contracted columns). The output blocks tile the output array: entry `(n, j)` is `∑_k h[n,k] · W[k,j]`.
-/
import proofs.«407718_j73289321939189_3_alg».proof.Proof.Gen.KernelIdeal.Frame
import proofs.«407718_j73289321939189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Link

-- the TensorCore's buffer contents when the region is entered
variable (V : (c : Dev nD) → (b : Ref sig .tc) → Buf (Elt Ideal) ((c : Thread nD τ).loc b))

/-! ## The product at an output index

The product contracts the left operand's axis 1 with the right operand's axis 0 and has no batch axis: at the output index
`(p, q)` and the contracted index `k` it reads the left operand at `(p, k)` and the right one at `(k, q)`. -/

/-- The left operand's row is the output's row. -/
theorem mat3_lhs_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- The left operand's column is the contracted index. -/
theorem mat3_lhs_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's row is the contracted index. -/
theorem mat3_rhs_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- The right operand's column is the output's column. -/
theorem mat3_rhs_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- THE BODY'S PAYLOAD AT AN INDEX: the casts are the identity over the extended reals and the accumulator is the zero
    splat, so entry `(p, q)` is the sum over the 64 contracted columns of the two blocks' products. -/
theorem mat3_pay_apply (x0 : Vec Ideal S5000x64 .f32) (x1 : Vec Ideal S64x128 .f32) (p : Fin 5000) (q : Fin 128) :
    (k3_pay1 (F := Ideal) x0 x1 : S5000x128.Idx → EReal) (ix2 p q)
      = ∑ k : Fin 64, (x0 (ix2 p k) : EReal) * (x1 (ix2 k q) : EReal) := by
  unfold k3_pay1
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p q) ((contrEquiv1 dot_S5000x64_S64x128_S5000x128_1_0_0_1_n_n 64 rfl rfl).symm k) = ix2 p k := funext fun a => Fin.ext (by
    match a with
    | ⟨0, _⟩ => exact mat3_lhs_0 _ _
    | ⟨1, _⟩ => exact (mat3_lhs_1 _ _).trans hk)
  have er : dot_S5000x64_S64x128_S5000x128_1_0_0_1_n_n.rhsIdx (ix2 p q) ((contrEquiv1 dot_S5000x64_S64x128_S5000x128_1_0_0_1_n_n 64 rfl rfl).symm k) = ix2 k q := funext fun a => Fin.ext (by
    match a with
    | ⟨0, _⟩ => exact (mat3_rhs_0 _ _).trans hk
    | ⟨1, _⟩ => exact mat3_rhs_1 _ _)
  rw [el, er]
  simp only [truncf_apply, shapeCast_self]

/-! ## From the blocks to the array -/

/-- The zero offsets of a whole-buffer access, as the constant function. -/
theorem mat3_hz : (![0, 0] : Fin 2 → Nat) = fun _ => 0 := funext fun a => by fin_cases a <;> rfl

/-- The three windows' block indices at each of the ten grid points: the node table's block and the output's block are
    the point's own (row block `t`, column block 0); the weight matrix stays at block (0, 0). -/
theorem mat3_idx : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The node table's block at point `t` is rows `5000 t … 5000 t + 4999` of the table. -/
theorem mat3_tab_apply (c : Dev nD) (t : Fin cfg3.N) (p : Fin 5000) (k : Fin 64) (r : Fin 50000)
    (hr : r.val = t.val * 5000 + p.val) :
    (iblk3 (F := Ideal) V c 0 t : Vec Ideal S5000x64 .f32) (ix2 p k) = (V c main_v60 : S50000x64.Idx → EReal) (ix2 r k) := by
  obtain ⟨e0, e1, -⟩ := mat3_idx t
  unfold iblk3
  rw [View.read_apply]
  show V c main_v60 _ = V c main_v60 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- The weight matrix's block at every point is the whole matrix. -/
theorem mat3_wt_apply (c : Dev nD) (t : Fin cfg3.N) (k : Fin 64) (q : Fin 128) :
    (iblk3 (F := Ideal) V c 1 t : Vec Ideal S64x128 .f32) (ix2 k q) = (V c main_v65 : S64x128.Idx → EReal) (ix2 k q) := by
  obtain ⟨-, -, e0, e1, -⟩ := mat3_idx t
  unfold iblk3
  rw [View.read_apply]
  show V c main_v65 _ = V c main_v65 _
  congr 1
  funext a
  apply Fin.ext
  match a with
  | ⟨0, _⟩ => show win3_1.index t (0 : Fin 2) * 64 + 1 * k.val = k.val; rw [e0]; omega
  | ⟨1, _⟩ => show win3_1.index t (1 : Fin 2) * 128 + 1 * q.val = q.val; rw [e1]; omega

/-- WHAT POINT `t` WRITES BACK is block `t` of the product of the two arrays as the region finds them. -/
theorem mat3_flushed_eq (c : Dev nD) (t : Fin cfg3.N) :
    (dat3 (F := Ideal) V c).flushed 2 t
      = ((cfg3.win 2).blk t).view.read (Elt Ideal) (mmArr (V c main_v60) (V c main_v65)) := by
  show (cfg3.win 2).cut (grid3.coords t) ((dat3 V c).after 2 t) = _
  rw [after3_2]
  unfold out3_2
  rw [View.canon_unit_zero mat3_hz]
  simp only [View.ld_unit_zero (S := S5000x64) mat3_hz, View.ld_unit_zero (S := S64x128) mat3_hz]
  obtain ⟨-, -, -, -, e0, e1⟩ := mat3_idx t
  have hN : cfg3.N = 10 := N_3
  have ht : t.val < 10 := hN ▸ t.isLt
  show (k3_pay1 (iblk3 V c 0 t) (iblk3 V c 1 t) : S5000x128.Idx → EReal)
      = fun j : S5000x128.Idx => mmArr (V c main_v60) (V c main_v65) (((cfg3.win 2).blk t).view.emb j)
  funext j
  obtain ⟨p, q, rfl⟩ : ∃ (p : Fin 5000) (q : Fin 128), j = ix2 p q := ⟨j 0, j 1, eq_ix2 j⟩
  rw [mat3_pay_apply]
  unfold mmArr
  refine Finset.sum_congr rfl fun k _ => ?_
  have hr0 : ((((cfg3.win 2).blk t).view.emb (ix2 p q)) 0).val = t.val * 5000 + p.val := by
    show win3_2.index t (0 : Fin 2) * 5000 + 1 * p.val = _; rw [e0]; omega
  have hr1 : ((((cfg3.win 2).blk t).view.emb (ix2 p q)) 1).val = q.val := by
    show win3_2.index t (1 : Fin 2) * 128 + 1 * q.val = _; rw [e1]; omega
  rw [mat3_tab_apply V c t p k _ hr0, mat3_wt_apply V c t k q]
  congr 2
  exact Shape.idx_ext₂ rfl hr1.symm

/-- An index of the array is in point `t`'s block iff each coordinate is in the block's range on its axis. -/
theorem mat3_mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole (Pipeline.arrRef spec3 2)).slice (win3_2.rect t)).set ↔ _
  rw [View.set_slice_whole, Rect.mem_set_unit]
  exact Iff.rfl

/-- Row `r` of the output is in the block of point `r / 5000`. -/
theorem mat3_cover (i : S50000x128.Idx) :
    ∃ t : Fin cfg3.N, (cfg3.win 2).flush t = true ∧ i ∈ ((cfg3.win 2).blk t).view.set := by
  have hN : cfg3.N = 10 := N_3
  have hi0 : (i 0).val < 50000 := idx2_lt0 i
  have hi1 : (i 1).val < 128 := idx2_lt1 i
  refine ⟨⟨(i 0).val / 5000, by rw [hN]; omega⟩, flush3_2 _, ?_⟩
  rw [mat3_mem_blk]
  obtain ⟨-, -, -, -, e0, e1⟩ := mat3_idx ⟨(i 0).val / 5000, by rw [hN]; omega⟩
  intro a
  match a with
  | ⟨0, _⟩ =>
    show win3_2.index _ (0 : Fin 2) * 5000 ≤ (i 0).val ∧ (i 0).val < win3_2.index _ (0 : Fin 2) * 5000 + 5000
    rw [e0]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e1]; omega

/-- After region 3 its output array is the product of its two input arrays as the region found them. -/
theorem mat3_final (c : Dev nD) :
    (dat3 (F := Ideal) V c).arrAt 2 cfg3.N = mmArr (V c main_v60) (V c main_v65) :=
  (dat3 (F := Ideal) V c).arrAt_eq_of_cover 2 (mmArr (V c main_v60) (V c main_v65))
    (fun t _ => mat3_flushed_eq V c t) (mat3_cover)

end Cert.KernelIdeal.Reg

end
-- ==== Proof.RegUpd2.lean ====
/-
  THE NODE UPDATE's ARRAY (layer 0), on the merged layout `[25000, 128]`. Five blocks of 5000 rows; the body is pointwise:
  `relu (γ · (σ(a) + softplus(h) − μ) · rsqrt(var + ε) + β)` with the four parameter rows broadcast down the block. The
  softplus is spelt `max h 0 + log1p (exp (0 − |h − 0|))` under a select on `h − 0 ≠ h − 0`, which never holds on the
  extended reals. The output blocks tile the output array, so it is the same pointwise function of the six input arrays.
-/
import proofs.«407718_j73289321939189_3_alg».proof.Proof.Gen.KernelIdeal.Frame
import proofs.«407718_j73289321939189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Link

-- the TensorCore's buffer contents when the region is entered
variable (V : (c : Dev nD) → (b : Ref sig .tc) → Buf (Elt Ideal) ((c : Thread nD τ).loc b))

/-- The block's zero offsets, however they are spelt. -/
theorem upd2_hz : (![0, 0] : Fin 2 → Nat) = fun _ => 0 := funext fun a => by fin_cases a <;> rfl

/-- The kernel's spelling of softplus: `x - 0` is `x` and `0 - y` is `-y` on the extended reals. -/
theorem upd2_softplus (x : EReal) :
    max x 0 + Ideal.log1p (Ideal.exp (0 - max (x - 0) (-(x - 0)))) = softplus x := by
  unfold softplus
  rw [sub_zero, zero_sub]

/-- A comparison "ordered and different" of a value with itself never holds. -/
theorem upd2_cmp_self (d : EReal) : Ideal.cmp .one d d = 0#1 := by
  unfold Ideal.cmp
  simp

/-! The lane-by-lane operations of the body, read at an index. -/
theorem upd2_logistic_apply {s : Shape} {φ : FTy} (a : FVec Ideal s φ) (i : s.Idx) : logistic a i = Ideal.logistic (a i) := rfl
theorem upd2_exp_apply {s : Shape} {φ : FTy} (a : FVec Ideal s φ) (i : s.Idx) : exp a i = Ideal.exp (a i) := rfl
theorem upd2_log1p_apply {s : Shape} {φ : FTy} (a : FVec Ideal s φ) (i : s.Idx) : log1p a i = Ideal.log1p (a i) := rfl
theorem upd2_rsqrt_apply {s : Shape} {φ : FTy} (a : FVec Ideal s φ) (i : s.Idx) : rsqrt a i = Ideal.rsqrt (a i) := rfl
theorem upd2_absf_apply {s : Shape} {φ : FTy} (a : FVec Ideal s φ) (i : s.Idx) : absf a i = max (a i) (-(a i)) := rfl

/-- THE BODY AT AN INDEX. Row `p`, lane `q` of the stored block: the logistic of the aggregate plus the softplus of the
    table entry, centred by `μ`, scaled by `γ` and by `rsqrt (var + ε)`, shifted by `β`, clamped below at zero — the four
    parameter rows read at row 0, lane `q`. -/
theorem upd2_pay_apply (x0 x1 : Vec Ideal S5000x128 .f32) (x2 x3 x4 x5 : Vec Ideal S1x128 .f32) (p : Fin 5000) (q : Fin 128) :
    k2_pay1 x0 x1 x5 x2 x4 x3 (ix2 p q)
      = max ((x2 (ix2 0 q) * ((Ideal.logistic (x0 (ix2 p q)) + softplus (x1 (ix2 p q))) - x4 (ix2 0 q)))
          * Ideal.rsqrt (x5 (ix2 0 q) + eps) + x3 (ix2 0 q)) 0 := by
  unfold k2_pay1
  simp only [shapeCast_self]
  simp only [maximumf_apply, addf_apply, mulf_apply, subf_apply, broadcast_apply, select_apply, cmpf_apply,
    broadcastTo_1b_ab_apply, upd2_logistic_apply, upd2_exp_apply, upd2_log1p_apply, upd2_rsqrt_apply, upd2_absf_apply]
  simp only [Ideal.cmpf_def, Ideal.ofBits_def, Ideal.ofBits_zero_f32, upd2_cmp_self, select_zero, upd2_softplus]
  unfold eps
  rfl

/-- The printed index maps over the five grid points: the output window and the two row-blocked inputs sit at block
    (the point's number, 0); the four parameter rows stay at block (0, 0). -/
theorem upd2_idx : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The aggregate's block at point `t` is rows `5000 t … 5000 t + 4999` of its array. -/
theorem upd2_blk0 (c : Dev nD) (t : Fin cfg2.N) (x : S5000x128.Idx) (k : S25000x128.Idx)
    (hk0 : (k 0).val = t.val * 5000 + (x 0).val) (hk1 : (k 1).val = (x 1).val) :
    (iblk2 V c 0 t : Vec Ideal S5000x128 .f32) x = (V c main_v41 : S25000x128.Idx → Elt Ideal .f32) k := by
  obtain ⟨-, -, e0, e1, -⟩ := upd2_idx t
  unfold iblk2
  rw [View.read_apply]
  show V c main_v41 _ = V c main_v41 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The table's block at point `t` is rows `5000 t … 5000 t + 4999` of its array. -/
theorem upd2_blk1 (c : Dev nD) (t : Fin cfg2.N) (x : S5000x128.Idx) (k : S25000x128.Idx)
    (hk0 : (k 0).val = t.val * 5000 + (x 0).val) (hk1 : (k 1).val = (x 1).val) :
    (iblk2 V c 1 t : Vec Ideal S5000x128 .f32) x = (V c main_v42 : S25000x128.Idx → Elt Ideal .f32) k := by
  obtain ⟨-, -, -, -, e0, e1, -⟩ := upd2_idx t
  unfold iblk2
  rw [View.read_apply]
  show V c main_v42 _ = V c main_v42 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 128 + 1 * (x 1).val = (k 1).val; rw [e1, hk1]; omega

/-- The scale row's block is its whole one-row array at every point. -/
theorem upd2_blk2 (c : Dev nD) (t : Fin cfg2.N) (x : S1x128.Idx) (k : S1x128.Idx)
    (hk0 : (k 0).val = (x 0).val) (hk1 : (k 1).val = (x 1).val) :
    (iblk2 V c 2 t : Vec Ideal S1x128 .f32) x = (V c main_v46 : S1x128.Idx → Elt Ideal .f32) k := by
  obtain ⟨-, -, -, -, -, -, e0, e1, -⟩ := upd2_idx t
  unfold iblk2
  rw [View.read_apply]
  show V c main_v46 _ = V c main_v46 _
  congr 1
  funext a
  apply Fin.ext
  match a with
  | ⟨0, _⟩ => show win2_2.index t (0 : Fin 2) * 1 + 1 * (x 0).val = (k 0).val; rw [e0, hk0]; omega
  | ⟨1, _⟩ => show win2_2.index t (1 : Fin 2) * 128 + 1 * (x 1).val = (k 1).val; rw [e1, hk1]; omega

/-- The shift row's block is its whole one-row array at every point. -/
theorem upd2_blk3 (c : Dev nD) (t : Fin cfg2.N) (x : S1x128.Idx) (k : S1x128.Idx)
    (hk0 : (k 0).val = (x 0).val) (hk1 : (k 1).val = (x 1).val) :
    (iblk2 V c 3 t : Vec Ideal S1x128 .f32) x = (V c main_v50 : S1x128.Idx → Elt Ideal .f32) k := by
  obtain ⟨-, -, -, -, -, -, -, -, e0, e1, -⟩ := upd2_idx t
  unfold iblk2
  rw [View.read_apply]
  show V c main_v50 _ = V c main_v50 _
  congr 1
  funext a
  apply Fin.ext
  match a with
  | ⟨0, _⟩ => show win2_3.index t (0 : Fin 2) * 1 + 1 * (x 0).val = (k 0).val; rw [e0, hk0]; omega
  | ⟨1, _⟩ => show win2_3.index t (1 : Fin 2) * 128 + 1 * (x 1).val = (k 1).val; rw [e1, hk1]; omega

/-- The mean row's block is its whole one-row array at every point. -/
theorem upd2_blk4 (c : Dev nD) (t : Fin cfg2.N) (x : S1x128.Idx) (k : S1x128.Idx)
    (hk0 : (k 0).val = (x 0).val) (hk1 : (k 1).val = (x 1).val) :
    (iblk2 V c 4 t : Vec Ideal S1x128 .f32) x = (V c main_v54 : S1x128.Idx → Elt Ideal .f32) k := by
  obtain ⟨-, -, -, -, -, -, -, -, -, -, e0, e1, -⟩ := upd2_idx t
  unfold iblk2
  rw [View.read_apply]
  show V c main_v54 _ = V c main_v54 _
  congr 1
  funext a
  apply Fin.ext
  match a with
  | ⟨0, _⟩ => show win2_4.index t (0 : Fin 2) * 1 + 1 * (x 0).val = (k 0).val; rw [e0, hk0]; omega
  | ⟨1, _⟩ => show win2_4.index t (1 : Fin 2) * 128 + 1 * (x 1).val = (k 1).val; rw [e1, hk1]; omega

/-- The variance row's block is its whole one-row array at every point. -/
theorem upd2_blk5 (c : Dev nD) (t : Fin cfg2.N) (x : S1x128.Idx) (k : S1x128.Idx)
    (hk0 : (k 0).val = (x 0).val) (hk1 : (k 1).val = (x 1).val) :
    (iblk2 V c 5 t : Vec Ideal S1x128 .f32) x = (V c main_v58 : S1x128.Idx → Elt Ideal .f32) k := by
  obtain ⟨-, -, -, -, -, -, -, -, -, -, -, -, e0, e1⟩ := upd2_idx t
  unfold iblk2
  rw [View.read_apply]
  show V c main_v58 _ = V c main_v58 _
  congr 1
  funext a
  apply Fin.ext
  match a with
  | ⟨0, _⟩ => show win2_5.index t (0 : Fin 2) * 1 + 1 * (x 0).val = (k 0).val; rw [e0, hk0]; omega
  | ⟨1, _⟩ => show win2_5.index t (1 : Fin 2) * 128 + 1 * (x 1).val = (k 1).val; rw [e1, hk1]; omega

/-- An index of the output array is in point `t`'s block iff each coordinate is in the block's range on its axis. -/
theorem upd2_mem_blk (t : Fin cfg2.N) (i : S25000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v59).slice (win2_6.rect t)).set ↔ _
  rw [View.set_slice_whole, Rect.mem_set_unit]
  exact Iff.rfl

/-- THE COVER: row `r` of the output array is in the block of point `r / 5000`. -/
theorem upd2_cover (i : S25000x128.Idx) :
    ∃ t : Fin cfg2.N, (cfg2.win 6).flush t = true ∧ i ∈ ((cfg2.win 6).blk t).view.set := by
  have hi0 : (i 0).val < 25000 := (i 0).isLt
  have hi1 : (i 1).val < 128 := (i 1).isLt
  have hN : grid2.N = 5 := N_2
  have ht : (i 0).val / 5000 < grid2.N := by rw [hN]; omega
  obtain ⟨e0, e1, -⟩ := upd2_idx ⟨(i 0).val / 5000, ht⟩
  refine ⟨⟨(i 0).val / 5000, ht⟩, flush2_6 _, ?_⟩
  rw [upd2_mem_blk]
  intro a
  match a with
  | ⟨0, _⟩ =>
    show win2_6.index ⟨(i 0).val / 5000, ht⟩ (0 : Fin 2) * 5000 ≤ (i 0).val ∧ (i 0).val < win2_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, ht⟩ (1 : Fin 2) * 128 ≤ (i 1).val ∧ (i 1).val < win2_6.index ⟨(i 0).val / 5000, ht⟩ (1 : Fin 2) * 128 + 128
    rw [e1]
    omega

/-- THE BODY ON THE BLOCKS, AT AN ARRAY INDEX. At point `t`, row `p`, lane `q` of the stored block is the update of the
    six arrays at the array index `k` that sits at row `5000 t + p`, lane `q`. -/
theorem upd2_point (c : Dev nD) (t : Fin cfg2.N) (p : Fin 5000) (q : Fin 128) (k : S25000x128.Idx)
    (h0 : (k 0).val = t.val * 5000 + p.val) (h1 : (k 1).val = q.val) :
    k2_pay1 (iblk2 V c 0 t) (iblk2 V c 1 t) (iblk2 V c 5 t) (iblk2 V c 2 t) (iblk2 V c 4 t) (iblk2 V c 3 t) (ix2 p q)
      = updArr (V c main_v41) (V c main_v42) (V c main_v46) (V c main_v50) (V c main_v54) (V c main_v58) k := by
  refine (upd2_pay_apply (iblk2 V c 0 t) (iblk2 V c 1 t) (iblk2 V c 2 t) (iblk2 V c 3 t) (iblk2 V c 4 t) (iblk2 V c 5 t) p q).trans ?_
  rw [upd2_blk0 V c t (ix2 p q) k h0 h1, upd2_blk1 V c t (ix2 p q) k h0 h1,
    upd2_blk2 V c t (ix2 0 q) (ix2 0 (k 1)) rfl h1, upd2_blk3 V c t (ix2 0 q) (ix2 0 (k 1)) rfl h1,
    upd2_blk4 V c t (ix2 0 q) (ix2 0 (k 1)) rfl h1, upd2_blk5 V c t (ix2 0 q) (ix2 0 (k 1)) rfl h1]
  rfl

/-- WHAT POINT `t` WRITES BACK is block `t` of the update of the six input arrays as the region finds them. -/
theorem upd2_flushed_eq (c : Dev nD) (t : Fin cfg2.N) :
    (dat2 (F := Ideal) V c).flushed 6 t
      = ((cfg2.win 6).blk t).view.read (Elt Ideal) (updArr (V c main_v41) (V c main_v42) (V c main_v46) (V c main_v50) (V c main_v54) (V c main_v58)) := by
  show (cfg2.win 6).cut (grid2.coords t) ((dat2 V c).after 6 t) = _
  rw [after2_6]
  unfold out2_6
  rw [View.canon_unit_zero upd2_hz]
  simp only [View.ld_unit_zero (S := S5000x128) upd2_hz, View.ld_unit_zero (S := S1x128) upd2_hz]
  obtain ⟨e0, e1, -⟩ := upd2_idx t
  refine funext fun (j : S5000x128.Idx) => ?_
  obtain ⟨p, q, rfl⟩ : ∃ (p : Fin 5000) (q : Fin 128), j = ix2 p q := ⟨j 0, j 1, eq_ix2 j⟩
  show k2_pay1 (iblk2 V c 0 t) (iblk2 V c 1 t) (iblk2 V c 5 t) (iblk2 V c 2 t) (iblk2 V c 4 t) (iblk2 V c 3 t) (ix2 p q)
      = updArr (V c main_v41) (V c main_v42) (V c main_v46) (V c main_v50) (V c main_v54) (V c main_v58) (((cfg2.win 6).blk t).view.emb (ix2 p q))
  refine upd2_point V c t p q _ ?_ ?_
  · show win2_6.index t (0 : Fin 2) * 5000 + 1 * p.val = t.val * 5000 + p.val
    rw [e0]; omega
  · show win2_6.index t (1 : Fin 2) * 128 + 1 * q.val = q.val
    rw [e1]; omega

/-- After region 2 its output array is the pointwise update of its six input arrays as the region found them
    (windows in the call's order: aggregate, table, γ, β, μ, var). -/
theorem upd2_final (c : Dev nD) :
    (dat2 (F := Ideal) V c).arrAt 6 cfg2.N
      = updArr (V c main_v41) (V c main_v42) (V c main_v46) (V c main_v50) (V c main_v54) (V c main_v58) := by
  exact (dat2 V c).arrAt_eq_of_cover 6 (updArr (V c main_v41) (V c main_v42) (V c main_v46) (V c main_v50) (V c main_v54) (V c main_v58))
    (fun t _ => upd2_flushed_eq V c t) upd2_cover

end Cert.KernelIdeal.Reg

end
-- ==== Proof.RegUpd4.lean ====
/-
  THE NODE UPDATE's ARRAY (layer 1), on the merged layout `[25000, 128]`. Five blocks of 5000 rows; the body is pointwise:
  `relu (γ · (σ(a) + softplus(h) − μ) · rsqrt(var + ε) + β)` with the four parameter rows broadcast down the block. The
  softplus is spelt `max h 0 + log1p (exp (0 − |h − 0|))` under a select on `h − 0 ≠ h − 0`, which never holds on the
  extended reals. The output blocks tile the output array, so it is the same pointwise function of the six input arrays.
-/
import proofs.«407718_j73289321939189_3_alg».proof.Proof.Gen.KernelIdeal.Frame
import proofs.«407718_j73289321939189_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Link

-- the TensorCore's buffer contents when the region is entered
variable (V : (c : Dev nD) → (b : Ref sig .tc) → Buf (Elt Ideal) ((c : Thread nD τ).loc b))

/-- The block's zero offsets, however they are spelt. -/
theorem upd4_hz : (![0, 0] : Fin 2 → Nat) = fun _ => 0 := funext fun a => by fin_cases a <;> rfl

/-- The kernel's spelling of softplus: `x - 0` is `x` and `0 - y` is `-y` on the extended reals. -/
theorem upd4_softplus (x : EReal) :
    max x 0 + Ideal.log1p (Ideal.exp (0 - max (x - 0) (-(x - 0)))) = softplus x := by
  unfold softplus
  rw [sub_zero, zero_sub]

/-- A comparison "ordered and different" of a value with itself never holds. -/
theorem upd4_cmp_self (d : EReal) : Ideal.cmp .one d d = 0#1 := by
  unfold Ideal.cmp
  simp

/-! The lane-by-lane operations of the body, read at an index. -/
theorem upd4_logistic_apply {s : Shape} {φ : FTy} (a : FVec Ideal s φ) (i : s.Idx) : logistic a i = Ideal.logistic (a i) := rfl
theorem upd4_exp_apply {s : Shape} {φ : FTy} (a : FVec Ideal s φ) (i : s.Idx) : exp a i = Ideal.exp (a i) := rfl
theorem upd4_log1p_apply {s : Shape} {φ : FTy} (a : FVec Ideal s φ) (i : s.Idx) : log1p a i = Ideal.log1p (a i) := rfl
theorem upd4_rsqrt_apply {s : Shape} {φ : FTy} (a : FVec Ideal s φ) (i : s.Idx) : rsqrt a i = Ideal.rsqrt (a i) := rfl
theorem upd4_absf_apply {s : Shape} {φ : FTy} (a : FVec Ideal s φ) (i : s.Idx) : absf a i = max (a i) (-(a i)) := rfl

/-- THE BODY AT AN INDEX. Row `p`, lane `q` of the stored block: the logistic of the aggregate plus the softplus of the
    table entry, centred by `μ`, scaled by `γ` and by `rsqrt (var + ε)`, shifted by `β`, clamped below at zero — the four
    parameter rows read at row 0, lane `q`. -/
theorem upd4_pay_apply (x0 x1 : Vec Ideal S5000x128 .f32) (x2 x3 x4 x5 : Vec Ideal S1x128 .f32) (p : Fin 5000) (q : Fin 128) :
    k4_pay1 x0 x1 x5 x2 x4 x3 (ix2 p q)
      = max ((x2 (ix2 0 q) * ((Ideal.logistic (x0 (ix2 p q)) + softplus (x1 (ix2 p q))) - x4 (ix2 0 q)))
          * Ideal.rsqrt (x5 (ix2 0 q) + eps) + x3 (ix2 0 q)) 0 := by
  unfold k4_pay1
  simp only [shapeCast_self]
  simp only [maximumf_apply, addf_apply, mulf_apply, subf_apply, broadcast_apply, select_apply, cmpf_apply,
    broadcastTo_1b_ab_apply, upd4_logistic_apply, upd4_exp_apply, upd4_log1p_apply, upd4_rsqrt_apply, upd4_absf_apply]
  simp only [Ideal.cmpf_def, Ideal.ofBits_def, Ideal.ofBits_zero_f32, upd4_cmp_self, select_zero, upd4_softplus]
  unfold eps
  rfl

/-- The printed index maps over the five grid points: the output window and the two row-blocked inputs sit at block
    (the point's number, 0); the four parameter rows stay at block (0, 0). -/
theorem upd4_idx : ∀ t : Fin cfg4.N,
    win4_6.index t (0 : Fin 2) = t.val ∧ win4_6.index t (1 : Fin 2) = 0
    ∧ win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

/-- The aggregate's block at point `t` is rows `5000 t … 5000 t + 4999` of its array. -/
theorem upd4_blk0 (c : Dev nD) (t : Fin cfg4.N) (x : S5000x128.Idx) (k : S25000x128.Idx)
    (hk0 : (k 0).val = t.val * 5000 + (x 0).val) (hk1 : (k 1).val = (x 1).val) :
    (iblk4 V c 0 t : Vec Ideal S5000x128 .f32) x = (V c main_v95 : S25000x128.Idx → Elt Ideal .f32) k := by
  obtain ⟨-, -, e0, e1, -⟩ := upd4_idx t
  unfold iblk4
  rw [View.read_apply]
  show V c main_v95 _ = V c main_v95 _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The table's block at point `t` is rows `5000 t … 5000 t + 4999` of its array. -/
theorem upd4_blk1 (c : Dev nD) (t : Fin cfg4.N) (x : S5000x128.Idx) (k : S25000x128.Idx)
    (hk0 : (k 0).val = t.val * 5000 + (x 0).val) (hk1 : (k 1).val = (x 1).val) :
    (iblk4 V c 1 t : Vec Ideal S5000x128 .f32) x = (V c main_v96 : S25000x128.Idx → Elt Ideal .f32) k := by
  obtain ⟨-, -, -, -, e0, e1, -⟩ := upd4_idx t
  unfold iblk4
  rw [View.read_apply]
  show V c main_v96 _ = V c main_v96 _
  congr 1
  funext a
  apply Fin.ext
  match a with
  | ⟨0, _⟩ => show win4_1.index t (0 : Fin 2) * 5000 + 1 * (x 0).val = (k 0).val; rw [e0, hk0]; omega
  | ⟨1, _⟩ => show win4_1.index t (1 : Fin 2) * 128 + 1 * (x 1).val = (k 1).val; rw [e1, hk1]; omega

/-- The scale row's block is its whole one-row array at every point. -/
theorem upd4_blk2 (c : Dev nD) (t : Fin cfg4.N) (x : S1x128.Idx) (k : S1x128.Idx)
    (hk0 : (k 0).val = (x 0).val) (hk1 : (k 1).val = (x 1).val) :
    (iblk4 V c 2 t : Vec Ideal S1x128 .f32) x = (V c main_v100 : S1x128.Idx → Elt Ideal .f32) k := by
  obtain ⟨-, -, -, -, -, -, e0, e1, -⟩ := upd4_idx t
  unfold iblk4
  rw [View.read_apply]
  show V c main_v100 _ = V c main_v100 _
  congr 1
  funext a
  apply Fin.ext
  match a with
  | ⟨0, _⟩ => show win4_2.index t (0 : Fin 2) * 1 + 1 * (x 0).val = (k 0).val; rw [e0, hk0]; omega
  | ⟨1, _⟩ => show win4_2.index t (1 : Fin 2) * 128 + 1 * (x 1).val = (k 1).val; rw [e1, hk1]; omega

/-- The shift row's block is its whole one-row array at every point. -/
theorem upd4_blk3 (c : Dev nD) (t : Fin cfg4.N) (x : S1x128.Idx) (k : S1x128.Idx)
    (hk0 : (k 0).val = (x 0).val) (hk1 : (k 1).val = (x 1).val) :
    (iblk4 V c 3 t : Vec Ideal S1x128 .f32) x = (V c main_v104 : S1x128.Idx → Elt Ideal .f32) k := by
  obtain ⟨-, -, -, -, -, -, -, -, e0, e1, -⟩ := upd4_idx t
  unfold iblk4
  rw [View.read_apply]
  show V c main_v104 _ = V c main_v104 _
  congr 1
  funext a
  apply Fin.ext
  match a with
  | ⟨0, _⟩ => show win4_3.index t (0 : Fin 2) * 1 + 1 * (x 0).val = (k 0).val; rw [e0, hk0]; omega
  | ⟨1, _⟩ => show win4_3.index t (1 : Fin 2) * 128 + 1 * (x 1).val = (k 1).val; rw [e1, hk1]; omega

/-- The mean row's block is its whole one-row array at every point. -/
theorem upd4_blk4 (c : Dev nD) (t : Fin cfg4.N) (x : S1x128.Idx) (k : S1x128.Idx)
    (hk0 : (k 0).val = (x 0).val) (hk1 : (k 1).val = (x 1).val) :
    (iblk4 V c 4 t : Vec Ideal S1x128 .f32) x = (V c main_v108 : S1x128.Idx → Elt Ideal .f32) k := by
  obtain ⟨-, -, -, -, -, -, -, -, -, -, e0, e1, -⟩ := upd4_idx t
  unfold iblk4
  rw [View.read_apply]
  show V c main_v108 _ = V c main_v108 _
  congr 1
  funext a
  apply Fin.ext
  match a with
  | ⟨0, _⟩ => show win4_4.index t (0 : Fin 2) * 1 + 1 * (x 0).val = (k 0).val; rw [e0, hk0]; omega
  | ⟨1, _⟩ => show win4_4.index t (1 : Fin 2) * 128 + 1 * (x 1).val = (k 1).val; rw [e1, hk1]; omega

/-- The variance row's block is its whole one-row array at every point. -/
theorem upd4_blk5 (c : Dev nD) (t : Fin cfg4.N) (x : S1x128.Idx) (k : S1x128.Idx)
    (hk0 : (k 0).val = (x 0).val) (hk1 : (k 1).val = (x 1).val) :
    (iblk4 V c 5 t : Vec Ideal S1x128 .f32) x = (V c main_v112 : S1x128.Idx → Elt Ideal .f32) k := by
  obtain ⟨-, -, -, -, -, -, -, -, -, -, -, -, e0, e1⟩ := upd4_idx t
  unfold iblk4
  rw [View.read_apply]
  show V c main_v112 _ = V c main_v112 _
  congr 1
  funext a
  apply Fin.ext
  match a with
  | ⟨0, _⟩ => show win4_5.index t (0 : Fin 2) * 1 + 1 * (x 0).val = (k 0).val; rw [e0, hk0]; omega
  | ⟨1, _⟩ => show win4_5.index t (1 : Fin 2) * 128 + 1 * (x 1).val = (k 1).val; rw [e1, hk1]; omega

/-- An index of the output array is in point `t`'s block iff each coordinate is in the block's range on its axis. -/
theorem upd4_mem_blk (t : Fin cfg4.N) (i : S25000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v113).slice (win4_6.rect t)).set ↔ _
  rw [View.set_slice_whole, Rect.mem_set_unit]
  exact Iff.rfl

/-- THE COVER: row `r` of the output array is in the block of point `r / 5000`. -/
theorem upd4_cover (i : S25000x128.Idx) :
    ∃ t : Fin cfg4.N, (cfg4.win 6).flush t = true ∧ i ∈ ((cfg4.win 6).blk t).view.set := by
  have hi0 : (i 0).val < 25000 := (i 0).isLt
  have hi1 : (i 1).val < 128 := (i 1).isLt
  have hN : grid4.N = 5 := N_4
  have ht : (i 0).val / 5000 < grid4.N := by rw [hN]; omega
  obtain ⟨e0, e1, -⟩ := upd4_idx ⟨(i 0).val / 5000, ht⟩
  refine ⟨⟨(i 0).val / 5000, ht⟩, flush4_6 _, ?_⟩
  rw [upd4_mem_blk]
  intro a
  match a with
  | ⟨0, _⟩ =>
    show win4_6.index ⟨(i 0).val / 5000, ht⟩ (0 : Fin 2) * 5000 ≤ (i 0).val ∧ (i 0).val < win4_6.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win4_6.index ⟨(i 0).val / 5000, ht⟩ (1 : Fin 2) * 128 ≤ (i 1).val ∧ (i 1).val < win4_6.index ⟨(i 0).val / 5000, ht⟩ (1 : Fin 2) * 128 + 128
    rw [e1]
    omega

/-- THE BODY ON THE BLOCKS, AT AN ARRAY INDEX. At point `t`, row `p`, lane `q` of the stored block is the update of the
    six arrays at the array index `k` that sits at row `5000 t + p`, lane `q`. -/
theorem upd4_point (c : Dev nD) (t : Fin cfg4.N) (p : Fin 5000) (q : Fin 128) (k : S25000x128.Idx)
    (h0 : (k 0).val = t.val * 5000 + p.val) (h1 : (k 1).val = q.val) :
    k4_pay1 (iblk4 V c 0 t) (iblk4 V c 1 t) (iblk4 V c 5 t) (iblk4 V c 2 t) (iblk4 V c 4 t) (iblk4 V c 3 t) (ix2 p q)
      = updArr (V c main_v95) (V c main_v96) (V c main_v100) (V c main_v104) (V c main_v108) (V c main_v112) k := by
  refine (upd4_pay_apply (iblk4 V c 0 t) (iblk4 V c 1 t) (iblk4 V c 2 t) (iblk4 V c 3 t) (iblk4 V c 4 t) (iblk4 V c 5 t) p q).trans ?_
  rw [upd4_blk0 V c t (ix2 p q) k h0 h1, upd4_blk1 V c t (ix2 p q) k h0 h1,
    upd4_blk2 V c t (ix2 0 q) (ix2 0 (k 1)) rfl h1, upd4_blk3 V c t (ix2 0 q) (ix2 0 (k 1)) rfl h1,
    upd4_blk4 V c t (ix2 0 q) (ix2 0 (k 1)) rfl h1, upd4_blk5 V c t (ix2 0 q) (ix2 0 (k 1)) rfl h1]
  rfl

/-- WHAT POINT `t` WRITES BACK is block `t` of the update of the six input arrays as the region finds them. -/
theorem upd4_flushed_eq (c : Dev nD) (t : Fin cfg4.N) :
    (dat4 (F := Ideal) V c).flushed 6 t
      = ((cfg4.win 6).blk t).view.read (Elt Ideal) (updArr (V c main_v95) (V c main_v96) (V c main_v100) (V c main_v104) (V c main_v108) (V c main_v112)) := by
  show (cfg4.win 6).cut (grid4.coords t) ((dat4 V c).after 6 t) = _
  rw [after4_6]
  unfold out4_6
  rw [View.canon_unit_zero upd4_hz]
  simp only [View.ld_unit_zero (S := S5000x128) upd4_hz, View.ld_unit_zero (S := S1x128) upd4_hz]
  obtain ⟨e0, e1, -⟩ := upd4_idx t
  refine funext fun (j : S5000x128.Idx) => ?_
  obtain ⟨p, q, rfl⟩ : ∃ (p : Fin 5000) (q : Fin 128), j = ix2 p q := ⟨j 0, j 1, eq_ix2 j⟩
  show k4_pay1 (iblk4 V c 0 t) (iblk4 V c 1 t) (iblk4 V c 5 t) (iblk4 V c 2 t) (iblk4 V c 4 t) (iblk4 V c 3 t) (ix2 p q)
      = updArr (V c main_v95) (V c main_v96) (V c main_v100) (V c main_v104) (V c main_v108) (V c main_v112) (((cfg4.win 6).blk t).view.emb (ix2 p q))
  refine upd4_point V c t p q _ ?_ ?_
  · show win4_6.index t (0 : Fin 2) * 5000 + 1 * p.val = t.val * 5000 + p.val
    rw [e0]; omega
  · show win4_6.index t (1 : Fin 2) * 128 + 1 * q.val = q.val
    rw [e1]; omega

/-- After region 4 its output array is the pointwise update of its six input arrays as the region found them
    (windows in the call's order: aggregate, table, γ, β, μ, var). -/
theorem upd4_final (c : Dev nD) :
    (dat4 (F := Ideal) V c).arrAt 6 cfg4.N
      = updArr (V c main_v95) (V c main_v96) (V c main_v100) (V c main_v104) (V c main_v108) (V c main_v112) := by
  exact (dat4 V c).arrAt_eq_of_cover 6 (updArr (V c main_v95) (V c main_v96) (V c main_v100) (V c main_v104) (V c main_v108) (V c main_v112))
    (fun t _ => upd4_flushed_eq V c t) upd4_cover

end Cert.KernelIdeal.Reg

end
-- ==== Proof.IdxOps.lean ====
/-
  A row lookup and an accumulating scatter of rows, READ AT AN INDEX.

  `h[idx]` of a table `h : [N, C]` at index words `idx : [R, 1]` is, at `(e, c)`, the table's entry `(r, c)` at the row
  `r` the word `idx[e, 0]` names when read signed and clamped into `[0, N − 1]`. A scatter-add of rows `u : [R, C]` at the
  same kind of index words leaves at `(v, c)` the old entry plus the sum of `u[e, c]` over the rows `e` whose word, read
  signed and NOT clamped, is exactly `v`; likewise for a scatter-add of scalars `u : [R]` into a vector `[N]`.
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx
import Idealize.ShloMosaic.Lib.ValueIdxRank1

noncomputable section

open scoped BigOperators

namespace Cert.Link

open Idealize.ShloMosaic Idealize.ShloMosaic.ValueIdx

/-- The dimension numbers of a row lookup: operand `[N, C]`, start indices `[R, 1]`, result `[R, C]`. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW LOOKUP AT `(e, c)`: the operand at the row the word `idx[e, 0]` names, read signed and clamped. -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowDims N R C wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowDims N R C wf).start (ix2 e c) idx 0 + (rowDims N R C wf).batchCoord (ix2 e c) 0
        + (rowDims N R C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e c) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e c) idx 1 + (rowDims N R C wf).batchCoord (ix2 e c) 1
        + (rowDims N R C wf).offCoord (ix2 e c) 1 = _
    rw [GatherDims.batchCoord_eq_zero _ _ _ List.not_mem_nil]
    have hmem : (1 : Fin 2) ∈ (rowDims N R C wf).sKept :=
      (GatherDims.mem_sKept _ _).mpr ⟨(show (1 : Fin 2) ∉ ([0] : List (Fin 2)) by decide), List.not_mem_nil⟩
    unfold GatherDims.start
    rw [dif_neg (show (1 : Fin 2) ∉ ([0] : List (Fin 2)) by decide)]
    unfold GatherDims.offCoord
    rw [dif_pos hmem]
    simp only [Nat.zero_add]
    rfl

/-- The dimension numbers of a scatter of rows: operand `[N, C]`, scatter indices `[R, 1]`, updates `[R, C]`. -/
abbrev rowScatter (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The dimension numbers of a scatter of scalars: operand `[N]`, scatter indices `[R, 1]`, updates `[R]`. -/
abbrev cellScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- On the scattered axis the row scatter's window starts at the word of row `e`, read signed. -/
private theorem rowScatter_start0 {N R C w : Nat} (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatter N R C wf).start (ix2 e c) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e c) ⟨List.idxOf (0 : Fin 2) (rowScatter N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the channel axis, which the map does not name, it starts at `0`. -/
private theorem rowScatter_start1 {N R C w : Nat} (wf : ScatterDims.WF ⟨2, ![N, C]⟩ ⟨2, ![R, 1]⟩ ⟨2, ![R, C]⟩ [1] [0] [0] 1)
    (idx : IVec ⟨2, ![R, 1]⟩ w) (e : Fin R) (c : Fin C) :
    (rowScatter N R C wf).start (ix2 e c) idx 1 = 0 := by
  unfold ScatterDims.start
  rw [dif_neg (show (1 : Fin 2) ∉ ([0] : List (Fin 2)) by decide)]

/-- The scattered axis is inserted: its window coordinate is `0`. -/
private theorem rowScatter_window0 {N R C : Nat} (wf : ScatterDims.WF ⟨2, ![N, C]⟩ ⟨2, ![R, 1]⟩ ⟨2, ![R, C]⟩ [1] [0] [0] 1)
    (e : Fin R) (c : Fin C) :
    (rowScatter N R C wf).window (ix2 e c) 0 = 0 := by
  unfold ScatterDims.window
  rw [dif_neg (show (0 : Fin 2) ∉ (⟨2, ![N, C]⟩ : Shape).kept ([0] : List (Fin 2)) by
    simp [Shape.kept, List.mem_filter])]

/-- The channel axis carries the update's channel as window coordinate. -/
private theorem rowScatter_window1 {N R C : Nat} (wf : ScatterDims.WF ⟨2, ![N, C]⟩ ⟨2, ![R, 1]⟩ ⟨2, ![R, C]⟩ [1] [0] [0] 1)
    (e : Fin R) (c : Fin C) :
    (rowScatter N R C wf).window (ix2 e c) 1 = c.val := by
  unfold ScatterDims.window
  rw [dif_pos (show (1 : Fin 2) ∈ (⟨2, ![N, C]⟩ : Shape).kept ([0] : List (Fin 2)) by
    simp [Shape.kept, List.mem_filter])]
  rfl

/-- Update element `(e, c)` lands on operand element `(v, c')` exactly when the word of row `e`, read signed, is `v`
    and the channels agree. -/
theorem rowScatter_lands {N R C w : Nat} (wf : ScatterDims.WF ⟨2, ![N, C]⟩ ⟨2, ![R, 1]⟩ ⟨2, ![R, C]⟩ [1] [0] [0] 1)
    (idx : IVec ⟨2, ![R, 1]⟩ w) (e : Fin R) (c : Fin C) (v : Fin N) (c' : Fin C) :
    (rowScatter N R C wf).resultIdx? (ix2 e c) idx = some (ix2 v c')
      ↔ ((idx (ix2 e (0 : Fin 1))).toInt = (v.val : ℤ) ∧ c = c') := by
  have hs0 := rowScatter_start0 wf idx e c
  have hs1 := rowScatter_start1 wf idx e c
  have hw0 := rowScatter_window0 wf e c
  have hw1 := rowScatter_window1 wf e c
  unfold ScatterDims.resultIdx?
  constructor
  · intro h
    split at h
    · rename_i hg
      have hf := Option.some.inj h
      have h0 := congrArg Fin.val (congrFun hf 0)
      have h1 := congrArg Fin.val (congrFun hf 1)
      have hg0 := (hg 0).1
      simp only [hs0, hw0] at h0 hg0
      simp only [hs1, hw1] at h1
      have h0' : ((idx (ix2 e (0 : Fin 1))).toInt + ((0 : ℕ) : ℤ)).toNat = v.val := h0
      have h1' : ((0 : ℤ) + ((c.val : ℕ) : ℤ)).toNat = c'.val := h1
      refine ⟨by omega, Fin.ext (by omega)⟩
    · exact absurd h (by simp)
  · rintro ⟨hv, rfl⟩
    have hg : ∀ a, 0 ≤ (rowScatter N R C wf).start (ix2 e c) idx a + (rowScatter N R C wf).window (ix2 e c) a ∧
        (rowScatter N R C wf).start (ix2 e c) idx a + (rowScatter N R C wf).window (ix2 e c) a
          < (⟨2, ![N, C]⟩ : Shape).size a := by
      intro a
      match a with
      | ⟨0, _⟩ =>
        have hlt : v.val < N := v.isLt
        show 0 ≤ (rowScatter N R C wf).start (ix2 e c) idx 0 + (rowScatter N R C wf).window (ix2 e c) 0 ∧
          (rowScatter N R C wf).start (ix2 e c) idx 0 + (rowScatter N R C wf).window (ix2 e c) 0 < (N : ℤ)
        rw [hs0, hw0, hv]; omega
      | ⟨1, _⟩ =>
        have hlt : c.val < C := c.isLt
        show 0 ≤ (rowScatter N R C wf).start (ix2 e c) idx 1 + (rowScatter N R C wf).window (ix2 e c) 1 ∧
          (rowScatter N R C wf).start (ix2 e c) idx 1 + (rowScatter N R C wf).window (ix2 e c) 1 < (C : ℤ)
        rw [hs1, hw1]; omega
    rw [dif_pos hg]
    congr 1
    funext a
    refine Fin.ext ?_
    match a with
    | ⟨0, _⟩ =>
      show ((rowScatter N R C wf).start (ix2 e c) idx 0 + (rowScatter N R C wf).window (ix2 e c) 0).toNat = v.val
      rw [hs0, hw0, hv]; omega
    | ⟨1, _⟩ =>
      show ((rowScatter N R C wf).start (ix2 e c) idx 1 + (rowScatter N R C wf).window (ix2 e c) 1).toNat = c.val
      rw [hs1, hw1]; omega

/-- The scalar scatter's window starts at the word of update `e`, read signed. -/
private theorem cellScatter_start0 {N R w : Nat} (wf : ScatterDims.WF ⟨1, ![N]⟩ ⟨2, ![R, 1]⟩ ⟨1, ![R]⟩ [] [0] [0] 1)
    (idx : IVec ⟨2, ![R, 1]⟩ w) (e : Fin R) :
    (cellScatter N R wf).start (ix1 e) idx 0 = (idx (ix2 e (0 : Fin 1))).toInt := by
  unfold ScatterDims.start
  rw [dif_pos (show (0 : Fin 1) ∈ (cellScatter N R wf).scatterDimsToOperandDims from List.mem_singleton.mpr rfl)]
  have hsi : (cellScatter N R wf).siIdx (ix1 e) ⟨List.idxOf (0 : Fin 1) (cellScatter N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Its one operand axis is inserted: the window coordinate is `0`. -/
private theorem cellScatter_window0 {N R : Nat} (wf : ScatterDims.WF ⟨1, ![N]⟩ ⟨2, ![R, 1]⟩ ⟨1, ![R]⟩ [] [0] [0] 1)
    (e : Fin R) :
    (cellScatter N R wf).window (ix1 e) 0 = 0 := by
  unfold ScatterDims.window
  rw [dif_neg (show (0 : Fin 1) ∉ (⟨1, ![N]⟩ : Shape).kept ([0] : List (Fin 1)) by
    simp [Shape.kept, List.mem_filter])]

/-- Update element `e` lands on operand element `v` exactly when its word, read signed, is `v`. -/
theorem cellScatter_lands {N R w : Nat} (wf : ScatterDims.WF ⟨1, ![N]⟩ ⟨2, ![R, 1]⟩ ⟨1, ![R]⟩ [] [0] [0] 1)
    (idx : IVec ⟨2, ![R, 1]⟩ w) (e : Fin R) (v : Fin N) :
    (cellScatter N R wf).resultIdx? (ix1 e) idx = some (ix1 v) ↔ (idx (ix2 e (0 : Fin 1))).toInt = (v.val : ℤ) := by
  have hs0 := cellScatter_start0 wf idx e
  have hw0 := cellScatter_window0 wf e
  unfold ScatterDims.resultIdx?
  constructor
  · intro h
    split at h
    · rename_i hg
      have hf := Option.some.inj h
      have h0 := congrArg Fin.val (congrFun hf 0)
      have hg0 := (hg 0).1
      simp only [hs0, hw0] at h0 hg0
      have h0' : ((idx (ix2 e (0 : Fin 1))).toInt + ((0 : ℕ) : ℤ)).toNat = v.val := h0
      omega
    · exact absurd h (by simp)
  · intro hv
    have hg : ∀ a, 0 ≤ (cellScatter N R wf).start (ix1 e) idx a + (cellScatter N R wf).window (ix1 e) a ∧
        (cellScatter N R wf).start (ix1 e) idx a + (cellScatter N R wf).window (ix1 e) a
          < (⟨1, ![N]⟩ : Shape).size a := by
      intro a
      match a with
      | ⟨0, _⟩ =>
        have hlt : v.val < N := v.isLt
        show 0 ≤ (cellScatter N R wf).start (ix1 e) idx 0 + (cellScatter N R wf).window (ix1 e) 0 ∧
          (cellScatter N R wf).start (ix1 e) idx 0 + (cellScatter N R wf).window (ix1 e) 0 < (N : ℤ)
        rw [hs0, hw0, hv]; omega
    rw [dif_pos hg]
    congr 1
    funext a
    refine Fin.ext ?_
    match a with
    | ⟨0, _⟩ =>
      show ((cellScatter N R wf).start (ix1 e) idx 0 + (cellScatter N R wf).window (ix1 e) 0).toNat = v.val
      rw [hs0, hw0, hv]; omega

/-- THE SCATTER-ADD OF ROWS AT `(v, c)`: the old entry plus the updates' entries `(e, c)` over the rows `e` that land on `v`. -/
theorem scatterAdd_rows_apply {N R C w : Nat} (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (v : Fin N) (c : Fin C) :
    Ideal.hostScatterAdd (rowScatter N R C wf) x idx upd (ix2 v c)
      = x (ix2 v c) + ∑ e ∈ Finset.univ.filter (fun e : Fin R => (idx (ix2 e (0 : Fin 1))).toInt = (v.val : ℤ)), upd (ix2 e c) := by
  unfold Ideal.hostScatterAdd
  refine congrArg (x (ix2 v c) + ·) ?_
  rw [Finset.sum_filter, Finset.sum_filter, sum_idx2]
  refine Finset.sum_congr rfl (fun e _ => ?_)
  by_cases hq : (idx (ix2 e (0 : Fin 1))).toInt = (v.val : ℤ)
  · rw [if_pos hq]
    have hc : ∀ c' : Fin C,
        (if (rowScatter N R C wf).resultIdx? (ix2 e c') idx = some (ix2 v c) then upd (ix2 e c') else 0)
          = if c' = c then upd (ix2 e c') else 0 := by
      intro c'
      refine if_congr ?_ rfl rfl
      rw [rowScatter_lands]
      exact ⟨fun h => h.2, fun h => ⟨hq, h⟩⟩
    rw [Finset.sum_congr rfl (fun c' _ => hc c'), Finset.sum_ite_eq']
    rw [if_pos (Finset.mem_univ c)]
  · rw [if_neg hq]
    refine Finset.sum_eq_zero (fun c' _ => ?_)
    rw [if_neg]
    rw [rowScatter_lands]
    exact fun h => hq h.1

/-- THE SCATTER-ADD OF SCALARS AT `v`: the old entry plus the updates `e` that land on `v`. -/
theorem scatterAdd_cells_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (v : Fin N) :
    Ideal.hostScatterAdd (cellScatter N R wf) x idx upd (ix1 v)
      = x (ix1 v) + ∑ e ∈ Finset.univ.filter (fun e : Fin R => (idx (ix2 e (0 : Fin 1))).toInt = (v.val : ℤ)), upd (ix1 e) := by
  unfold Ideal.hostScatterAdd
  refine congrArg (x (ix1 v) + ·) ?_
  rw [Finset.sum_filter, Finset.sum_filter, ← Equiv.sum_comp (idxEquiv1 (n := R)).symm]
  refine Finset.sum_congr rfl (fun e _ => ?_)
  show (if (cellScatter N R wf).resultIdx? (ix1 e) idx = some (ix1 v) then upd (ix1 e) else 0) = _
  refine if_congr ?_ rfl rfl
  exact cellScatter_lands wf idx e v

end Cert.Link

end
-- ==== Proof.ELaws.lean ====
/-
  THE LAWS THAT JOIN THE TWO PROGRAMS, on the extended reals.

  Addition of extended reals is a commutative monoid and multiplication a commutative monoid with zero, and a natural
  number times `c` is `c` added to itself that many times, at the infinities too. So summing `f e + c` over a finite set
  is the sum of the `f e` plus (the number of summands) · `c`: the messages landing on a node `v` all carry the same
  destination term `h[v] · W_d + b`, which may be taken out of the sum and multiplied by the node's in-degree, itself the
  sum of ones over the same edges. No finiteness is needed. On an edge that lands on `v` the lookup's wrap and clamp do
  nothing, so its destination row is `v`. The score is a reassociation of a product.
-/
import proofs.«407718_j73289321939189_3_alg».proof.Proof.Spec

noncomputable section

open scoped BigOperators

namespace Cert.Link

open Idealize.ShloMosaic Idealize.ShloMosaic.ValueIdx

/-- A natural number times an extended real is the repeated sum, infinities included. -/
theorem natCast_mul_eq_nsmul (n : ℕ) (c : EReal) : ((n : ℕ) : EReal) * c = n • c := by
  exact (EReal.nsmul_eq_mul n c).symm

/-- A sum of ones counts. -/
theorem sum_one_eq_card {ι : Type} (s : Finset ι) : ∑ _e ∈ s, (1 : EReal) = ((s.card : ℕ) : EReal) := by
  rw [Finset.sum_const, EReal.nsmul_eq_mul, mul_one]

/-- A constant summand comes out of a finite sum as (the sum of ones) times the constant. -/
theorem sum_add_const {ι : Type} (s : Finset ι) (f : ι → EReal) (c : EReal) :
    ∑ e ∈ s, (f e + c) = (∑ e ∈ s, f e) + (∑ _e ∈ s, (1 : EReal)) * c := by
  rw [Finset.sum_add_distrib, Finset.sum_const, sum_one_eq_card, natCast_mul_eq_nsmul]

/-- On an edge that lands on node `v` the lookup of its destination reads row `v`. -/
theorem rowOf_of_toInt_eq {w : BitVec 32} {v : Fin 50000} (h : w.toInt = (v.val : ℤ)) : rowOf w = v := by
  have hv := v.isLt
  -- the word is not negative, so the wrap leaves it alone
  have hns : w.slt 0#32 = false := by
    simp [BitVec.slt, h]
  have hw : wrap w = w := by
    unfold wrap Scalar.select IntOp.cmpi
    simp [hns]
  -- and the clamp does nothing below 50000
  apply Fin.ext
  simp only [rowOf, hw, h]
  omega

/-- THE AGGREGATION, NODE-SIDE: the sum over the landing edges of the source terms, plus the in-degree times the node's
    own destination term. -/
theorem agg_eq_node_form (h : Tab) (cw : Arr3 2 128 64) (cb : Arr2 2 64) (l : Fin 2) (src dst : Idx1 800000)
    (v : Fin 50000) (c : Fin 64) :
    agg h cw cb l src dst v c
      = (∑ e ∈ landing dst v, ∑ k : Fin 64, h (rowOf (src (ix1 e))) k * Ws cw l k c)
        + (∑ _e ∈ landing dst v, (1 : EReal)) * ((∑ k : Fin 64, h v k * Wd cw l k c) + cb (ix2 l c)) := by
  unfold agg
  -- on a landing edge the destination row is `v`, and the destination term and the bias are one constant
  have hterm : ∀ e ∈ landing dst v, msg h cw cb l (src (ix1 e)) (dst (ix1 e)) c
      = (∑ k : Fin 64, h (rowOf (src (ix1 e))) k * Ws cw l k c)
        + ((∑ k : Fin 64, h v k * Wd cw l k c) + cb (ix2 l c)) := by
    intro e he
    have hd : rowOf (dst (ix1 e)) = v := rowOf_of_toInt_eq (by simpa [landing] using he)
    unfold msg
    rw [hd, add_assoc]
  rw [Finset.sum_congr rfl hterm, sum_add_const]

/-- The score with the relation weight multiplied into the first factor. -/
theorem score_eq_weighted_first (h : Tab) (wr : Arr2 1 64) (s d : BitVec 32) :
    score h wr s d = ∑ c : Fin 64, (h (rowOf s) c * wr (ix2 0 c)) * h (rowOf d) c := by
  unfold score
  refine Finset.sum_congr rfl (fun c _ => ?_)
  rw [mul_right_comm]

/-- `softplus` as the kernel spells it: the difference `x − 0`, the negation as `0 − |·|`. -/
theorem softplus_eq_sub_form (x : EReal) :
    max x 0 + Ideal.log1p (Ideal.exp (0 - max (x - 0) (-(x - 0)))) = softplus x := by
  unfold softplus
  rw [sub_zero, zero_sub]

/-- `softplus` as the reference spells it: the difference `x − 0`, the negation as `−|·|`. -/
theorem softplus_eq_neg_form (x : EReal) :
    max x 0 + Ideal.log1p (Ideal.exp (-(max (x - 0) (-(x - 0))))) = softplus x := by
  unfold softplus
  rw [sub_zero]

end Cert.Link

end
-- ==== Proof.KLayout.lean ====
/-
  THE KERNEL PROGRAM'S LAYOUT OPERATIONS, read as the functions they are. Between its pallas_calls the program only
  re-lays arrays: the bias vector as a row; a layer's two 64 × 64 weight blocks sliced out of `[2, 128, 64]` and set
  side by side as `[64, 128]`; a per-channel parameter row of a layer repeated twice along 128 lanes; a `[50000, 64]`
  table viewed as `[25000, 128]` (row-major: entry `(r, l)` is node `2 r + l / 64`, channel `l % 64`) and back. The node
  update is pointwise and its parameters depend on the channel only, so on the merged view it is the merged view of the
  update.
-/
import proofs.«407718_j73289321939189_3_alg».proof.Proof.Gen.KernelIdeal
import proofs.«407718_j73289321939189_3_alg».proof.Proof.Spec
import proofs.«407718_j73289321939189_3_alg».proof.Proof.IdxOps
import proofs.«407718_j73289321939189_3_alg».proof.Proof.ELaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KHost

open Idealize.ShloMosaic Idealize.ShloMosaic.ValueIdx
open Cert.KernelIdeal Cert.KernelIdeal.Facts₀ Cert.KernelIdeal.Facts Cert.Link

namespace Layout

/-- A 64 × 64 block of layer `l`'s weights starting at row `o`, sliced out of `[2, 128, 64]` and flattened, at entry
    `(k, c)`: the weights at `(l, o + k, c)`. -/
theorem wblock_apply (cw : Arr3 2 128 64) (l : Fin 2) (o : Nat) (hs : S2x128x64.Slices ![l.val, o, 0] S1x64x64)
    (k c : Fin 64) (r : Fin 128) (hr : r.val = o + k.val) :
    shapeCast S64x64 (extractStridedSlice S1x64x64 ![l.val, o, 0] cw hs) shapeCasts_S1x64x64_S64x64 (ix2 k c)
      = cw (ix3 l r c) := by
  have hk := k.isLt
  have hc := c.isLt
  refine (shapeCast_apply _ shapeCasts_S1x64x64_S64x64 (ix2 k c) (ix3 (0 : Fin 1) k c) ?_).trans ?_
  · rw [Shape.rowMajor_val_three, Shape.rowMajor_val_two]
    show (0 * 64 + k.val) * 64 + c.val = k.val * 64 + c.val
    omega
  · refine extractStridedSlice_apply ![l.val, o, 0] cw hs (ix3 (0 : Fin 1) k c) (ix3 l r c) fun a => ?_
    match a with
    | ⟨0, _⟩ => show l.val = l.val + 0; omega
    | ⟨1, _⟩ => show r.val = o + k.val; exact hr
    | ⟨2, _⟩ => show c.val = 0 + c.val; omega

/-- The two blocks side by side, left of column 64: the block acting on the source node. -/
theorem wcat_lt (cw : Arr3 2 128 64) (l : Fin 2) (k : Fin 64) (j : Fin 128) (h : j.val < 64) :
    wcat cw l (ix2 k j) = cw (ix3 l ⟨k.val, by have := k.isLt; omega⟩ ⟨j.val, h⟩) := by
  show (if h' : j.val < 64 then Ws cw l k ⟨j.val, h'⟩ else Wd cw l k ⟨j.val - 64, by have := j.isLt; omega⟩) = _
  rw [dif_pos h]
  rfl

/-- From column 64 on: the block acting on the destination node. -/
theorem wcat_ge (cw : Arr3 2 128 64) (l : Fin 2) (k : Fin 64) (j : Fin 128) (h : ¬ j.val < 64) :
    wcat cw l (ix2 k j) = cw (ix3 l ⟨64 + k.val, by have := k.isLt; omega⟩ ⟨j.val - 64, by have := j.isLt; omega⟩) := by
  show (if h' : j.val < 64 then Ws cw l k ⟨j.val, h'⟩ else Wd cw l k ⟨j.val - 64, by have := j.isLt; omega⟩) = _
  rw [dif_neg h]
  rfl

/-- Layer `l`'s two weight blocks, sliced, flattened and concatenated along the columns. -/
theorem wcat_chain (cw : Arr3 2 128 64) (l : Fin 2) (hs0 : S2x128x64.Slices ![l.val, 0, 0] S1x64x64)
    (hs1 : S2x128x64.Slices ![l.val, 64, 0] S1x64x64) :
    concatenate S64x128 1
      [⟨S64x64, shapeCast S64x64 (extractStridedSlice S1x64x64 ![l.val, 0, 0] cw hs0) shapeCasts_S1x64x64_S64x64⟩,
       ⟨S64x64, shapeCast S64x64 (extractStridedSlice S1x64x64 ![l.val, 64, 0] cw hs1) shapeCasts_S1x64x64_S64x64⟩]
      concatenates_S64x64_S64x64_S64x128_d1 = wcat cw l := by
  funext i
  obtain ⟨k, j, rfl⟩ : ∃ (k : Fin 64) (j : Fin 128), i = ix2 k j := ⟨i 0, i 1, eq_ix2 i⟩
  have hk := k.isLt
  have hj := j.isLt
  by_cases h : j.val < 64
  · rw [wcat_lt cw l k j h]
    refine (concatenate_pair_apply_left _ _ _ concatenates_S64x64_S64x64_S64x128_d1 (ix2 k j) rfl
      (ix2 k (⟨j.val, h⟩ : Fin 64)) fun b => ?_).trans ?_
    · match b with
      | ⟨0, _⟩ => rfl
      | ⟨1, _⟩ => rfl
    · exact wblock_apply cw l 0 hs0 k ⟨j.val, h⟩ ⟨k.val, by omega⟩ (by show k.val = 0 + k.val; omega)
  · rw [wcat_ge cw l k j h]
    refine (concatenate_pair_apply_right _ _ _ concatenates_S64x64_S64x64_S64x128_d1 (ix2 k j) rfl rfl
      (ix2 k (⟨j.val - 64, by omega⟩ : Fin 64)) (fun b => ?_) ?_).trans ?_
    · match b with
      | ⟨0, _⟩ => exact fun _ => rfl
      | ⟨1, _⟩ => exact fun hne => absurd rfl hne
    · show j.val - 64 + 64 = j.val
      omega
    · exact wblock_apply cw l 64 hs1 k ⟨j.val - 64, by omega⟩ ⟨64 + k.val, by omega⟩ rfl

/-- Row `l` of a `[2, 64]` parameter array, tiled twice along 128 lanes. -/
theorem tile_chain (p : Arr2 2 64) (l : Fin 2) (hs : S2x64.Slices ![l.val, 0] S1x64) :
    shapeCast S1x128
      (shapeCast S128
        (broadcastInDim S2x64 ![0, 1] bcast_S1x64_S2x64_0_1
          (shapeCast S1x64 (shapeCast S64 (extractStridedSlice S1x64 ![l.val, 0] p hs) shapeCasts_S1x64_S64)
            shapeCasts_S64_S1x64))
        shapeCasts_S2x64_S128)
      shapeCasts_S128_S1x128 = tile2 p l := by
  rw [shapeCast_shapeCast (extractStridedSlice S1x64 ![l.val, 0] p hs) shapeCasts_S1x64_S64 shapeCasts_S64_S1x64]
  funext i
  obtain ⟨z, m, rfl⟩ : ∃ (z : Fin 1) (m : Fin 128), i = ix2 z m := ⟨i 0, i 1, eq_ix2 i⟩
  have hz := z.isLt
  have hm := m.isLt
  refine (shapeCast_apply _ shapeCasts_S128_S1x128 (ix2 z m) (ix1 m) ?_).trans ?_
  · rw [Shape.rowMajor_val_one, Shape.rowMajor_val_two]
    show m.val = z.val * 128 + m.val
    omega
  refine (shapeCast_apply _ shapeCasts_S2x64_S128 (ix1 m)
    (ix2 (⟨m.val / 64, by omega⟩ : Fin 2) (⟨m.val % 64, by omega⟩ : Fin 64)) ?_).trans ?_
  · rw [Shape.rowMajor_val_two, Shape.rowMajor_val_one]
    show m.val / 64 * 64 + m.val % 64 = m.val
    omega
  refine (broadcastInDim_apply _ bcast_S1x64_S2x64_0_1 _
    (ix2 (⟨m.val / 64, by omega⟩ : Fin 2) (⟨m.val % 64, by omega⟩ : Fin 64))
    (ix2 (0 : Fin 1) (⟨m.val % 64, by omega⟩ : Fin 64)) fun a => ?_).trans ?_
  · match a with
    | ⟨0, _⟩ => show 0 = if (1 : Nat) = 1 then 0 else m.val / 64; rw [if_pos rfl]
    | ⟨1, _⟩ => show m.val % 64 = if (64 : Nat) = 1 then 0 else m.val % 64; rw [if_neg (by decide)]
  refine extractStridedSlice_apply ![l.val, 0] p hs (ix2 (0 : Fin 1) (⟨m.val % 64, by omega⟩ : Fin 64))
    (ix2 l (⟨m.val % 64, by omega⟩ : Fin 64)) fun a => ?_
  match a with
  | ⟨0, _⟩ => show l.val = l.val + 0; omega
  | ⟨1, _⟩ => show m.val % 64 = 0 + m.val % 64; omega

end Layout

/-- The embedding with its bias re-laid as a `[1, 64]` row is the embedding. -/
theorem embArr_bias (x : Arr2 50000 128) (w : Arr2 128 64) (b : Arr1 64) :
    embArr x w (shapeCast S1x64 b shapeCasts_S64_S1x64) = T2 (emb x w b) := by
  funext i
  obtain ⟨n, c, rfl⟩ : ∃ (n : Fin 50000) (c : Fin 64), i = ix2 n c := ⟨i 0, i 1, eq_ix2 i⟩
  show (∑ k : Fin 128, x (ix2 n k) * w (ix2 k c)) + shapeCast S1x64 b shapeCasts_S64_S1x64 (ix2 0 c)
    = (∑ k : Fin 128, x (ix2 n k) * w (ix2 k c)) + b (ix1 c)
  congr 1
  refine shapeCast_apply b shapeCasts_S64_S1x64 (ix2 0 c) (ix1 c) ?_
  rw [Shape.rowMajor_val_one, Shape.rowMajor_val_two]
  show c.val = 0 * 64 + c.val
  omega

/-- Layer 0's two weight blocks, sliced, flattened and concatenated along the columns. -/
theorem wcat_term0 (cw : Arr3 2 128 64) :
    concatenate S64x128 1
      [⟨S64x64, shapeCast S64x64 (extractStridedSlice S1x64x64 ![0, 0, 0] cw slices_S2x128x64_S1x64x64_0_0_0) shapeCasts_S1x64x64_S64x64⟩,
       ⟨S64x64, shapeCast S64x64 (extractStridedSlice S1x64x64 ![0, 64, 0] cw slices_S2x128x64_S1x64x64_0_64_0) shapeCasts_S1x64x64_S64x64⟩]
      concatenates_S64x64_S64x64_S64x128_d1 = wcat cw 0 :=
  Layout.wcat_chain cw 0 slices_S2x128x64_S1x64x64_0_0_0 slices_S2x128x64_S1x64x64_0_64_0

/-- Layer 1's. -/
theorem wcat_term1 (cw : Arr3 2 128 64) :
    concatenate S64x128 1
      [⟨S64x64, shapeCast S64x64 (extractStridedSlice S1x64x64 ![1, 0, 0] cw slices_S2x128x64_S1x64x64_1_0_0) shapeCasts_S1x64x64_S64x64⟩,
       ⟨S64x64, shapeCast S64x64 (extractStridedSlice S1x64x64 ![1, 64, 0] cw slices_S2x128x64_S1x64x64_1_64_0) shapeCasts_S1x64x64_S64x64⟩]
      concatenates_S64x64_S64x64_S64x128_d1 = wcat cw 1 :=
  Layout.wcat_chain cw 1 slices_S2x128x64_S1x64x64_1_0_0 slices_S2x128x64_S1x64x64_1_64_0

/-- Row 0 of a `[2, 64]` parameter array, tiled twice along 128 lanes. -/
theorem tile_term0 (p : Arr2 2 64) :
    shapeCast S1x128
      (shapeCast S128
        (broadcastInDim S2x64 ![0, 1] bcast_S1x64_S2x64_0_1
          (shapeCast S1x64 (shapeCast S64 (extractStridedSlice S1x64 ![0, 0] p slices_S2x64_S1x64_0_0) shapeCasts_S1x64_S64)
            shapeCasts_S64_S1x64))
        shapeCasts_S2x64_S128)
      shapeCasts_S128_S1x128 = tile2 p 0 :=
  Layout.tile_chain p 0 slices_S2x64_S1x64_0_0

/-- Row 1 of a `[2, 64]` parameter array, tiled twice along 128 lanes. -/
theorem tile_term1 (p : Arr2 2 64) :
    shapeCast S1x128
      (shapeCast S128
        (broadcastInDim S2x64 ![0, 1] bcast_S1x64_S2x64_0_1
          (shapeCast S1x64 (shapeCast S64 (extractStridedSlice S1x64 ![1, 0] p slices_S2x64_S1x64_1_0) shapeCasts_S1x64_S64)
            shapeCasts_S64_S1x64))
        shapeCasts_S2x64_S128)
      shapeCasts_S128_S1x128 = tile2 p 1 :=
  Layout.tile_chain p 1 slices_S2x64_S1x64_1_0

/-- A `[50000, 64]` table viewed as `[25000, 128]`. -/
theorem merge_rows (t : Tab) : shapeCast S25000x128 (T2 t) shapeCasts_S50000x64_S25000x128 = P2 t := by
  funext i
  obtain ⟨r, l, rfl⟩ : ∃ (r : Fin 25000) (l : Fin 128), i = ix2 r l := ⟨i 0, i 1, eq_ix2 i⟩
  have hr := r.isLt
  have hl := l.isLt
  refine (shapeCast_apply (T2 t) shapeCasts_S50000x64_S25000x128 (ix2 r l)
    (ix2 (⟨2 * r.val + l.val / 64, by omega⟩ : Fin 50000) (⟨l.val % 64, by omega⟩ : Fin 64)) ?_).trans ?_
  · rw [Shape.rowMajor_val_two, Shape.rowMajor_val_two]
    show (2 * r.val + l.val / 64) * 64 + l.val % 64 = r.val * 128 + l.val
    omega
  · rfl

/-- And back. -/
theorem split_rows (t : Tab) : shapeCast S50000x64 (P2 t) shapeCasts_S25000x128_S50000x64 = T2 t := by
  funext i
  obtain ⟨n, c, rfl⟩ : ∃ (n : Fin 50000) (c : Fin 64), i = ix2 n c := ⟨i 0, i 1, eq_ix2 i⟩
  have hn := n.isLt
  have hc := c.isLt
  refine (shapeCast_apply (P2 t) shapeCasts_S25000x128_S50000x64 (ix2 n c)
    (ix2 (⟨n.val / 2, by omega⟩ : Fin 25000) (⟨n.val % 2 * 64 + c.val, by omega⟩ : Fin 128)) ?_).trans ?_
  · rw [Shape.rowMajor_val_two, Shape.rowMajor_val_two]
    show n.val / 2 * 128 + (n.val % 2 * 64 + c.val) = n.val * 64 + c.val
    omega
  · show t ⟨2 * (n.val / 2) + (n.val % 2 * 64 + c.val) / 64, _⟩ ⟨(n.val % 2 * 64 + c.val) % 64, _⟩ = t n c
    congr 1
    · exact Fin.ext (by show 2 * (n.val / 2) + (n.val % 2 * 64 + c.val) / 64 = n.val; omega)
    · exact Fin.ext (by show (n.val % 2 * 64 + c.val) % 64 = c.val; omega)

/-- The pointwise update on the merged views is the merged view of the update. -/
theorem updArr_merged (a h : Tab) (g be mu va : Arr2 2 64) (l : Fin 2) :
    updArr (P2 a) (P2 h) (tile2 g l) (tile2 be l) (tile2 mu l) (tile2 va l) = P2 (upd a h g be mu va l) := by
  funext i
  rfl

end Cert.KernelIdeal.KHost

end
-- ==== Proof.KAgg.lean ====
/-
  THE KERNEL PROGRAM'S AGGREGATION, read as the function it is. Given the node-side product `M = h · [W_s | W_d]`
  (`[50000, 128]`: columns 0–63 the source terms, 64–127 the destination terms) the program looks up the source terms at
  each edge's source row, scatter-adds them at the edges' destinations, and adds the in-degree (a scatter-add of ones at
  the same destinations) times the node's own destination term plus the bias. Entry by entry this is the sum over the
  edges landing on the node of the source terms, plus (the sum of ones over the same edges) times the destination term:
  the node-side form of the aggregation, which is the aggregation itself. The result is then viewed as `[25000, 128]`.
-/
import proofs.«407718_j73289321939189_3_alg».proof.Proof.Gen.KernelIdeal
import proofs.«407718_j73289321939189_3_alg».proof.Proof.Spec
import proofs.«407718_j73289321939189_3_alg».proof.Proof.IdxOps
import proofs.«407718_j73289321939189_3_alg».proof.Proof.ELaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KHost

open Idealize.ShloMosaic Idealize.ShloMosaic.ValueIdx
open Cert.KernelIdeal Cert.KernelIdeal.Facts₀ Cert.KernelIdeal.Facts Cert.Link

/-- The f32 word `0x3F800000` is the extended real `1`: sign 0, exponent 127, fraction 0. -/
private theorem ofBits_one_f32 : Ideal.ofBits .f32 0x3F800000#32 = 1 := by
  simp [Ideal.ofBits, Ideal.ieee]
  rw [← EReal.coe_mul, ← EReal.coe_one]
  congr 1
  norm_num

/-- A `[800000]` array viewed as a `[800000, 1]` column reads, at `(e, 0)`, the array at `e`. -/
private theorem col_apply {α : Type} (y : S800000.Idx → α) (e : Fin 800000) :
    broadcastInDim S800000x1 ![0] bcast_S800000_S800000x1_0 y (ix2 e (0 : Fin 1)) = y (ix1 e) :=
  broadcastInDim_apply _ bcast_S800000_S800000x1_0 y (ix2 e (0 : Fin 1)) (ix1 e) (fun a => match a with
    | ⟨0, _⟩ => by show e.val = if (800000 : Nat) = 1 then 0 else e.val; rw [if_neg (by decide)])

/-- The zero scalar broadcast to any shape reads `0` everywhere. -/
private theorem zeros_apply {t : Shape} (h : S_.BroadcastsInDim t (![] : Fin 0 → Fin t.rank)) (j : t.Idx) :
    broadcastInDim t ![] h (constant (F := Ideal) S_ .f32 0x00000000#32) j = 0 := by
  refine (broadcastInDim_apply _ h _ j (fun a => a.elim0) (fun a => a.elim0)).trans ?_
  rw [constant_apply, Ideal.ofBits_zero_f32]

/-- The scalar `1` broadcast to any shape reads `1` everywhere. -/
private theorem ones_apply {t : Shape} (h : S_.BroadcastsInDim t (![] : Fin 0 → Fin t.rank)) (j : t.Idx) :
    broadcastInDim t ![] h (constant (F := Ideal) S_ .f32 0x3F800000#32) j = 1 := by
  refine (broadcastInDim_apply _ h _ j (fun a => a.elim0) (fun a => a.elim0)).trans ?_
  rw [constant_apply, ofBits_one_f32]

/-- The in-degree: ones scatter-added into a zero vector at the destinations, as a `[50000, 1]` column. -/
theorem deg_term (dst : Idx1 800000) :
    shapeCast S50000x1
      (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      shapeCasts_S50000_S50000x1 = degArr dst := by
  funext i
  obtain ⟨v, z, rfl⟩ : ∃ (v : Fin 50000) (z : Fin 1), i = ix2 v z := ⟨i 0, i 1, eq_ix2 i⟩
  -- the column at `(v, 0)` is the vector at `v`: the same row-major position
  refine (shapeCast_apply _ shapeCasts_S50000_S50000x1 (ix2 v z) (ix1 v) (by
    rewrite [Shape.rowMajor_val_one, Shape.rowMajor_val_two]
    have h1 : z.val < 1 := z.isLt
    show v.val = v.val * 1 + z.val
    omega)).trans ?_
  -- at the extended reals the accumulating scatter is the old entry plus the sum of the updates that land
  rw [Host.scatterAdd, Ideal.hostScatterAdd_def]
  rw [show scatter_S50000_S800000x1_S800000_n_0_0_1
      = cellScatter 50000 800000 scatter_S50000_S800000x1_S800000_n_0_0_1_wf from rfl]
  rw [scatterAdd_cells_apply, zeros_apply, zero_add]
  unfold degArr landing
  refine Finset.sum_congr (Finset.filter_congr (fun e _ => ?_)) (fun e _ => ones_apply _ _)
  rw [col_apply]

/-- The merged `[25000, 128]` view of a table at `(r, lane)` is the table at node `2 r + lane / 64`, channel `lane % 64`. -/
private theorem P2_apply (t : Tab) (r : Fin 25000) (lane : Fin 128) (v : Fin 50000) (c : Fin 64)
    (hv : v.val = 2 * r.val + lane.val / 64) (hc : c.val = lane.val % 64) : P2 t (ix2 r lane) = t v c := by
  unfold P2
  congr 1
  · exact Fin.ext hv.symm
  · exact Fin.ext hc.symm

/-- Columns 0–63 of the node-side product are the source terms. -/
private theorem mm_src_apply (h : Tab) (cw : Arr3 2 128 64) (l : Fin 2) (n : Fin 50000) (c : Fin 64) :
    extractStridedSlice S50000x64 ![0, 0] (mmArr (T2 h) (wcat cw l)) slices_S50000x128_S50000x64_0_0 (ix2 n c)
      = ∑ k : Fin 64, h n k * Ws cw l k c := by
  have hc := c.isLt
  refine (extractStridedSlice_apply ![0, 0] _ slices_S50000x128_S50000x64_0_0 (ix2 n c)
    (ix2 n (⟨c.val, by omega⟩ : Fin 128)) (fun a => match a with
      | ⟨0, _⟩ => by show n.val = 0 + n.val; omega
      | ⟨1, _⟩ => by show c.val = 0 + c.val; omega)).trans ?_
  unfold mmArr
  refine Finset.sum_congr rfl (fun k _ => ?_)
  unfold T2 wcat
  rw [dif_pos (show (c.val : ℕ) < 64 from hc)]

/-- Columns 64–127 are the destination terms. -/
private theorem mm_dst_apply (h : Tab) (cw : Arr3 2 128 64) (l : Fin 2) (n : Fin 50000) (c : Fin 64) :
    extractStridedSlice S50000x64 ![0, 64] (mmArr (T2 h) (wcat cw l)) slices_S50000x128_S50000x64_0_64 (ix2 n c)
      = ∑ k : Fin 64, h n k * Wd cw l k c := by
  have hc := c.isLt
  refine (extractStridedSlice_apply ![0, 64] _ slices_S50000x128_S50000x64_0_64 (ix2 n c)
    (ix2 n (⟨64 + c.val, by omega⟩ : Fin 128)) (fun a => match a with
      | ⟨0, _⟩ => by show n.val = 0 + n.val; omega
      | ⟨1, _⟩ => by show 64 + c.val = 64 + c.val; omega)).trans ?_
  unfold mmArr
  refine Finset.sum_congr rfl (fun k _ => ?_)
  unfold T2 wcat
  rw [dif_neg (show ¬ ((64 + c.val : ℕ) < 64) by omega)]
  congr 2
  exact Fin.ext (by show 64 + c.val - 64 = c.val; omega)

/-- The lookup's index word of edge `e`: the source word, wrapped once when negative. -/
private theorem wrapv_apply (src : Idx1 800000) (e : Fin 800000) :
    select (cmpi .slt src (broadcastInDim S800000 ![] bcast_S_S800000 (constantI S_ 32 0#32)))
      (addi src (broadcastInDim S800000 ![] bcast_S_S800000 (constantI S_ 32 50000#32))) src (ix1 e)
      = wrap (src (ix1 e)) := rfl

/-- The row lookup at `(e, c)` for any index array `W`: the table at the row the word `W[e]` names, read signed and clamped. -/
private theorem gather_col_apply (X : S50000x64.Idx → EReal) (W : S800000.Idx → BitVec 32) (e : Fin 800000) (c : Fin 64) :
    Host.gather gather_S50000x64_S800000x1_S800000x64_1_0_n_n_0_1_164 X
      (broadcastInDim S800000x1 ![0] bcast_S800000_S800000x1_0 W) (ix2 e c)
      = X (ix2 (⟨min (W (ix1 e)).toInt.toNat 49999, by omega⟩ : Fin 50000) c) := by
  rw [show gather_S50000x64_S800000x1_S800000x64_1_0_n_n_0_1_164
      = rowDims 50000 800000 64 gather_S50000x64_S800000x1_S800000x64_1_0_n_n_0_1_164_wf from rfl]
  rw [gather_rows_apply (by decide : 0 < 50000)]
  refine congrArg X (Shape.idx_ext₂ ?_ rfl)
  show min (BitVec.toInt (broadcastInDim S800000x1 ![0] bcast_S800000_S800000x1_0 W (ix2 e (0 : Fin 1)))).toNat (50000 - 1)
    = min (W (ix1 e)).toInt.toNat 49999
  rw [col_apply]

/-- With the wrapped source words as the index array: the row `rowOf` names. -/
private theorem gather_src_apply (X : S50000x64.Idx → EReal) (src : Idx1 800000) (e : Fin 800000) (c : Fin 64) :
    Host.gather gather_S50000x64_S800000x1_S800000x64_1_0_n_n_0_1_164 X
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)) (ix2 e c)
      = X (ix2 (rowOf (src (ix1 e))) c) :=
  gather_col_apply X _ e c

/-- The in-degree column repeated along the channels reads, at `(v, c)`, the column at `(v, 0)`. -/
private theorem degcol_apply (D : S50000x1.Idx → EReal) (v : Fin 50000) (c : Fin 64) :
    broadcastInDim S50000x64 ![0, 1] bcast_S50000x1_S50000x64_0_1 D (ix2 v c) = D (ix2 v (0 : Fin 1)) :=
  broadcastInDim_apply _ bcast_S50000x1_S50000x64_0_1 D (ix2 v c) (ix2 v (0 : Fin 1)) (fun a => match a with
    | ⟨0, _⟩ => by show v.val = if (50000 : Nat) = 1 then 0 else v.val; rw [if_neg (by decide)]
    | ⟨1, _⟩ => by show 0 = if (1 : Nat) = 1 then 0 else c.val; rw [if_pos rfl])

/-- The bias row of layer `l` (row `o = l` of the `[2, 64]` array, flattened and repeated along the nodes) reads, at
    `(v, c)`, the bias of layer `l` at channel `c`. -/
private theorem bias_apply (cb : Arr2 2 64) (l : Fin 2) (o : Nat) (ho : l.val = o) (hs : S2x64.Slices ![o, 0] S1x64)
    (v : Fin 50000) (c : Fin 64) :
    broadcastInDim S50000x64 ![0, 1] bcast_S1x64_S50000x64_0_1
      (broadcastInDim S1x64 ![1] bcast_S64_S1x64_1
        (shapeCast S64 (extractStridedSlice S1x64 ![o, 0] cb hs) shapeCasts_S1x64_S64)) (ix2 v c)
      = cb (ix2 l c) := by
  refine (broadcastInDim_apply _ bcast_S1x64_S50000x64_0_1 _ (ix2 v c) (ix2 (0 : Fin 1) c) (fun a => match a with
    | ⟨0, _⟩ => by show 0 = if (1 : Nat) = 1 then 0 else v.val; rw [if_pos rfl]
    | ⟨1, _⟩ => by show c.val = if (64 : Nat) = 1 then 0 else c.val; rw [if_neg (by decide)])).trans ?_
  refine (broadcastInDim_apply _ bcast_S64_S1x64_1 _ (ix2 (0 : Fin 1) c) (ix1 c) (fun a => match a with
    | ⟨0, _⟩ => by show c.val = if (64 : Nat) = 1 then 0 else c.val; rw [if_neg (by decide)])).trans ?_
  refine (shapeCast_apply _ shapeCasts_S1x64_S64 (ix1 c) (ix2 (0 : Fin 1) c) (by
    rewrite [Shape.rowMajor_val_two, Shape.rowMajor_val_one]
    show 0 * 64 + c.val = c.val
    omega)).trans ?_
  exact extractStridedSlice_apply ![o, 0] cb hs (ix2 (0 : Fin 1) c) (ix2 l c) (fun a => match a with
    | ⟨0, _⟩ => by show l.val = o + 0; omega
    | ⟨1, _⟩ => by show c.val = 0 + c.val; omega)

/-- The edges whose destination word, read through the `[800000, 1]` column, is `v` are the edges landing on `v`. -/
private theorem landing_col (dst : Idx1 800000) (v : Fin 50000) :
    (Finset.univ.filter fun e : Fin 800000 =>
      (broadcastInDim S800000x1 ![0] bcast_S800000_S800000x1_0 dst (ix2 e (0 : Fin 1))).toInt = (v.val : ℤ))
      = landing dst v := by
  unfold landing
  refine Finset.filter_congr (fun e _ => ?_)
  rw [col_apply]

/-- THE AGGREGATION OF LAYER `l` AS THE PROGRAM COMPUTES IT, for any array `brow` that reads the layer's bias at every
    node: source terms looked up and scatter-added at the destinations, plus the in-degree times the node's own
    destination term and bias; entry by entry the node-side form of the aggregation, viewed as `[25000, 128]`. -/
private theorem agg_core (h : Tab) (cw : Arr3 2 128 64) (cb : Arr2 2 64) (l : Fin 2) (src dst : Idx1 800000)
    (brow : S50000x64.Idx → EReal) (hb : ∀ (v : Fin 50000) (c : Fin 64), brow (ix2 v c) = cb (ix2 l c)) :
    shapeCast S25000x128
      (addf (F := Ideal)
        (Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 dst)
          (Host.gather gather_S50000x64_S800000x1_S800000x64_1_0_n_n_0_1_164
            (extractStridedSlice S50000x64 ![0, 0] (mmArr (T2 h) (wcat cw l)) slices_S50000x128_S50000x64_0_0)
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src))))
        (mulf (F := Ideal) (broadcastInDim S50000x64 ![0, 1] bcast_S50000x1_S50000x64_0_1 (degArr dst))
          (addf (F := Ideal) (extractStridedSlice S50000x64 ![0, 64] (mmArr (T2 h) (wcat cw l)) slices_S50000x128_S50000x64_0_64)
            brow)))
      shapeCasts_S50000x64_S25000x128 = P2 (agg h cw cb l src dst) := by
  funext i
  obtain ⟨r, lane, rfl⟩ : ∃ (r : Fin 25000) (lane : Fin 128), i = ix2 r lane := ⟨i 0, i 1, eq_ix2 i⟩
  have hr := r.isLt
  have hl := lane.isLt
  -- the node and the channel under the merged position
  obtain ⟨v, hv⟩ : ∃ v : Fin 50000, v.val = 2 * r.val + lane.val / 64 := ⟨⟨2 * r.val + lane.val / 64, by omega⟩, rfl⟩
  obtain ⟨c, hc⟩ : ∃ c : Fin 64, c.val = lane.val % 64 := ⟨⟨lane.val % 64, by omega⟩, rfl⟩
  -- the reshape keeps the row-major position
  refine (shapeCast_apply _ shapeCasts_S50000x64_S25000x128 (ix2 r lane) (ix2 v c) (by
    rewrite [Shape.rowMajor_val_two, Shape.rowMajor_val_two]
    show v.val * 64 + c.val = r.val * 128 + lane.val
    omega)).trans ?_
  rw [P2_apply (agg h cw cb l src dst) r lane v c hv hc, agg_eq_node_form]
  rw [addf_apply, mulf_apply, addf_apply]
  -- the accumulating scatter, at the extended reals
  rw [Host.scatterAdd, Ideal.hostScatterAdd_def]
  rw [show scatter_S50000x64_S800000x1_S800000x64_1_0_0_1
      = rowScatter 50000 800000 64 scatter_S50000x64_S800000x1_S800000x64_1_0_0_1_wf from rfl]
  rw [scatterAdd_rows_apply, zeros_apply, zero_add, landing_col]
  -- the degree column, the destination term and the bias
  rw [degcol_apply, mm_dst_apply, hb]
  unfold degArr
  -- each landing edge contributes its source term
  have hsum : ∀ e ∈ landing dst v,
      Host.gather gather_S50000x64_S800000x1_S800000x64_1_0_n_n_0_1_164
        (extractStridedSlice S50000x64 ![0, 0] (mmArr (T2 h) (wcat cw l)) slices_S50000x128_S50000x64_0_0)
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src)) (ix2 e c)
        = ∑ k : Fin 64, h (rowOf (src (ix1 e))) k * Ws cw l k c := by
    intro e _
    rw [gather_src_apply, mm_src_apply]
  rw [Finset.sum_congr rfl hsum]

/-- Layer 0's aggregation as the program computes it, merged to `[25000, 128]`. -/
theorem agg_term0 (h : Tab) (cw : Arr3 2 128 64) (cb : Arr2 2 64) (src dst : Idx1 800000) :
    shapeCast S25000x128
      (addf (F := Ideal)
        (Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 dst)
          (Host.gather gather_S50000x64_S800000x1_S800000x64_1_0_n_n_0_1_164
            (extractStridedSlice S50000x64 ![0, 0] (mmArr (T2 h) (wcat cw 0)) slices_S50000x128_S50000x64_0_0)
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src))))
        (mulf (F := Ideal) (broadcastInDim S50000x64 ![0, 1] bcast_S50000x1_S50000x64_0_1 (degArr dst))
          (addf (F := Ideal) (extractStridedSlice S50000x64 ![0, 64] (mmArr (T2 h) (wcat cw 0)) slices_S50000x128_S50000x64_0_64)
            (broadcastInDim S50000x64 ![0, 1] bcast_S1x64_S50000x64_0_1
              (broadcastInDim S1x64 ![1] bcast_S64_S1x64_1
                (shapeCast S64 (extractStridedSlice S1x64 ![0, 0] cb slices_S2x64_S1x64_0_0) shapeCasts_S1x64_S64))))))
      shapeCasts_S50000x64_S25000x128 = P2 (agg h cw cb 0 src dst) := by
  exact agg_core h cw cb 0 src dst _ (bias_apply cb 0 0 rfl slices_S2x64_S1x64_0_0)

/-- Layer 1's. -/
theorem agg_term1 (h : Tab) (cw : Arr3 2 128 64) (cb : Arr2 2 64) (src dst : Idx1 800000) :
    shapeCast S25000x128
      (addf (F := Ideal)
        (Host.scatterAdd (F := Ideal) scatter_S50000x64_S800000x1_S800000x64_1_0_0_1
          (broadcastInDim S50000x64 ![] bcast_S_S50000x64 (constant (F := Ideal) S_ .f32 0x00000000#32))
          (broadcastInDim S800000x1 ![0] bcast_S800000_S800000x1_0 dst)
          (Host.gather gather_S50000x64_S800000x1_S800000x64_1_0_n_n_0_1_164
            (extractStridedSlice S50000x64 ![0, 0] (mmArr (T2 h) (wcat cw 1)) slices_S50000x128_S50000x64_0_0)
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src))))
        (mulf (F := Ideal) (broadcastInDim S50000x64 ![0, 1] bcast_S50000x1_S50000x64_0_1 (degArr dst))
          (addf (F := Ideal) (extractStridedSlice S50000x64 ![0, 64] (mmArr (T2 h) (wcat cw 1)) slices_S50000x128_S50000x64_0_64)
            (broadcastInDim S50000x64 ![0, 1] bcast_S1x64_S50000x64_0_1
              (broadcastInDim S1x64 ![1] bcast_S64_S1x64_1
                (shapeCast S64 (extractStridedSlice S1x64 ![1, 0] cb slices_S2x64_S1x64_1_0) shapeCasts_S1x64_S64))))))
      shapeCasts_S50000x64_S25000x128 = P2 (agg h cw cb 1 src dst) := by
  exact agg_core h cw cb 1 src dst _ (bias_apply cb 1 1 rfl slices_S2x64_S1x64_1_0)

end Cert.KernelIdeal.KHost

end
-- ==== Proof.KScore.lean ====
/-
  THE KERNEL PROGRAM'S LINK SCORES, read as the function they are. The program multiplies the final table by the relation
  weight once (`hw = h · w`, broadcast along the rows), looks up `hw` at the first index word and `h` at the second (each
  word wrapped if negative and clamped into the table), multiplies entry by entry and sums the 64 channels from zero.
  That is `∑_c (h[u,c] · w_c) · h[v,c]`, the score with the weight multiplied into the first factor. For the negative
  samples the first index array is the source array with each entry repeated five times in a row: entry `q` is
  `src[q / 5]`.
-/
import proofs.«407718_j73289321939189_3_alg».proof.Proof.Gen.KernelIdeal
import proofs.«407718_j73289321939189_3_alg».proof.Proof.Spec
import proofs.«407718_j73289321939189_3_alg».proof.Proof.IdxOps
import proofs.«407718_j73289321939189_3_alg».proof.Proof.ELaws
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KHost

open Idealize.ShloMosaic Idealize.ShloMosaic.ValueIdx
open Cert.KernelIdeal Cert.KernelIdeal.Facts₀ Cert.KernelIdeal.Facts Cert.Link

/-- A column of index words, each wrapped once if negative: at `(e, 0)` it is `wrap` of the word at `e`. -/
private theorem wrapCol_pos (w : Idx1 800000) (e : Fin 800000) :
    (broadcastInDim S800000x1 ![0] bcast_S800000_S800000x1_0
      (select (cmpi .slt w (broadcastInDim S800000 ![] bcast_S_S800000 (constantI S_ 32 0#32)))
        (addi w (broadcastInDim S800000 ![] bcast_S_S800000 (constantI S_ 32 50000#32))) w)) (ix2 e (0 : Fin 1))
      = wrap (w (ix1 e)) := by
  rw [broadcastInDim_apply _ bcast_S800000_S800000x1_0 _ (ix2 e (0 : Fin 1)) (ix1 e) (fun a => match a with
    | ⟨0, _⟩ => by show e.val = if (800000 : Nat) = 1 then 0 else e.val; rw [if_neg (by decide)])]
  rfl

/-- The relation weight broadcast along the rows: at `(n, c)` it is the weight of channel `c`. -/
private theorem wrRow (wr : Arr2 1 64) (n : Fin 50000) (c : Fin 64) :
    broadcastInDim S50000x64 ![0, 1] bcast_S1x64_S50000x64_0_1 wr (ix2 n c) = wr (ix2 0 c) :=
  broadcastInDim_apply _ bcast_S1x64_S50000x64_0_1 wr (ix2 n c) (ix2 0 c) (fun a => match a with
    | ⟨0, _⟩ => by show 0 = if (1 : Nat) = 1 then 0 else n.val; rw [if_pos rfl]
    | ⟨1, _⟩ => by show c.val = if (64 : Nat) = 1 then 0 else c.val; rw [if_neg (by decide)])

/-- A row lookup whose index word at `(e, 0)` is `wrap w` reads row `rowOf w`. -/
private theorem gather_wrapped {R : Nat}
    (wf : GatherDims.WF ⟨2, ![50000, 64]⟩ ⟨2, ![R, 1]⟩ ⟨2, ![R, 64]⟩ [1] [0] [] [0] [] 1 ![1, 64])
    (x : Arr2 50000 64) (idx : IVec ⟨2, ![R, 1]⟩ 32) (e : Fin R) (c : Fin 64) (w : BitVec 32)
    (hw : idx (ix2 e (0 : Fin 1)) = wrap w) :
    Host.gather (rowDims 50000 R 64 wf) x idx (ix2 e c) = x (ix2 (rowOf w) c) := by
  rw [gather_rows_apply (by decide)]
  refine congrArg (fun r => x (ix2 r c)) (Fin.ext ?_)
  show min (idx (ix2 e (0 : Fin 1))).toInt.toNat (50000 - 1) = min (wrap w).toInt.toNat 49999
  rw [hw]

/-- The positive scores. -/
theorem pos_term (t : Tab) (wr : Arr2 1 64) (src dst : Idx1 800000) :
    Host.reduceAdd (F := Ideal)
      (mulf (F := Ideal)
        (Host.gather gather_S50000x64_S800000x1_S800000x64_1_0_n_n_0_1_164
          (mulf (F := Ideal) (T2 t) (broadcastInDim S50000x64 ![0, 1] bcast_S1x64_S50000x64_0_1 wr))
          (broadcastInDim S800000x1 ![0] bcast_S800000_S800000x1_0
            (select (cmpi .slt src (broadcastInDim S800000 ![] bcast_S_S800000 (constantI S_ 32 0#32)))
            (addi src (broadcastInDim S800000 ![] bcast_S_S800000 (constantI S_ 32 50000#32))) src)))
        (Host.gather gather_S50000x64_S800000x1_S800000x64_1_0_n_n_0_1_164 (T2 t)
          (broadcastInDim S800000x1 ![0] bcast_S800000_S800000x1_0
            (select (cmpi .slt dst (broadcastInDim S800000 ![] bcast_S_S800000 (constantI S_ 32 0#32)))
            (addi dst (broadcastInDim S800000 ![] bcast_S_S800000 (constantI S_ 32 50000#32))) dst))))
      (constant (F := Ideal) S_ .f32 0x00000000#32) reducesTo_S800000x64_S800000_d1 h_S_
      = fun i => score t wr (src (ix1 (i 0))) (dst (ix1 (i 0))) := by
  funext i
  obtain ⟨e, rfl⟩ : ∃ e, i = ix1 e := ⟨i 0, eq_ix1 i⟩
  have hR : S800000x64.Reduces [1] S800000 := by decide
  simp only [Host.reduceAdd, Ideal.hostReduceAdd_def]
  rw [Ideal.hostReduceAdd_single reducesTo_S800000x64_S800000_d1 hR]
  rw [constant_apply, Ideal.ofBits_zero_f32, zero_add]
  show _ = score t wr (src (ix1 e)) (dst (ix1 e))
  rw [score_eq_weighted_first]
  refine Finset.sum_congr rfl fun (c : Fin 64) _ => ?_
  have hl : hR.lift (ix1 e) c = ix2 e c :=
    funext fun a => Fin.ext (by match a with | ⟨0, _⟩ => rfl | ⟨1, _⟩ => rfl)
  rw [hl, mulf_apply]
  show Host.gather (rowDims 50000 800000 64 _) _ _ (ix2 e c) * Host.gather (rowDims 50000 800000 64 _) _ _ (ix2 e c) = _
  rw [gather_wrapped _ _ _ e c _ (wrapCol_pos src e), gather_wrapped _ _ _ e c _ (wrapCol_pos dst e), mulf_apply, wrRow]
  rfl

/-- The same wrapped column for the four million negative samples. -/
private theorem wrapCol_neg (w : Idx1 4000000) (q : Fin 4000000) :
    (broadcastInDim S4000000x1 ![0] bcast_S4000000_S4000000x1_0
      (select (cmpi .slt w (broadcastInDim S4000000 ![] bcast_S_S4000000 (constantI S_ 32 0#32)))
        (addi w (broadcastInDim S4000000 ![] bcast_S_S4000000 (constantI S_ 32 50000#32))) w)) (ix2 q (0 : Fin 1))
      = wrap (w (ix1 q)) := by
  rw [broadcastInDim_apply _ bcast_S4000000_S4000000x1_0 _ (ix2 q (0 : Fin 1)) (ix1 q) (fun a => match a with
    | ⟨0, _⟩ => by show q.val = if (4000000 : Nat) = 1 then 0 else q.val; rw [if_neg (by decide)])]
  rfl

/-- The source array with each entry repeated five times in a row: a reshape keeps the row-major position, and position
    `q` of `[800000, 5]` is `(q / 5, q % 5)`; the broadcast reads coordinate `0`. So entry `q` is `src[q / 5]`. -/
private theorem srcRep (src : Idx1 800000) (q : Fin 4000000) :
    shapeCast S4000000 (broadcastInDim S800000x5 ![0] bcast_S800000_S800000x5_0 src) shapeCasts_S800000x5_S4000000 (ix1 q)
      = src (ix1 (srcOf q)) := by
  have hq := q.isLt
  rw [shapeCast_apply _ shapeCasts_S800000x5_S4000000 (ix1 q)
    (ix2 (srcOf q) (⟨q.val % 5, Nat.mod_lt _ (by decide)⟩ : Fin 5))
    (by rewrite [Shape.rowMajor_val_two, Shape.rowMajor_val_one]; show q.val / 5 * 5 + q.val % 5 = q.val; omega)]
  exact broadcastInDim_apply _ bcast_S800000_S800000x5_0 src _ (ix1 (srcOf q)) (fun a => match a with
    | ⟨0, _⟩ => by show q.val / 5 = if (800000 : Nat) = 1 then 0 else q.val / 5; rw [if_neg (by decide)])

/-- The negative scores. -/
theorem neg_term (t : Tab) (wr : Arr2 1 64) (src : Idx1 800000) (nd : Idx1 4000000) :
    Host.reduceAdd (F := Ideal)
      (mulf (F := Ideal)
        (Host.gather gather_S50000x64_S4000000x1_S4000000x64_1_0_n_n_0_1_164
          (mulf (F := Ideal) (T2 t) (broadcastInDim S50000x64 ![0, 1] bcast_S1x64_S50000x64_0_1 wr))
          (broadcastInDim S4000000x1 ![0] bcast_S4000000_S4000000x1_0
            (select (cmpi .slt (shapeCast S4000000 (broadcastInDim S800000x5 ![0] bcast_S800000_S800000x5_0 src) shapeCasts_S800000x5_S4000000) (broadcastInDim S4000000 ![] bcast_S_S4000000 (constantI S_ 32 0#32)))
            (addi (shapeCast S4000000 (broadcastInDim S800000x5 ![0] bcast_S800000_S800000x5_0 src) shapeCasts_S800000x5_S4000000) (broadcastInDim S4000000 ![] bcast_S_S4000000 (constantI S_ 32 50000#32))) (shapeCast S4000000 (broadcastInDim S800000x5 ![0] bcast_S800000_S800000x5_0 src) shapeCasts_S800000x5_S4000000))))
        (Host.gather gather_S50000x64_S4000000x1_S4000000x64_1_0_n_n_0_1_164 (T2 t)
          (broadcastInDim S4000000x1 ![0] bcast_S4000000_S4000000x1_0
            (select (cmpi .slt nd (broadcastInDim S4000000 ![] bcast_S_S4000000 (constantI S_ 32 0#32)))
            (addi nd (broadcastInDim S4000000 ![] bcast_S_S4000000 (constantI S_ 32 50000#32))) nd))))
      (constant (F := Ideal) S_ .f32 0x00000000#32) reducesTo_S4000000x64_S4000000_d1 h_S_
      = fun i => score t wr (src (ix1 (srcOf (i 0)))) (nd (ix1 (i 0))) := by
  funext i
  obtain ⟨q, rfl⟩ : ∃ q, i = ix1 q := ⟨i 0, eq_ix1 i⟩
  have hR : S4000000x64.Reduces [1] S4000000 := by decide
  simp only [Host.reduceAdd, Ideal.hostReduceAdd_def]
  rw [Ideal.hostReduceAdd_single reducesTo_S4000000x64_S4000000_d1 hR]
  rw [constant_apply, Ideal.ofBits_zero_f32, zero_add]
  show _ = score t wr (src (ix1 (srcOf q))) (nd (ix1 q))
  rw [score_eq_weighted_first]
  refine Finset.sum_congr rfl fun (c : Fin 64) _ => ?_
  have hl : hR.lift (ix1 q) c = ix2 q c :=
    funext fun a => Fin.ext (by match a with | ⟨0, _⟩ => rfl | ⟨1, _⟩ => rfl)
  rw [hl, mulf_apply]
  show Host.gather (rowDims 50000 4000000 64 _) _ _ (ix2 q c) * Host.gather (rowDims 50000 4000000 64 _) _ _ (ix2 q c) = _
  rw [gather_wrapped _ _ _ q c _ ((wrapCol_neg _ q).trans (congrArg wrap (srcRep src q))),
    gather_wrapped _ _ _ q c _ (wrapCol_neg nd q), mulf_apply, wrRow]
  rfl

end Cert.KernelIdeal.KHost

end
-- ==== Proof.KChain.lean ====
/-
  THE KERNEL PROGRAM'S VALUES, boundary by boundary. Following the program's memory from launch through its eleven
  segments, each intermediate array is one of the specification's functions of the thirteen argument arrays: the
  embedding after the first pallas_call; the in-degree column and the concatenated weight blocks after the host stretch
  that follows; the node-side product after the second pallas_call; the aggregation (in its node-side arrangement, which
  is the aggregation) and the tiled parameters on the merged layout; the updated table; the same again for the second
  layer; and at the end the two score vectors.
-/
import proofs.«407718_j73289321939189_3_alg».proof.Proof.KKeep
import proofs.«407718_j73289321939189_3_alg».proof.Proof.RegEmb
import proofs.«407718_j73289321939189_3_alg».proof.Proof.RegMat1
import proofs.«407718_j73289321939189_3_alg».proof.Proof.RegMat3
import proofs.«407718_j73289321939189_3_alg».proof.Proof.RegUpd2
import proofs.«407718_j73289321939189_3_alg».proof.Proof.RegUpd4
import proofs.«407718_j73289321939189_3_alg».proof.Proof.KLayout
import proofs.«407718_j73289321939189_3_alg».proof.Proof.KAgg
import proofs.«407718_j73289321939189_3_alg».proof.Proof.KScore
import proofs.«407718_j73289321939189_3_alg».proof.Proof.Spec
import Idealize.ShloMosaic.Lib.StableHlo.Run
import Idealize.ShloMosaic.PureOps.Ideal

set_option maxRecDepth 16384

noncomputable section

namespace Cert.KernelIdeal.Gen

open Idealize.ShloMosaic Idealize.ShloMosaic.TcCoe Idealize.ShloMosaic.Tactic Idealize.ShloMosaic.StableHlo
open Idealize.SL.Sem
open Cert.KernelIdeal.Facts₀ Cert.KernelIdeal.Facts Cert.KernelIdeal.Reg Cert.KernelIdeal.KHost Cert.Link

variable (m : (ℓ : Loc nD τ sig) → Buf (Elt Ideal) ℓ) (ρ : Dev nD → PrngReg)

/-- The thirteen argument arrays of core `c`, as launched. -/
def args (c : Dev nD) : Args where
  x := m ((c : Thread nD τ).loc main_arg0)
  ew := m ((c : Thread nD τ).loc main_arg1)
  eb := m ((c : Thread nD τ).loc main_arg2)
  cw := m ((c : Thread nD τ).loc main_arg3)
  cb := m ((c : Thread nD τ).loc main_arg4)
  g := m ((c : Thread nD τ).loc main_arg5)
  be := m ((c : Thread nD τ).loc main_arg6)
  mu := m ((c : Thread nD τ).loc main_arg7)
  va := m ((c : Thread nD τ).loc main_arg8)
  wr := m ((c : Thread nD τ).loc main_arg9)
  src := m ((c : Thread nD τ).loc main_arg10)
  dst := m ((c : Thread nD τ).loc main_arg11)
  nd := m ((c : Thread nD τ).loc main_arg12)

/-! ## The argument arrays at the boundaries where they are read -/

theorem args_at1 (c : Dev nD) : ∀ b ∈ ([main_arg0, main_arg1] : List (Ref sig .tc)),
    W1 m ρ c (Proc.devRef .tc b) = m ((c : Thread nD τ).loc b) := by
  intro b hb
  simp only [List.mem_cons, List.not_mem_nil, or_false] at hb
  rcases hb with rfl | rfl <;>
    exact (keep0 m ρ c _ (by decide))

theorem args_at2 (c : Dev nD) : ∀ b ∈ ([main_arg3, main_arg11] : List (Ref sig .tc)),
    W2 m ρ c (Proc.devRef .tc b) = m ((c : Thread nD τ).loc b) := by
  intro b hb
  simp only [List.mem_cons, List.not_mem_nil, or_false] at hb
  rcases hb with rfl | rfl <;>
    exact (keep1 m ρ c _ (by decide)).trans ((keep0 m ρ c _ (by decide)))

theorem args_at4 (c : Dev nD) : ∀ b ∈ ([main_arg4, main_arg5, main_arg6, main_arg7, main_arg8, main_arg10, main_arg11] : List (Ref sig .tc)),
    W4 m ρ c (Proc.devRef .tc b) = m ((c : Thread nD τ).loc b) := by
  intro b hb
  simp only [List.mem_cons, List.not_mem_nil, or_false] at hb
  rcases hb with rfl | rfl | rfl | rfl | rfl | rfl | rfl <;>
    exact (keep3 m ρ c _ (by decide)).trans ((keep2 m ρ c _ (by decide)).trans ((keep1 m ρ c _ (by decide)).trans ((keep0 m ρ c _ (by decide)))))

theorem args_at6 (c : Dev nD) : ∀ b ∈ ([main_arg3] : List (Ref sig .tc)),
    W6 m ρ c (Proc.devRef .tc b) = m ((c : Thread nD τ).loc b) := by
  intro b hb
  simp only [List.mem_cons, List.not_mem_nil, or_false] at hb
  rcases hb with rfl <;>
    exact (keep5 m ρ c _ (by decide)).trans ((keep4 m ρ c _ (by decide)).trans ((keep3 m ρ c _ (by decide)).trans ((keep2 m ρ c _ (by decide)).trans ((keep1 m ρ c _ (by decide)).trans ((keep0 m ρ c _ (by decide)))))))

theorem args_at8 (c : Dev nD) : ∀ b ∈ ([main_arg4, main_arg5, main_arg6, main_arg7, main_arg8, main_arg10, main_arg11] : List (Ref sig .tc)),
    W8 m ρ c (Proc.devRef .tc b) = m ((c : Thread nD τ).loc b) := by
  intro b hb
  simp only [List.mem_cons, List.not_mem_nil, or_false] at hb
  rcases hb with rfl | rfl | rfl | rfl | rfl | rfl | rfl <;>
    exact (keep7 m ρ c _ (by decide)).trans ((keep6 m ρ c _ (by decide)).trans ((keep5 m ρ c _ (by decide)).trans ((keep4 m ρ c _ (by decide)).trans ((keep3 m ρ c _ (by decide)).trans ((keep2 m ρ c _ (by decide)).trans ((keep1 m ρ c _ (by decide)).trans ((keep0 m ρ c _ (by decide)))))))))

theorem args_at10 (c : Dev nD) : ∀ b ∈ ([main_arg9, main_arg10, main_arg11, main_arg12] : List (Ref sig .tc)),
    W10 m ρ c (Proc.devRef .tc b) = m ((c : Thread nD τ).loc b) := by
  intro b hb
  simp only [List.mem_cons, List.not_mem_nil, or_false] at hb
  rcases hb with rfl | rfl | rfl | rfl <;>
    exact (keep9 m ρ c _ (by decide)).trans ((keep8 m ρ c _ (by decide)).trans ((keep7 m ρ c _ (by decide)).trans ((keep6 m ρ c _ (by decide)).trans ((keep5 m ρ c _ (by decide)).trans ((keep4 m ρ c _ (by decide)).trans ((keep3 m ρ c _ (by decide)).trans ((keep2 m ρ c _ (by decide)).trans ((keep1 m ρ c _ (by decide)).trans ((keep0 m ρ c _ (by decide)))))))))))

/-! ## The embedding -/

/-- The bias as the row the first pallas_call reads. -/
theorem v0_at1 (c : Dev nD) :
    W1 m ρ c (Proc.devRef .tc main_v0) = shapeCast S1x64 (args m c).eb shapeCasts_S64_S1x64 := by
  show StableHlo.after hostOps0 (W0 m ρ c) _ = _
  after_results
  rfl

/-- After the first pallas_call: the embedding. -/
theorem v1_at2 (c : Dev nD) : W2 m ρ c (Proc.devRef .tc main_v1) = T2 (H0 (args m c)) := by
  refine (W2_arr m ρ c 3).trans ((emb_final (V1 m ρ) c).trans ?_)
  show embArr (W1 m ρ c (Proc.devRef .tc main_arg0)) (W1 m ρ c (Proc.devRef .tc main_arg1)) (W1 m ρ c (Proc.devRef .tc main_v0)) = _
  rw [args_at1 m ρ c main_arg0 (by decide), args_at1 m ρ c main_arg1 (by decide), v0_at1]
  exact embArr_bias _ _ _

/-! ## Layer 0 -/

/-- The in-degree column. -/
theorem v6_at3 (c : Dev nD) : W3 m ρ c (Proc.devRef .tc main_v6) = degArr (args m c).dst := by
  show StableHlo.after hostOps1 (W2 m ρ c) _ = _
  after_results
  rw [args_at2 m ρ c main_arg11 (by decide)]
  exact deg_term _

/-- Layer 0's weight blocks side by side. -/
theorem v11_at3 (c : Dev nD) : W3 m ρ c (Proc.devRef .tc main_v11) = wcat (args m c).cw 0 := by
  show StableHlo.after hostOps1 (W2 m ρ c) _ = _
  after_results
  rw [args_at2 m ρ c main_arg3 (by decide)]
  exact wcat_term0 _

theorem v1_at3 (c : Dev nD) : W3 m ρ c (Proc.devRef .tc main_v1) = T2 (H0 (args m c)) :=
  (keep2 m ρ c _ (by decide)).trans (v1_at2 m ρ c)

/-- After the second pallas_call: the node-side product. -/
theorem v12_at4 (c : Dev nD) : W4 m ρ c (Proc.devRef .tc main_v12) = mmArr (T2 (H0 (args m c))) (wcat (args m c).cw 0) := by
  refine (W4_arr m ρ c 2).trans ((mat1_final (V3 m ρ) c).trans ?_)
  show mmArr (W3 m ρ c (Proc.devRef .tc main_v1)) (W3 m ρ c (Proc.devRef .tc main_v11)) = _
  rw [v1_at3, v11_at3]

theorem v6_at4 (c : Dev nD) : W4 m ρ c (Proc.devRef .tc main_v6) = degArr (args m c).dst :=
  (keep3 m ρ c _ (by decide)).trans (v6_at3 m ρ c)

theorem v1_at4 (c : Dev nD) : W4 m ρ c (Proc.devRef .tc main_v1) = T2 (H0 (args m c)) :=
  (keep3_v1 m ρ c).trans (v1_at3 m ρ c)

set_option maxHeartbeats 4000000 in
/-- The aggregation on the merged layout. -/
theorem v41_at5 (c : Dev nD) :
    W5 m ρ c (Proc.devRef .tc main_v41) = P2 (agg (H0 (args m c)) (args m c).cw (args m c).cb 0 (args m c).src (args m c).dst) := by
  show StableHlo.after hostOps2 (W4 m ρ c) _ = _
  after_results_simp
  rw [v12_at4, v6_at4, args_at4 m ρ c main_arg10 (by decide), args_at4 m ρ c main_arg11 (by decide),
    args_at4 m ρ c main_arg4 (by decide)]
  exact agg_term0 _ _ _ _ _

set_option maxHeartbeats 4000000 in
/-- The table on the merged layout. -/
theorem v42_at5 (c : Dev nD) : W5 m ρ c (Proc.devRef .tc main_v42) = P2 (H0 (args m c)) := by
  show StableHlo.after hostOps2 (W4 m ρ c) _ = _
  after_results_simp
  rw [v1_at4]
  exact merge_rows _

set_option maxHeartbeats 4000000 in
theorem v46_at5 (c : Dev nD) : W5 m ρ c (Proc.devRef .tc main_v46) = tile2 (args m c).g 0 := by
  show StableHlo.after hostOps2 (W4 m ρ c) _ = _
  after_results_simp
  rw [args_at4 m ρ c main_arg5 (by decide)]
  exact tile_term0 _

set_option maxHeartbeats 4000000 in
theorem v50_at5 (c : Dev nD) : W5 m ρ c (Proc.devRef .tc main_v50) = tile2 (args m c).be 0 := by
  show StableHlo.after hostOps2 (W4 m ρ c) _ = _
  after_results_simp
  rw [args_at4 m ρ c main_arg6 (by decide)]
  exact tile_term0 _

set_option maxHeartbeats 4000000 in
theorem v54_at5 (c : Dev nD) : W5 m ρ c (Proc.devRef .tc main_v54) = tile2 (args m c).mu 0 := by
  show StableHlo.after hostOps2 (W4 m ρ c) _ = _
  after_results_simp
  rw [args_at4 m ρ c main_arg7 (by decide)]
  exact tile_term0 _

set_option maxHeartbeats 4000000 in
theorem v58_at5 (c : Dev nD) : W5 m ρ c (Proc.devRef .tc main_v58) = tile2 (args m c).va 0 := by
  show StableHlo.after hostOps2 (W4 m ρ c) _ = _
  after_results_simp
  rw [args_at4 m ρ c main_arg8 (by decide)]
  exact tile_term0 _

/-- After the third pallas_call: layer 0's updated table, merged. -/
theorem v59_at6 (c : Dev nD) : W6 m ρ c (Proc.devRef .tc main_v59) = P2 (H1 (args m c)) := by
  refine (W6_arr m ρ c 6).trans ((upd2_final (V5 m ρ) c).trans ?_)
  show updArr (W5 m ρ c (Proc.devRef .tc main_v41)) (W5 m ρ c (Proc.devRef .tc main_v42)) (W5 m ρ c (Proc.devRef .tc main_v46))
    (W5 m ρ c (Proc.devRef .tc main_v50)) (W5 m ρ c (Proc.devRef .tc main_v54)) (W5 m ρ c (Proc.devRef .tc main_v58)) = _
  rw [v41_at5, v42_at5, v46_at5, v50_at5, v54_at5, v58_at5]
  exact updArr_merged _ _ _ _ _ _ _

/-! ## Layer 1 -/

theorem v60_at7 (c : Dev nD) : W7 m ρ c (Proc.devRef .tc main_v60) = T2 (H1 (args m c)) := by
  show StableHlo.after hostOps3 (W6 m ρ c) _ = _
  after_results
  rw [v59_at6]
  exact split_rows _

theorem v65_at7 (c : Dev nD) : W7 m ρ c (Proc.devRef .tc main_v65) = wcat (args m c).cw 1 := by
  show StableHlo.after hostOps3 (W6 m ρ c) _ = _
  after_results
  rw [args_at6 m ρ c main_arg3 (by decide)]
  exact wcat_term1 _

theorem v66_at8 (c : Dev nD) : W8 m ρ c (Proc.devRef .tc main_v66) = mmArr (T2 (H1 (args m c))) (wcat (args m c).cw 1) := by
  refine (W8_arr m ρ c 2).trans ((mat3_final (V7 m ρ) c).trans ?_)
  show mmArr (W7 m ρ c (Proc.devRef .tc main_v60)) (W7 m ρ c (Proc.devRef .tc main_v65)) = _
  rw [v60_at7, v65_at7]

theorem v6_at8 (c : Dev nD) : W8 m ρ c (Proc.devRef .tc main_v6) = degArr (args m c).dst :=
  (keep7 m ρ c _ (by decide)).trans ((keep6 m ρ c _ (by decide)).trans ((keep5 m ρ c _ (by decide)).trans
    ((keep4 m ρ c _ (by decide)).trans (v6_at4 m ρ c))))

theorem v60_at8 (c : Dev nD) : W8 m ρ c (Proc.devRef .tc main_v60) = T2 (H1 (args m c)) :=
  (keep7_v60 m ρ c).trans (v60_at7 m ρ c)

set_option maxHeartbeats 4000000 in
theorem v95_at9 (c : Dev nD) :
    W9 m ρ c (Proc.devRef .tc main_v95) = P2 (agg (H1 (args m c)) (args m c).cw (args m c).cb 1 (args m c).src (args m c).dst) := by
  show StableHlo.after hostOps4 (W8 m ρ c) _ = _
  after_results_simp
  rw [v66_at8, v6_at8, args_at8 m ρ c main_arg10 (by decide), args_at8 m ρ c main_arg11 (by decide),
    args_at8 m ρ c main_arg4 (by decide)]
  exact agg_term1 _ _ _ _ _

set_option maxHeartbeats 4000000 in
theorem v96_at9 (c : Dev nD) : W9 m ρ c (Proc.devRef .tc main_v96) = P2 (H1 (args m c)) := by
  show StableHlo.after hostOps4 (W8 m ρ c) _ = _
  after_results_simp
  rw [v60_at8]
  exact merge_rows _

set_option maxHeartbeats 4000000 in
theorem v100_at9 (c : Dev nD) : W9 m ρ c (Proc.devRef .tc main_v100) = tile2 (args m c).g 1 := by
  show StableHlo.after hostOps4 (W8 m ρ c) _ = _
  after_results_simp
  rw [args_at8 m ρ c main_arg5 (by decide)]
  exact tile_term1 _

set_option maxHeartbeats 4000000 in
theorem v104_at9 (c : Dev nD) : W9 m ρ c (Proc.devRef .tc main_v104) = tile2 (args m c).be 1 := by
  show StableHlo.after hostOps4 (W8 m ρ c) _ = _
  after_results_simp
  rw [args_at8 m ρ c main_arg6 (by decide)]
  exact tile_term1 _

set_option maxHeartbeats 4000000 in
theorem v108_at9 (c : Dev nD) : W9 m ρ c (Proc.devRef .tc main_v108) = tile2 (args m c).mu 1 := by
  show StableHlo.after hostOps4 (W8 m ρ c) _ = _
  after_results_simp
  rw [args_at8 m ρ c main_arg7 (by decide)]
  exact tile_term1 _

set_option maxHeartbeats 4000000 in
theorem v112_at9 (c : Dev nD) : W9 m ρ c (Proc.devRef .tc main_v112) = tile2 (args m c).va 1 := by
  show StableHlo.after hostOps4 (W8 m ρ c) _ = _
  after_results_simp
  rw [args_at8 m ρ c main_arg8 (by decide)]
  exact tile_term1 _

/-- After the fifth pallas_call: the final table, merged. -/
theorem v113_at10 (c : Dev nD) : W10 m ρ c (Proc.devRef .tc main_v113) = P2 (H2 (args m c)) := by
  refine (W10_arr m ρ c 6).trans ((upd4_final (V9 m ρ) c).trans ?_)
  show updArr (W9 m ρ c (Proc.devRef .tc main_v95)) (W9 m ρ c (Proc.devRef .tc main_v96)) (W9 m ρ c (Proc.devRef .tc main_v100))
    (W9 m ρ c (Proc.devRef .tc main_v104)) (W9 m ρ c (Proc.devRef .tc main_v108)) (W9 m ρ c (Proc.devRef .tc main_v112)) = _
  rw [v95_at9, v96_at9, v100_at9, v104_at9, v108_at9, v112_at9]
  exact updArr_merged _ _ _ _ _ _ _

/-! ## The two results -/

set_option maxHeartbeats 4000000 in
theorem pos_at11 (c : Dev nD) : W11 m ρ c (Proc.devRef .tc main_v132) = pos (args m c) := by
  show StableHlo.after hostOps5 (W10 m ρ c) _ = _
  after_results_simp
  rw [v113_at10, args_at10 m ρ c main_arg9 (by decide), args_at10 m ρ c main_arg10 (by decide),
    args_at10 m ρ c main_arg11 (by decide)]
  have key := pos_term (H2 (args m c)) (args m c).wr (args m c).src (args m c).dst
  rw [← split_rows (H2 (args m c))] at key
  exact key

set_option maxHeartbeats 4000000 in
theorem neg_at11 (c : Dev nD) : W11 m ρ c (Proc.devRef .tc main_v150) = neg (args m c) := by
  show StableHlo.after hostOps5 (W10 m ρ c) _ = _
  after_results_simp
  rw [v113_at10, args_at10 m ρ c main_arg9 (by decide), args_at10 m ρ c main_arg10 (by decide),
    args_at10 m ρ c main_arg12 (by decide)]
  have key := neg_term (H2 (args m c)) (args m c).wr (args m c).src (args m c).nd
  rw [← split_rows (H2 (args m c))] at key
  exact key

end Cert.KernelIdeal.Gen

end
-- ==== Proof.RefL0.lean ====
/-
  THE REFERENCE, STAGE BY STAGE: the embedding and the first layer. The reference embeds by a host matrix product plus the
  broadcast bias; per layer it looks up the table at each edge's (wrapped, clamped) source and destination rows, multiplies
  by the layer's two weight blocks, adds the bias, and scatter-adds the edge messages at the raw destinations into a zero
  table (an edge lands on node `v` when its destination word read signed is `v`); then the pointwise update. Each stage is
  the corresponding function of the specification, as a `[50000, 64]` array.
-/
import proofs.«407718_j73289321939189_3_alg».proof.Proof.Gen.ReferenceIdeal.Read
import proofs.«407718_j73289321939189_3_alg».proof.Proof.Spec
import proofs.«407718_j73289321939189_3_alg».proof.Proof.IdxOps
import proofs.«407718_j73289321939189_3_alg».proof.Proof.ELaws
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost

noncomputable section

open scoped BigOperators

namespace Cert.ReferenceIdeal.RefVal

open Idealize.ShloMosaic Idealize.ShloMosaic.ValueIdx
open Cert.ReferenceIdeal Cert.ReferenceIdeal.Facts₀ Cert.ReferenceIdeal.Facts Cert.ReferenceIdeal.Read Cert.Link

variable (A : Args)

/-- The embedding. -/
theorem ref_h0 : val_main_v3 (F := Ideal) A.x A.ew A.eb = T2 (H0 A) := by
  funext i
  obtain ⟨n, c, rfl⟩ : ∃ (n : Fin 50000) (c : Fin 64), i = ix2 n c := ⟨i 0, i 1, eq_ix2 i⟩
  rw [val_main_v3_apply, val_main_v0_apply, val_main_v2_apply, val_main_v1_apply]
  have el : ∀ k : Fin 128, lidx_main_v0 (ix2 n c) k = ix2 n k := fun k => funext fun a => Fin.ext (by
    match a with | ⟨0, _⟩ => rfl | ⟨1, _⟩ => rfl)
  have er : ∀ k : Fin 128, ridx_main_v0 (ix2 n c) k = ix2 k c := fun k => funext fun a => Fin.ext (by
    match a with | ⟨0, _⟩ => rfl | ⟨1, _⟩ => rfl)
  have eb : idx_main_v1 (idx_main_v2 (ix2 n c)) = ix1 c := funext fun a => Fin.ext (by
    match a with | ⟨0, _⟩ => rfl)
  simp only [el, er, eb, Ideal.addf_def]
  rfl

namespace L0

/-- A table's array at `(n, c)` is the table's entry. -/
theorem T2_at (t : Tab) (n : Fin 50000) (c : Fin 64) : T2 t (ix2 n c) = t n c := rfl

/-! ## The layer's parameters read at an index -/

/-- The source weight block: rows 0–63 of layer 0's slab. -/
theorem w_src (cw : Arr3 2 128 64) (k c : Fin 64) : val_main_v5 (F := Ideal) cw (ix2 k c) = Ws cw 0 k c := by
  rw [val_main_v5_apply, val_main_v4_apply]
  unfold Ws
  refine congrArg cw (funext fun a => Fin.ext ?_)
  have hk := k.isLt
  have hc := c.isLt
  match a with
  | ⟨0, _⟩ => rfl
  | ⟨1, _⟩ => show (k.val * 64 + c.val) / 64 % 64 = k.val; omega
  | ⟨2, _⟩ => show (k.val * 64 + c.val) % 64 = c.val; omega

/-- The destination weight block: rows 64–127 of layer 0's slab. -/
theorem w_dst (cw : Arr3 2 128 64) (k c : Fin 64) : val_main_v7 (F := Ideal) cw (ix2 k c) = Wd cw 0 k c := by
  rw [val_main_v7_apply, val_main_v6_apply]
  unfold Wd
  refine congrArg cw (funext fun a => Fin.ext ?_)
  have hk := k.isLt
  have hc := c.isLt
  match a with
  | ⟨0, _⟩ => rfl
  | ⟨1, _⟩ => show 64 + (k.val * 64 + c.val) / 64 % 64 = 64 + k.val; omega
  | ⟨2, _⟩ => show (k.val * 64 + c.val) % 64 = c.val; omega

/-- A row of a `[2, 64]` parameter array read through slice, reshape and the two broadcasts is row 0 at the channel. -/
theorem bias_at (cb : Arr2 2 64) (e : Fin 800000) (c : Fin 64) : val_main_v28 (F := Ideal) cb (ix2 e c) = cb (ix2 0 c) := by
  rw [val_main_v28_apply, val_main_v27_apply, val_main_v26_apply, val_main_v25_apply]
  refine congrArg cb (funext fun a => Fin.ext ?_)
  have hc := c.isLt
  match a with
  | ⟨0, _⟩ => rfl
  | ⟨1, _⟩ => show c.val % 64 = c.val; omega

theorem g_at (g : Arr2 2 64) (n : Fin 50000) (c : Fin 64) : val_main_v49 (F := Ideal) g (ix2 n c) = g (ix2 0 c) := by
  rw [val_main_v49_apply, val_main_v48_apply, val_main_v42_apply, val_main_v41_apply]
  refine congrArg g (funext fun a => Fin.ext ?_)
  have hc := c.isLt
  match a with
  | ⟨0, _⟩ => rfl
  | ⟨1, _⟩ => show c.val % 64 = c.val; omega

theorem mu_at (mu : Arr2 2 64) (n : Fin 50000) (c : Fin 64) : val_main_v46 (F := Ideal) mu (ix2 n c) = mu (ix2 0 c) := by
  rw [val_main_v46_apply, val_main_v45_apply, val_main_v44_apply, val_main_v43_apply]
  refine congrArg mu (funext fun a => Fin.ext ?_)
  have hc := c.isLt
  match a with
  | ⟨0, _⟩ => rfl
  | ⟨1, _⟩ => show c.val % 64 = c.val; omega

theorem be_at (be : Arr2 2 64) (n : Fin 50000) (c : Fin 64) : val_main_v62 (F := Ideal) be (ix2 n c) = be (ix2 0 c) := by
  rw [val_main_v62_apply, val_main_v61_apply, val_main_v60_apply, val_main_v59_apply]
  refine congrArg be (funext fun a => Fin.ext ?_)
  have hc := c.isLt
  match a with
  | ⟨0, _⟩ => rfl
  | ⟨1, _⟩ => show c.val % 64 = c.val; omega

/-- The reciprocal square root of the variance row plus `ε`. -/
theorem rs_at (va : Arr2 2 64) (n : Fin 50000) (c : Fin 64) :
    val_main_v57 (F := Ideal) va (ix2 n c) = Ideal.rsqrt (va (ix2 0 c) + eps) := by
  rw [val_main_v57_apply, val_main_v56_apply, val_main_v55_apply, val_main_v54_apply, val_main_v53_apply,
    val_main_cst_5_apply, val_main_v52_apply, val_main_v51_apply]
  simp only [Ideal.hostUnary_rsqrt_def, Ideal.addf_def, Ideal.ofBits_def]
  unfold eps
  refine congrArg (fun t => Ideal.rsqrt (va t + Ideal.ofBits .f32 0x3A83126F#32)) (funext fun a => Fin.ext ?_)
  have hc := c.isLt
  match a with
  | ⟨0, _⟩ => rfl
  | ⟨1, _⟩ => show c.val % 64 = c.val; omega

/-! ## The lookups -/

/-- The index word of a lookup at edge `e` is the edge's word wrapped once. -/
theorem wrap_src (s : Idx1 800000) (e : Fin 800000) : val_main_v13 (F := Ideal) s (ix2 e (0 : Fin 1)) = wrap (s (ix1 e)) := by
  rw [val_main_v13_apply, val_main_v12_apply, val_main_v9_apply, val_main_v11_apply, val_main_v8_apply,
    val_main_v10_apply, val_main_c_apply, val_main_c_0_apply]
  have ei : idx_main_v13 (ix2 e (0 : Fin 1)) = ix1 e := funext fun a => Fin.ext (by
    match a with | ⟨0, _⟩ => rfl)
  rw [ei]
  rfl

theorem wrap_dst (d : Idx1 800000) (e : Fin 800000) : val_main_v21 (F := Ideal) d (ix2 e (0 : Fin 1)) = wrap (d (ix1 e)) := by
  rw [val_main_v21_apply, val_main_v20_apply, val_main_v17_apply, val_main_v19_apply, val_main_v16_apply,
    val_main_v18_apply, val_main_c_1_apply, val_main_c_2_apply]
  have ei : idx_main_v21 (ix2 e (0 : Fin 1)) = ix1 e := funext fun a => Fin.ext (by
    match a with | ⟨0, _⟩ => rfl)
  rw [ei]
  rfl

/-- The scatter's index word at edge `e` is the raw destination word. -/
theorem raw_dst (d : Idx1 800000) (e : Fin 800000) : val_main_v31 (F := Ideal) d (ix2 e (0 : Fin 1)) = d (ix1 e) := by
  rw [val_main_v31_apply]
  refine congrArg d (funext fun a => Fin.ext ?_)
  match a with | ⟨0, _⟩ => rfl

/-- The gathered source row of edge `e` is the embedded table's row `rowOf` of the source word. -/
theorem row_src (e : Fin 800000) (k : Fin 64) :
    val_main_v14 (F := Ideal) A.x A.ew A.eb A.src (ix2 e k) = H0 A (rowOf (A.src (ix1 e))) k := by
  unfold val_main_v14
  rw [ref_h0]
  show Host.gather (rowDims 50000 800000 64 _) (T2 (H0 A)) (val_main_v13 (F := Ideal) A.src) (ix2 e k) = _
  rw [gather_rows_apply (by decide)]
  rw [T2_at]
  refine congrArg (fun r => H0 A r k) (Fin.ext ?_)
  show min (val_main_v13 (F := Ideal) A.src (ix2 e (0 : Fin 1))).toInt.toNat (50000 - 1) = min (wrap (A.src (ix1 e))).toInt.toNat 49999
  rw [wrap_src]

/-- The gathered destination row of edge `e`. -/
theorem row_dst (e : Fin 800000) (k : Fin 64) :
    val_main_v22 (F := Ideal) A.x A.ew A.eb A.dst (ix2 e k) = H0 A (rowOf (A.dst (ix1 e))) k := by
  unfold val_main_v22
  rw [ref_h0]
  show Host.gather (rowDims 50000 800000 64 _) (T2 (H0 A)) (val_main_v21 (F := Ideal) A.dst) (ix2 e k) = _
  rw [gather_rows_apply (by decide)]
  rw [T2_at]
  refine congrArg (fun r => H0 A r k) (Fin.ext ?_)
  show min (val_main_v21 (F := Ideal) A.dst (ix2 e (0 : Fin 1))).toInt.toNat (50000 - 1) = min (wrap (A.dst (ix1 e))).toInt.toNat 49999
  rw [wrap_dst]

/-- THE MESSAGE OF EDGE `e` at channel `c`. -/
theorem msg_at (e : Fin 800000) (c : Fin 64) :
    val_main_v29 (F := Ideal) A.x A.ew A.eb A.cw A.cb A.src A.dst (ix2 e c)
      = msg (H0 A) A.cw A.cb 0 (A.src (ix1 e)) (A.dst (ix1 e)) c := by
  rw [val_main_v29_apply, val_main_v24_apply, val_main_v15_apply, val_main_v23_apply, bias_at]
  have el : ∀ k : Fin 64, lidx_main_v15 (ix2 e c) k = ix2 e k := fun k => funext fun a => Fin.ext (by
    match a with | ⟨0, _⟩ => rfl | ⟨1, _⟩ => rfl)
  have er : ∀ k : Fin 64, ridx_main_v15 (ix2 e c) k = ix2 k c := fun k => funext fun a => Fin.ext (by
    match a with | ⟨0, _⟩ => rfl | ⟨1, _⟩ => rfl)
  have el' : ∀ k : Fin 64, lidx_main_v23 (ix2 e c) k = ix2 e k := fun k => funext fun a => Fin.ext (by
    match a with | ⟨0, _⟩ => rfl | ⟨1, _⟩ => rfl)
  have er' : ∀ k : Fin 64, ridx_main_v23 (ix2 e c) k = ix2 k c := fun k => funext fun a => Fin.ext (by
    match a with | ⟨0, _⟩ => rfl | ⟨1, _⟩ => rfl)
  simp only [el, er, el', er', row_src, row_dst, w_src, w_dst, Ideal.addf_def]
  rfl

/-- The reference's scatter-add of rows, at `(v, c)`: the old entry plus the updates of the edges whose index word, read
    signed, is `v`. -/
theorem scatter_rows_at (x : Arr2 50000 64) (idx : IVec ⟨2, ![800000, 1]⟩ 32) (upd : Arr2 800000 64)
    (v : Fin 50000) (c : Fin 64) :
    Host.scatterAdd (F := Ideal) (φ := .f32) scatter_S50000x64_S800000x1_S800000x64_1_0_0_1 x idx upd (ix2 v c)
      = x (ix2 v c) + ∑ e ∈ Finset.univ.filter (fun e : Fin 800000 => (idx (ix2 e (0 : Fin 1))).toInt = (v.val : ℤ)),
          upd (ix2 e c) :=
  scatterAdd_rows_apply scatter_S50000x64_S800000x1_S800000x64_1_0_0_1_wf x idx upd v c

end L0

/-- Layer 0's aggregation. -/
theorem ref_agg0 : val_main_v32 (F := Ideal) A.x A.ew A.eb A.cw A.cb A.src A.dst = T2 (agg (H0 A) A.cw A.cb 0 A.src A.dst) := by
  funext i
  obtain ⟨v, c, rfl⟩ : ∃ (v : Fin 50000) (c : Fin 64), i = ix2 v c := ⟨i 0, i 1, eq_ix2 i⟩
  unfold val_main_v32
  rw [L0.scatter_rows_at, val_main_v30_apply, val_main_cst_apply, Ideal.ofBits_def, Ideal.ofBits_zero_f32, zero_add]
  simp only [L0.raw_dst, L0.msg_at]
  rw [L0.T2_at]
  unfold agg landing
  rfl

namespace L0

/-! ## The update's pieces -/

/-- No extended real differs from itself. -/
theorem cmp_une_self (d : EReal) : Ideal.cmp .une d d = 0#1 := by
  show BitVec.ofBool (decide (d ≠ d)) = 0#1
  rw [decide_eq_false (fun h => h rfl)]
  rfl

/-- The logistic of the aggregate, as `1 / (1 + e^{-a})`. -/
theorem logistic_at (n : Fin 50000) (c : Fin 64) :
    val_main_v38 (F := Ideal) A.x A.ew A.eb A.cw A.cb A.src A.dst (ix2 n c)
      = Ideal.logistic (agg (H0 A) A.cw A.cb 0 A.src A.dst n c) := by
  rw [val_main_v38_apply, val_main_v37_apply, val_main_cst_4_apply, val_main_v36_apply, val_main_v35_apply,
    val_main_cst_3_apply, val_main_v34_apply, val_main_v33_apply, ref_agg0]
  simp only [Ideal.hostDivf_def, Ideal.ofBits_def, Ideal.ofBits_one_f32, Ideal.addf_def, Ideal.hostUnary_exp_def,
    Ideal.hostNegf_def, Ideal.negf_def, T2_at]
  rfl

/-- The softplus of the embedded table's entry. -/
theorem softplus_at (n : Fin 50000) (c : Fin 64) :
    val_main_v39 (F := Ideal) A.x A.ew A.eb (ix2 n c) = softplus (H0 A n c) := by
  rw [val_main_v39_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, ref_h0]
  simp only [val_main_call0_cst_apply, T2_at, Ideal.cmpf_def, Ideal.subf_def, Ideal.addf_def, Ideal.maximumf_def,
    Ideal.hostUnary_log1p_def, Ideal.hostUnary_exp_def, Ideal.hostNegf_def, Ideal.negf_def, Ideal.hostAbsf_def,
    Ideal.absf_def, Ideal.ofBits_def, Ideal.ofBits_zero_f32, cmp_une_self, select_zero]
  exact softplus_eq_neg_form _

end L0

/-- Layer 0's update. -/
theorem ref_h1 : val_main_v64 (F := Ideal) A.x A.ew A.eb A.cw A.cb A.g A.be A.mu A.va A.src A.dst = T2 (H1 A) := by
  funext i
  obtain ⟨n, c, rfl⟩ : ∃ (n : Fin 50000) (c : Fin 64), i = ix2 n c := ⟨i 0, i 1, eq_ix2 i⟩
  rw [val_main_v64_apply, val_main_v63_apply, val_main_v58_apply, val_main_v50_apply, val_main_v47_apply,
    val_main_v40_apply, val_main_call1_v0_apply, val_main_call1_cst_apply, L0.logistic_at, L0.softplus_at,
    L0.g_at, L0.mu_at, L0.rs_at, L0.be_at]
  simp only [Ideal.maximumf_def, Ideal.addf_def, Ideal.mulf_def, Ideal.subf_def, Ideal.ofBits_def, Ideal.ofBits_zero_f32,
    L0.T2_at]
  unfold H1 layer upd
  rfl

end Cert.ReferenceIdeal.RefVal

end
-- ==== Proof.RefL1.lean ====
/-
  THE REFERENCE, STAGE BY STAGE: the second layer, from the first layer's table. The same three steps as the first layer
  (lookups at the wrapped, clamped rows; the two weight blocks of layer 1 and its bias; the scatter-add at the raw
  destinations into a zero table; the pointwise update with layer 1's parameters).
-/
import proofs.«407718_j73289321939189_3_alg».proof.Proof.Gen.ReferenceIdeal.Read
import proofs.«407718_j73289321939189_3_alg».proof.Proof.Spec
import proofs.«407718_j73289321939189_3_alg».proof.Proof.IdxOps
import proofs.«407718_j73289321939189_3_alg».proof.Proof.ELaws
import proofs.«407718_j73289321939189_3_alg».proof.Proof.RefL0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Idealize.ShloMosaic Idealize.ShloMosaic.ValueIdx
open Cert.ReferenceIdeal Cert.ReferenceIdeal.Facts₀ Cert.ReferenceIdeal.Facts Cert.ReferenceIdeal.Read Cert.Link

variable (A : Args)

namespace L1

/-- A table's array at an entry. -/
theorem T2_apply (t : Tab) (n : Fin 50000) (c : Fin 64) : T2 t (ix2 n c) = t n c := rfl

/-! ## Layer 1's weights and bias at an entry -/

/-- The block acting on the source node: rows `0 … 63` of layer 1's weights. -/
theorem w_src (cw : Arr3 2 128 64) (k c : Fin 64) : val_main_v66 (F := Ideal) cw (ix2 k c) = Ws cw 1 k c := by
  have hk := k.isLt
  have hc := c.isLt
  rw [val_main_v66_apply, val_main_v65_apply]
  unfold Ws
  congr 1
  funext a
  apply Fin.ext
  match a with
  | ⟨0, _⟩ => rfl
  | ⟨1, _⟩ => show (k.val * 64 + c.val) / 64 % 64 = k.val; omega
  | ⟨2, _⟩ => show (k.val * 64 + c.val) % 64 = c.val; omega

/-- The block acting on the destination node: rows `64 … 127`. -/
theorem w_dst (cw : Arr3 2 128 64) (k c : Fin 64) : val_main_v68 (F := Ideal) cw (ix2 k c) = Wd cw 1 k c := by
  have hk := k.isLt
  have hc := c.isLt
  rw [val_main_v68_apply, val_main_v67_apply]
  unfold Wd
  congr 1
  funext a
  apply Fin.ext
  match a with
  | ⟨0, _⟩ => rfl
  | ⟨1, _⟩ => show 64 + (k.val * 64 + c.val) / 64 % 64 = 64 + k.val; omega
  | ⟨2, _⟩ => show (k.val * 64 + c.val) % 64 = c.val; omega

/-- The bias row of layer 1, broadcast over the edges. -/
theorem bias_at (cb : Arr2 2 64) (e : Fin 800000) (c : Fin 64) : val_main_v89 (F := Ideal) cb (ix2 e c) = cb (ix2 1 c) := by
  have hc := c.isLt
  rw [val_main_v89_apply, val_main_v88_apply, val_main_v87_apply, val_main_v86_apply]
  congr 1
  funext a
  apply Fin.ext
  match a with
  | ⟨0, _⟩ => rfl
  | ⟨1, _⟩ => show c.val % 64 = c.val; omega

/-! ## The looked-up rows -/

/-- The source index word as the lookup sees it: wrapped once when negative. -/
theorem wrap_src (s : Idx1 800000) (e : Fin 800000) : val_main_v74 (F := Ideal) s (ix2 e (0 : Fin 1)) = wrap (s (ix1 e)) := by
  have hi : idx_main_v74 (ix2 e (0 : Fin 1)) = ix1 e := funext fun a => Fin.ext (by match a with | ⟨0, _⟩ => rfl)
  rw [val_main_v74_apply, hi, val_main_v73_apply, val_main_v70_apply, val_main_v72_apply, val_main_v69_apply,
    val_main_v71_apply, val_main_c_6_apply, val_main_c_7_apply]
  rfl

/-- The destination index word as the lookup sees it. -/
theorem wrap_dst (d : Idx1 800000) (e : Fin 800000) : val_main_v82 (F := Ideal) d (ix2 e (0 : Fin 1)) = wrap (d (ix1 e)) := by
  have hi : idx_main_v82 (ix2 e (0 : Fin 1)) = ix1 e := funext fun a => Fin.ext (by match a with | ⟨0, _⟩ => rfl)
  rw [val_main_v82_apply, hi, val_main_v81_apply, val_main_v78_apply, val_main_v80_apply, val_main_v77_apply,
    val_main_v79_apply, val_main_c_8_apply, val_main_c_9_apply]
  rfl

/-- The row looked up at an edge's source: the first layer's table at the wrapped, clamped row. -/
theorem row_src (e : Fin 800000) (k : Fin 64) :
    val_main_v75 (F := Ideal) A.x A.ew A.eb A.cw A.cb A.g A.be A.mu A.va A.src A.dst (ix2 e k) = H1 A (rowOf (A.src (ix1 e))) k := by
  unfold val_main_v75
  rw [ref_h1]
  show Host.gather (rowDims 50000 800000 64 _) (T2 (H1 A)) (val_main_v74 (F := Ideal) A.src) (ix2 e k) = _
  rw [gather_rows_apply (by decide)]
  show H1 A _ k = H1 A _ k
  congr 1
  apply Fin.ext
  show min (val_main_v74 (F := Ideal) A.src (ix2 e (0 : Fin 1))).toInt.toNat (50000 - 1) = min (wrap (A.src (ix1 e))).toInt.toNat 49999
  rw [wrap_src]

/-- The row looked up at an edge's destination. -/
theorem row_dst (e : Fin 800000) (k : Fin 64) :
    val_main_v83 (F := Ideal) A.x A.ew A.eb A.cw A.cb A.g A.be A.mu A.va A.src A.dst (ix2 e k) = H1 A (rowOf (A.dst (ix1 e))) k := by
  unfold val_main_v83
  rw [ref_h1]
  show Host.gather (rowDims 50000 800000 64 _) (T2 (H1 A)) (val_main_v82 (F := Ideal) A.dst) (ix2 e k) = _
  rw [gather_rows_apply (by decide)]
  show H1 A _ k = H1 A _ k
  congr 1
  apply Fin.ext
  show min (val_main_v82 (F := Ideal) A.dst (ix2 e (0 : Fin 1))).toInt.toNat (50000 - 1) = min (wrap (A.dst (ix1 e))).toInt.toNat 49999
  rw [wrap_dst]

/-! ## The edge message and its sum at the destinations -/

/-- The message of edge `e` at channel `c`, as the reference computes it from the first layer's table. -/
theorem msg_at (e : Fin 800000) (c : Fin 64) :
    val_main_v90 (F := Ideal) A.x A.ew A.eb A.cw A.cb A.g A.be A.mu A.va A.src A.dst (ix2 e c)
      = msg (H1 A) A.cw A.cb 1 (A.src (ix1 e)) (A.dst (ix1 e)) c := by
  have hl : ∀ k : Fin 64, lidx_main_v76 (ix2 e c) k = ix2 e k := fun k =>
    funext fun a => Fin.ext (by match a with | ⟨0, _⟩ => rfl | ⟨1, _⟩ => rfl)
  have hr : ∀ k : Fin 64, ridx_main_v76 (ix2 e c) k = ix2 k c := fun k =>
    funext fun a => Fin.ext (by match a with | ⟨0, _⟩ => rfl | ⟨1, _⟩ => rfl)
  have hl' : ∀ k : Fin 64, lidx_main_v84 (ix2 e c) k = ix2 e k := fun k =>
    funext fun a => Fin.ext (by match a with | ⟨0, _⟩ => rfl | ⟨1, _⟩ => rfl)
  have hr' : ∀ k : Fin 64, ridx_main_v84 (ix2 e c) k = ix2 k c := fun k =>
    funext fun a => Fin.ext (by match a with | ⟨0, _⟩ => rfl | ⟨1, _⟩ => rfl)
  rw [val_main_v90_apply, val_main_v85_apply, val_main_v76_apply, val_main_v84_apply, bias_at]
  simp only [hl, hr, hl', hr', row_src, row_dst, w_src, w_dst]
  unfold msg
  rfl

end L1

/-- Layer 1's aggregation. -/
theorem ref_agg1 : val_main_v93 (F := Ideal) A.x A.ew A.eb A.cw A.cb A.g A.be A.mu A.va A.src A.dst = T2 (agg (H1 A) A.cw A.cb 1 A.src A.dst) := by
  funext i
  obtain ⟨v, c, rfl⟩ : ∃ (v : Fin 50000) (c : Fin 64), i = ix2 v c := ⟨i 0, i 1, eq_ix2 i⟩
  have h0 : val_main_v91 (F := Ideal) (ix2 v c) = 0 := by
    rw [val_main_v91_apply, val_main_cst_10_apply]
    exact Ideal.ofBits_zero_f32
  have hd : ∀ e : Fin 800000, val_main_v92 (F := Ideal) A.dst (ix2 e (0 : Fin 1)) = A.dst (ix1 e) := fun e => by
    have hi : idx_main_v92 (ix2 e (0 : Fin 1)) = ix1 e := funext fun a => Fin.ext (by match a with | ⟨0, _⟩ => rfl)
    rw [val_main_v92_apply, hi]
  rw [L1.T2_apply]
  unfold val_main_v93
  rw [Host.scatterAdd, Ideal.hostScatterAdd_def]
  rw [show scatter_S50000x64_S800000x1_S800000x64_1_0_0_1
    = rowScatter 50000 800000 64 scatter_S50000x64_S800000x1_S800000x64_1_0_0_1_wf from rfl]
  rw [scatterAdd_rows_apply, h0, zero_add]
  unfold agg landing
  refine Finset.sum_congr (Finset.filter_congr fun e _ => by rw [hd e]) fun e _ => ?_
  exact L1.msg_at A e c

namespace L1

/-! ## The update's pieces at an entry -/

/-- The word `0x3F800000` is the number one. -/
theorem ofBits_one_f32 : Ideal.ofBits .f32 0x3F800000#32 = 1 := by
  simp [Ideal.ofBits, Ideal.ieee, -EReal.coe_mul]; norm_num

/-- The reference's spelling of the logistic function. -/
theorem logistic_form (a : EReal) :
    Ideal.div (Ideal.ofBits .f32 0x3F800000#32) (Ideal.ofBits .f32 0x3F800000#32 + Ideal.exp (-a)) = Ideal.logistic a := by
  rw [ofBits_one_f32]
  rfl

/-- The reference's spelling of softplus: the branch taken when `x − 0` differs from itself is never taken. -/
theorem softplus_form (h : EReal) :
    Scalar.select (Ideal.cmp .une (h - Ideal.ofBits .f32 0x00000000#32) (h - Ideal.ofBits .f32 0x00000000#32))
      (h + Ideal.ofBits .f32 0x00000000#32)
      (max h (Ideal.ofBits .f32 0x00000000#32) + Ideal.log1p (Ideal.exp (-(max (h - Ideal.ofBits .f32 0x00000000#32)
        (-(h - Ideal.ofBits .f32 0x00000000#32)))))) = softplus h := by
  rw [Ideal.ofBits_zero_f32]
  have hc : Ideal.cmp .une (h - 0) (h - 0) = 0#1 := by
    unfold Ideal.cmp
    simp
  rw [hc, select_zero]
  exact softplus_eq_neg_form h

/-- A parameter row of layer 1 broadcast over the nodes: the mean, -/
theorem mu_at (x : Arr2 2 64) (n : Fin 50000) (c : Fin 64) : val_main_v107 (F := Ideal) x (ix2 n c) = x (ix2 1 c) := by
  have hc := c.isLt
  have hi : idx_main_v104 (idx_main_v105 (idx_main_v106 (idx_main_v107 (ix2 n c)))) = ix2 1 c := funext fun a => Fin.ext (by
    match a with
    | ⟨0, _⟩ => rfl
    | ⟨1, _⟩ => show c.val % 64 = c.val; omega)
  rw [val_main_v107_apply, val_main_v106_apply, val_main_v105_apply, val_main_v104_apply, hi]

/-- the scale, -/
theorem g_at (x : Arr2 2 64) (n : Fin 50000) (c : Fin 64) : val_main_v110 (F := Ideal) x (ix2 n c) = x (ix2 1 c) := by
  have hc := c.isLt
  have hi : idx_main_v102 (idx_main_v103 (idx_main_v109 (idx_main_v110 (ix2 n c)))) = ix2 1 c := funext fun a => Fin.ext (by
    match a with
    | ⟨0, _⟩ => rfl
    | ⟨1, _⟩ => show c.val % 64 = c.val; omega)
  rw [val_main_v110_apply, val_main_v109_apply, val_main_v103_apply, val_main_v102_apply, hi]

/-- the shift, -/
theorem be_at (x : Arr2 2 64) (n : Fin 50000) (c : Fin 64) : val_main_v123 (F := Ideal) x (ix2 n c) = x (ix2 1 c) := by
  have hc := c.isLt
  have hi : idx_main_v120 (idx_main_v121 (idx_main_v122 (idx_main_v123 (ix2 n c)))) = ix2 1 c := funext fun a => Fin.ext (by
    match a with
    | ⟨0, _⟩ => rfl
    | ⟨1, _⟩ => show c.val % 64 = c.val; omega)
  rw [val_main_v123_apply, val_main_v122_apply, val_main_v121_apply, val_main_v120_apply, hi]

/-- and the inverse square root of the variance plus `ε`. -/
theorem rs_at (x : Arr2 2 64) (n : Fin 50000) (c : Fin 64) :
    val_main_v118 (F := Ideal) x (ix2 n c) = Ideal.rsqrt (x (ix2 1 c) + eps) := by
  have hc := c.isLt
  have hi : idx_main_v112 (idx_main_v113 (idx_main_v117 (idx_main_v118 (ix2 n c)))) = ix2 1 c := funext fun a => Fin.ext (by
    match a with
    | ⟨0, _⟩ => rfl
    | ⟨1, _⟩ => show c.val % 64 = c.val; omega)
  rw [val_main_v118_apply, val_main_v117_apply, val_main_v116_apply, val_main_v115_apply, val_main_v113_apply,
    val_main_v112_apply, val_main_v114_apply, val_main_cst_13_apply, hi]
  rfl

/-- The logistic of the aggregate. -/
theorem logistic_at (n : Fin 50000) (c : Fin 64) :
    val_main_v99 (F := Ideal) A.x A.ew A.eb A.cw A.cb A.g A.be A.mu A.va A.src A.dst (ix2 n c)
      = Ideal.logistic (agg (H1 A) A.cw A.cb 1 A.src A.dst n c) := by
  rw [val_main_v99_apply, val_main_v98_apply, val_main_cst_12_apply, val_main_v97_apply, val_main_v96_apply,
    val_main_cst_11_apply, val_main_v95_apply, val_main_v94_apply, ref_agg1, T2_apply]
  simp only [Ideal.hostDivf_def, Ideal.ofBits_def, Ideal.addf_def, Ideal.hostUnary_exp_def, Ideal.hostNegf_def, Ideal.negf_def]
  exact logistic_form (agg (H1 A) A.cw A.cb 1 A.src A.dst n c)

/-- The softplus of the first layer's table. -/
theorem softplus_at (n : Fin 50000) (c : Fin 64) :
    val_main_v100 (F := Ideal) A.x A.ew A.eb A.cw A.cb A.g A.be A.mu A.va A.src A.dst (ix2 n c) = softplus (H1 A n c) := by
  rw [val_main_v100_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, val_main_call2_v0_apply, val_main_call2_v2_apply,
    val_main_call2_v5_apply, val_main_call2_cst_apply, ref_h1, T2_apply]
  exact softplus_form _

/-- The zero the update is clamped at. -/
theorem relu_zero_at (n : Fin 50000) (c : Fin 64) : val_main_call3_v0 (F := Ideal) (ix2 n c) = 0 := by
  rw [val_main_call3_v0_apply, val_main_call3_cst_apply]
  exact Ideal.ofBits_zero_f32

end L1

/-- Layer 1's update. -/
theorem ref_h2 : val_main_v125 (F := Ideal) A.x A.ew A.eb A.cw A.cb A.g A.be A.mu A.va A.src A.dst = T2 (H2 A) := by
  funext i
  obtain ⟨n, c, rfl⟩ : ∃ (n : Fin 50000) (c : Fin 64), i = ix2 n c := ⟨i 0, i 1, eq_ix2 i⟩
  rw [L1.T2_apply, val_main_v125_apply, val_main_v124_apply, val_main_v119_apply, val_main_v111_apply, val_main_v108_apply,
    val_main_v101_apply, L1.logistic_at, L1.softplus_at, L1.mu_at, L1.g_at, L1.rs_at, L1.be_at, L1.relu_zero_at]
  unfold H2 layer upd
  rfl

end Cert.ReferenceIdeal.RefVal

end
-- ==== Proof.RefOut.lean ====
/-
  THE REFERENCE'S TWO RESULTS from the final table: for each pair of index words, the sum over the 64 channels of the
  product of the two looked-up rows and the relation weight. The positive scores pair each edge's own endpoints; the
  negative scores pair the source of edge `q / 5` (each source repeated five times, row-major) with the `q`-th sampled
  destination. The sums start from the zero word, which is the real zero.
-/
import proofs.«407718_j73289321939189_3_alg».proof.Proof.Gen.ReferenceIdeal.Read
import proofs.«407718_j73289321939189_3_alg».proof.Proof.Spec
import proofs.«407718_j73289321939189_3_alg».proof.Proof.IdxOps
import proofs.«407718_j73289321939189_3_alg».proof.Proof.ELaws
import proofs.«407718_j73289321939189_3_alg».proof.Proof.RefL1
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Idealize.ShloMosaic Idealize.ShloMosaic.ValueIdx
open Cert.ReferenceIdeal Cert.ReferenceIdeal.Facts₀ Cert.ReferenceIdeal.Facts Cert.ReferenceIdeal.Read Cert.Link

variable (A : Args)

/-! ## The index words the lookups are handed -/

/-- For edge `e`'s source the lookup is handed the source word, wrapped once if negative. -/
theorem out_word_src (e : Fin 800000) :
    val_main_v131 (F := Ideal) A.src (ix2 e (0 : Fin 1)) = wrap (A.src (ix1 e)) := by
  have hi : idx_main_v131 (ix2 e (0 : Fin 1)) = ix1 e := funext fun a => Fin.ext (by match a with | ⟨0, _⟩ => rfl)
  rw [val_main_v131_apply, hi, val_main_v130_apply, val_main_v127_apply, val_main_v129_apply, val_main_v126_apply,
    val_main_v128_apply, val_main_c_14_apply, val_main_c_15_apply]
  rfl

/-- For edge `e`'s destination it is handed the destination word, wrapped once if negative. -/
theorem out_word_dst (e : Fin 800000) :
    val_main_v138 (F := Ideal) A.dst (ix2 e (0 : Fin 1)) = wrap (A.dst (ix1 e)) := by
  have hi : idx_main_v138 (ix2 e (0 : Fin 1)) = ix1 e := funext fun a => Fin.ext (by match a with | ⟨0, _⟩ => rfl)
  rw [val_main_v138_apply, hi, val_main_v137_apply, val_main_v134_apply, val_main_v136_apply, val_main_v133_apply,
    val_main_v135_apply, val_main_c_16_apply, val_main_c_17_apply]
  rfl

/-- The sources repeated five times in a row: entry `q` of the flattened `[800000, 5]` array is the source word of
    edge `q / 5`, because the flattening keeps the row-major position `q = 5 (q / 5) + q % 5`. -/
theorem out_rep_src (q : Fin 4000000) : val_main_v145 (F := Ideal) A.src (ix1 q) = A.src (ix1 (srcOf q)) := by
  have hi : idx_main_v144 (idx_main_v145 (ix1 q)) = ix1 (srcOf q) := funext fun a => Fin.ext (by match a with | ⟨0, _⟩ => rfl)
  rw [val_main_v145_apply, val_main_v144_apply, hi]

/-- For negative sample `q`'s source the lookup is handed the word of edge `q / 5`'s source, wrapped once if negative. -/
theorem out_word_rep (q : Fin 4000000) :
    val_main_v151 (F := Ideal) A.src (ix2 q (0 : Fin 1)) = wrap (A.src (ix1 (srcOf q))) := by
  have hi : idx_main_v151 (ix2 q (0 : Fin 1)) = ix1 q := funext fun a => Fin.ext (by match a with | ⟨0, _⟩ => rfl)
  rw [val_main_v151_apply, hi, val_main_v150_apply, val_main_v147_apply, val_main_v149_apply, val_main_v146_apply,
    val_main_v148_apply, val_main_c_19_apply, val_main_c_20_apply, out_rep_src]
  rfl

/-- For negative sample `q`'s destination it is handed the sampled word, wrapped once if negative. -/
theorem out_word_nd (q : Fin 4000000) :
    val_main_v158 (F := Ideal) A.nd (ix2 q (0 : Fin 1)) = wrap (A.nd (ix1 q)) := by
  have hi : idx_main_v158 (ix2 q (0 : Fin 1)) = ix1 q := funext fun a => Fin.ext (by match a with | ⟨0, _⟩ => rfl)
  rw [val_main_v158_apply, hi, val_main_v157_apply, val_main_v154_apply, val_main_v156_apply, val_main_v153_apply,
    val_main_v155_apply, val_main_c_21_apply, val_main_c_22_apply]
  rfl

/-! ## The looked-up rows of the final table -/

/-- A row lookup of the final table, by an index array whose word for row `e` is the wrapped `w`, reads node `rowOf w`:
    the word is read signed and clamped into the table. -/
theorem out_lookup {R : Nat} (wf : GatherDims.WF ⟨2, ![50000, 64]⟩ ⟨2, ![R, 1]⟩ ⟨2, ![R, 64]⟩ [1] [0] [] [0] [] 1 ![1, 64])
    (idx : IVec ⟨2, ![R, 1]⟩ 32) (w : BitVec 32) (e : Fin R) (c : Fin 64) (hw : idx (ix2 e (0 : Fin 1)) = wrap w) :
    Host.gather (rowDims 50000 R 64 wf) (T2 (H2 A)) idx (ix2 e c) = H2 A (rowOf w) c := by
  rw [gather_rows_apply (by decide) wf]
  show H2 A _ c = H2 A (rowOf w) c
  congr 1
  apply Fin.ext
  show min (idx (ix2 e (0 : Fin 1))).toInt.toNat 49999 = min (wrap w).toInt.toNat 49999
  rw [hw]

theorem out_row_src (e : Fin 800000) (c : Fin 64) :
    val_main_v132 (F := Ideal) A.x A.ew A.eb A.cw A.cb A.g A.be A.mu A.va A.src A.dst (ix2 e c) = H2 A (rowOf (A.src (ix1 e))) c := by
  unfold val_main_v132
  rw [ref_h2 A]
  exact out_lookup A _ _ (A.src (ix1 e)) e c (out_word_src A e)

theorem out_row_dst (e : Fin 800000) (c : Fin 64) :
    val_main_v139 (F := Ideal) A.x A.ew A.eb A.cw A.cb A.g A.be A.mu A.va A.src A.dst (ix2 e c) = H2 A (rowOf (A.dst (ix1 e))) c := by
  unfold val_main_v139
  rw [ref_h2 A]
  exact out_lookup A _ _ (A.dst (ix1 e)) e c (out_word_dst A e)

theorem out_row_rep (q : Fin 4000000) (c : Fin 64) :
    val_main_v152 (F := Ideal) A.x A.ew A.eb A.cw A.cb A.g A.be A.mu A.va A.src A.dst (ix2 q c) = H2 A (rowOf (A.src (ix1 (srcOf q)))) c := by
  unfold val_main_v152
  rw [ref_h2 A]
  exact out_lookup A _ _ (A.src (ix1 (srcOf q))) q c (out_word_rep A q)

theorem out_row_nd (q : Fin 4000000) (c : Fin 64) :
    val_main_v159 (F := Ideal) A.x A.ew A.eb A.cw A.cb A.g A.be A.mu A.va A.src A.dst A.nd (ix2 q c) = H2 A (rowOf (A.nd (ix1 q))) c := by
  unfold val_main_v159
  rw [ref_h2 A]
  exact out_lookup A _ _ (A.nd (ix1 q)) q c (out_word_nd A q)

/-- The positive scores. -/
theorem ref_pos : val_main_v143 (F := Ideal) A.x A.ew A.eb A.cw A.cb A.g A.be A.mu A.va A.wr A.src A.dst = pos A := by
  funext i
  obtain ⟨e, rfl⟩ : ∃ e : Fin 800000, i = ix1 e := ⟨i 0, eq_ix1 i⟩
  have h3 : ∀ k : Fin 64, idx_main_v143 (ix1 e) k = ix2 e k :=
    fun k => funext fun a => Fin.ext (by match a with | ⟨0, _⟩ => rfl | ⟨1, _⟩ => rfl)
  have h1 : ∀ k : Fin 64, idx_main_v141 (ix2 e k) = ix2 (0 : Fin 1) k :=
    fun k => funext fun a => Fin.ext (by match a with | ⟨0, _⟩ => rfl | ⟨1, _⟩ => rfl)
  rw [val_main_v143_apply, val_main_cst_18_apply, Ideal.ofBits_def, Ideal.ofBits_zero_f32, zero_add]
  show _ = score (H2 A) A.wr (A.src (ix1 e)) (A.dst (ix1 e))
  unfold score
  refine Finset.sum_congr rfl fun k _ => ?_
  rw [h3, val_main_v142_apply, val_main_v140_apply, val_main_v141_apply, h1, out_row_src, out_row_dst]
  rfl

/-- The negative scores. -/
theorem ref_neg : val_main_v163 (F := Ideal) A.x A.ew A.eb A.cw A.cb A.g A.be A.mu A.va A.wr A.src A.dst A.nd = neg A := by
  funext i
  obtain ⟨q, rfl⟩ : ∃ q : Fin 4000000, i = ix1 q := ⟨i 0, eq_ix1 i⟩
  have h3 : ∀ k : Fin 64, idx_main_v163 (ix1 q) k = ix2 q k :=
    fun k => funext fun a => Fin.ext (by match a with | ⟨0, _⟩ => rfl | ⟨1, _⟩ => rfl)
  have h1 : ∀ k : Fin 64, idx_main_v161 (ix2 q k) = ix2 (0 : Fin 1) k :=
    fun k => funext fun a => Fin.ext (by match a with | ⟨0, _⟩ => rfl | ⟨1, _⟩ => rfl)
  rw [val_main_v163_apply, val_main_cst_23_apply, Ideal.ofBits_def, Ideal.ofBits_zero_f32, zero_add]
  show _ = score (H2 A) A.wr (A.src (ix1 (srcOf q))) (A.nd (ix1 q))
  unfold score
  refine Finset.sum_congr rfl fun k _ => ?_
  rw [h3, val_main_v162_apply, val_main_v160_apply, val_main_v161_apply, h1, out_row_rep, out_row_nd]
  rfl

end Cert.ReferenceIdeal.RefVal

end
-- ==== Proof.lean ====
/-
  THE CERTIFICATE: a two-layer graph convolution with link scoring, as a Pallas program of five pallas_calls against its
  jnp reference, equal over the extended reals.

  Both programs compute the same embedding `x · W + b` (the kernel's bf16 casts are the identity on extended reals, its
  matrix-unit product into a zero accumulator the host's plain sum). Per layer the reference sends along every edge the
  message `h[src] · W_s + h[dst] · W_d + b` and sums at each node the messages landing on it; the kernel program multiplies
  the node table once by `[W_s | W_d]`, sums the looked-up source terms at the destinations, and adds the in-degree times
  the node's own destination term plus the bias. The two agree entry by entry: on an edge that lands on node `v` the
  destination lookup reads row `v` itself (the word is in range, so neither the wrap of negatives nor the clamp acts), and
  a summand common to all landing edges comes out of the sum as (the sum of ones) times it — true for every extended
  real, the infinities included, because a natural number times `c` is `c` added that many times; an edge whose
  destination lies outside the table lands nowhere in either program, and a lookup reads the same wrapped, clamped row
  in both. The node update is the same pointwise function, computed by the kernel on a view that merges pairs of rows;
  `tpu.logistic` and `1 / (1 + e^{-x})` denote one function, and the NaN guard inside softplus never fires on the
  extended reals. The scores differ by a reassociation of a product. No finiteness of the inputs is used.

  The three frames: the two kernel programs' are the generated frame certificates; the reference's is its generated run
  with the results dropped. The ideal pass rewrote nothing, so `preserves` is trivial.
-/
import proofs.«407718_j73289321939189_3_alg».proof.Defs
import proofs.«407718_j73289321939189_3_alg».proof.Proof.Gen.Kernel.Frame
import proofs.«407718_j73289321939189_3_alg».proof.Proof.Gen.KernelIdeal.Frame
import proofs.«407718_j73289321939189_3_alg».proof.Proof.Gen.ReferenceIdeal
import proofs.«407718_j73289321939189_3_alg».proof.Proof.Gen.Pre_finite_inputs
import proofs.«407718_j73289321939189_3_alg».proof.Proof.KChain
import proofs.«407718_j73289321939189_3_alg».proof.Proof.RefOut
import Idealize.ShloMosaic.Adequacy
import Idealize.ShloMosaic.Init

noncomputable section

namespace Cert.Proof

open Idealize.ShloMosaic Idealize.ShloMosaic.TcCoe Idealize.SL.Sem Cert.Link

/-- The reference's thirteen argument arrays of core `c`, as launched. -/
def argsR (m' : (ℓ : Loc Cert.ReferenceIdeal.nD Cert.ReferenceIdeal.τ Cert.ReferenceIdeal.sig) → Buf (Elt Ideal) ℓ)
    (c : Dev Cert.ReferenceIdeal.nD) : Args where
  x := m' ((c.tc : Thread Cert.ReferenceIdeal.nD Cert.ReferenceIdeal.τ).loc Cert.ReferenceIdeal.main_arg0)
  ew := m' ((c.tc : Thread Cert.ReferenceIdeal.nD Cert.ReferenceIdeal.τ).loc Cert.ReferenceIdeal.main_arg1)
  eb := m' ((c.tc : Thread Cert.ReferenceIdeal.nD Cert.ReferenceIdeal.τ).loc Cert.ReferenceIdeal.main_arg2)
  cw := m' ((c.tc : Thread Cert.ReferenceIdeal.nD Cert.ReferenceIdeal.τ).loc Cert.ReferenceIdeal.main_arg3)
  cb := m' ((c.tc : Thread Cert.ReferenceIdeal.nD Cert.ReferenceIdeal.τ).loc Cert.ReferenceIdeal.main_arg4)
  g := m' ((c.tc : Thread Cert.ReferenceIdeal.nD Cert.ReferenceIdeal.τ).loc Cert.ReferenceIdeal.main_arg5)
  be := m' ((c.tc : Thread Cert.ReferenceIdeal.nD Cert.ReferenceIdeal.τ).loc Cert.ReferenceIdeal.main_arg6)
  mu := m' ((c.tc : Thread Cert.ReferenceIdeal.nD Cert.ReferenceIdeal.τ).loc Cert.ReferenceIdeal.main_arg7)
  va := m' ((c.tc : Thread Cert.ReferenceIdeal.nD Cert.ReferenceIdeal.τ).loc Cert.ReferenceIdeal.main_arg8)
  wr := m' ((c.tc : Thread Cert.ReferenceIdeal.nD Cert.ReferenceIdeal.τ).loc Cert.ReferenceIdeal.main_arg9)
  src := m' ((c.tc : Thread Cert.ReferenceIdeal.nD Cert.ReferenceIdeal.τ).loc Cert.ReferenceIdeal.main_arg10)
  dst := m' ((c.tc : Thread Cert.ReferenceIdeal.nD Cert.ReferenceIdeal.τ).loc Cert.ReferenceIdeal.main_arg11)
  nd := m' ((c.tc : Thread Cert.ReferenceIdeal.nD Cert.ReferenceIdeal.τ).loc Cert.ReferenceIdeal.main_arg12)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the specification's two score vectors of those
    arguments: the kernel program by following its memory through its eleven segments, the reference by its run read
    stage by stage. -/
theorem algebraic : Cert.algebraic_KernelIdeal_ReferenceIdeal := by
  intro m ρ m' ρ' _ hagree
  refine ⟨fun c => pos (Cert.KernelIdeal.Gen.args m c), fun c => neg (Cert.KernelIdeal.Gen.args m c), ?_, ?_⟩
  · refine (θ_run Cert.KernelIdeal.defs _ _).mono (fun r h c => ?_) (Cert.KernelIdeal.Gen.run_all m ρ)
    have hc := h c
    exact ⟨(hc _ (Cert.KernelIdeal.Gen.mem_uc Cert.KernelIdeal.main_v132 (by decide))).trans (Cert.KernelIdeal.Gen.pos_at11 m ρ c),
      (hc _ (Cert.KernelIdeal.Gen.mem_uc Cert.KernelIdeal.main_v150 (by decide))).trans (Cert.KernelIdeal.Gen.neg_at11 m ρ c),
      (hc _ (Cert.KernelIdeal.Gen.mem_uc Cert.KernelIdeal.main_arg0 (by decide))).trans (Cert.KernelIdeal.Gen.W11_main_arg0 m ρ c),
      (hc _ (Cert.KernelIdeal.Gen.mem_uc Cert.KernelIdeal.main_arg1 (by decide))).trans (Cert.KernelIdeal.Gen.W11_main_arg1 m ρ c),
      (hc _ (Cert.KernelIdeal.Gen.mem_uc Cert.KernelIdeal.main_arg2 (by decide))).trans (Cert.KernelIdeal.Gen.W11_main_arg2 m ρ c),
      (hc _ (Cert.KernelIdeal.Gen.mem_uc Cert.KernelIdeal.main_arg3 (by decide))).trans (Cert.KernelIdeal.Gen.W11_main_arg3 m ρ c),
      (hc _ (Cert.KernelIdeal.Gen.mem_uc Cert.KernelIdeal.main_arg4 (by decide))).trans (Cert.KernelIdeal.Gen.W11_main_arg4 m ρ c),
      (hc _ (Cert.KernelIdeal.Gen.mem_uc Cert.KernelIdeal.main_arg5 (by decide))).trans (Cert.KernelIdeal.Gen.W11_main_arg5 m ρ c),
      (hc _ (Cert.KernelIdeal.Gen.mem_uc Cert.KernelIdeal.main_arg6 (by decide))).trans (Cert.KernelIdeal.Gen.W11_main_arg6 m ρ c),
      (hc _ (Cert.KernelIdeal.Gen.mem_uc Cert.KernelIdeal.main_arg7 (by decide))).trans (Cert.KernelIdeal.Gen.W11_main_arg7 m ρ c),
      (hc _ (Cert.KernelIdeal.Gen.mem_uc Cert.KernelIdeal.main_arg8 (by decide))).trans (Cert.KernelIdeal.Gen.W11_main_arg8 m ρ c),
      (hc _ (Cert.KernelIdeal.Gen.mem_uc Cert.KernelIdeal.main_arg9 (by decide))).trans (Cert.KernelIdeal.Gen.W11_main_arg9 m ρ c),
      (hc _ (Cert.KernelIdeal.Gen.mem_uc Cert.KernelIdeal.main_arg10 (by decide))).trans (Cert.KernelIdeal.Gen.W11_main_arg10 m ρ c),
      (hc _ (Cert.KernelIdeal.Gen.mem_uc Cert.KernelIdeal.main_arg11 (by decide))).trans (Cert.KernelIdeal.Gen.W11_main_arg11 m ρ c),
      (hc _ (Cert.KernelIdeal.Gen.mem_uc Cert.KernelIdeal.main_arg12 (by decide))).trans (Cert.KernelIdeal.Gen.W11_main_arg12 m ρ c)⟩
  · refine (θ_run Cert.ReferenceIdeal.defs _ _).mono (fun r h c => ?_)
      (Cert.ReferenceIdeal.Value.run (F := Ideal) m' ρ')
    obtain ⟨h0, h1, hkept⟩ := h c
    have hA : argsR m' c = Cert.KernelIdeal.Gen.args m c := by
      obtain ⟨e0, e1, e2, e3, e4, e5, e6, e7, e8, e9, e10, e11, e12⟩ := hagree c
      unfold argsR Cert.KernelIdeal.Gen.args
      congr
    refine ⟨h0.trans ?_, h1.trans ?_, hkept⟩
    · exact (Cert.ReferenceIdeal.Read.val_main_v143_eq m' c).trans
        ((Cert.ReferenceIdeal.RefVal.ref_pos (argsR m' c)).trans (congrArg pos hA))
    · exact (Cert.ReferenceIdeal.Read.val_main_v163_eq m' c).trans
        ((Cert.ReferenceIdeal.RefVal.ref_neg (argsR m' c)).trans (congrArg neg hA))

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
